-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v57)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v98) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x1x512x512 : Shape := ⟨4, ![16, 1, 512, 512]⟩
abbrev S16x2x512x512 : Shape := ⟨4, ![16, 2, 512, 512]⟩
abbrev S16x32x128x2 : Shape := ⟨4, ![16, 32, 128, 2]⟩
abbrev S_ : Shape := ⟨0, ![]⟩

class Facts : Prop where
  bcast_S_S16x1x512x512 : S_.BroadcastsInDim S16x1x512x512 (![] : Fin 0 → Fin S16x1x512x512.rank)
  reducesTo_S16x1x512x512_S_d0_1_2_3 : S16x1x512x512.ReducesTo [0, 1, 2, 3] S_
  h_S_ : 0 < S_.numel
  bcast_S_S16x2x512x512 : S_.BroadcastsInDim S16x2x512x512 (![] : Fin 0 → Fin S16x2x512x512.rank)
  reducesTo_S16x2x512x512_S_d0_1_2_3 : S16x2x512x512.ReducesTo [0, 1, 2, 3] S_
  bcast_S_S16x32x128x2 : S_.BroadcastsInDim S16x32x128x2 (![] : Fin 0 → Fin S16x32x128x2.rank)
  reducesTo_S16x32x128x2_S_d0_1_2_3 : S16x32x128x2.ReducesTo [0, 1, 2, 3] S_

variable [Facts]

def fn_part1 {F : FTy → Type} [FloatOps F] (main_arg3 : IVec S16x32x128x2 32) (main_v13 : IVec S_ 1) (main_v15 : IVec S16x32x128x2 1) (main_c_5 : IVec S_ 1) : IVec S_ 1 :=
  let main_v16 : IVec S_ 1 := (fun x v => Host.reduce IntOp.andi x v reducesTo_S16x32x128x2_S_d0_1_2_3 h_S_) main_v15 main_c_5
  let main_v17 : IVec S_ 1 := andi main_v13 main_v16
  let main_c_6 : IVec S_ 32 := constantI S_ 32 512#32
  let main_v18 : IVec S16x32x128x2 32 := broadcastInDim S16x32x128x2 ![] bcast_S_S16x32x128x2 main_c_6
  let main_v19 : IVec S16x32x128x2 1 := cmpi .slt main_arg3 main_v18
  let main_c_7 : IVec S_ 1 := constantI S_ 1 1#1
  let main_v20 : IVec S_ 1 := (fun x v => Host.reduce IntOp.andi x v reducesTo_S16x32x128x2_S_d0_1_2_3 h_S_) main_v19 main_c_7
  let main_v21 : IVec S_ 1 := andi main_v17 main_v20
  main_v21

def fn {F : FTy → Type} [FloatOps F] (main_arg0 : FVec F S16x1x512x512 .f32) (main_arg1 : FVec F S16x2x512x512 .f32) (main_arg2 : FVec F S16x1x512x512 .f32) (main_arg3 : IVec S16x32x128x2 32) : IVec S_ 1 :=
  let main_v0 : FVec F S16x1x512x512 .f32 := Host.absf main_arg0
  let main_cst : FVec F S_ .f32 := constant S_ .f32 0x7F800000#32
  let main_v1 : FVec F S16x1x512x512 .f32 := broadcastInDim S16x1x512x512 ![] bcast_S_S16x1x512x512 main_cst
  let main_v2 : IVec S16x1x512x512 1 := cmpf .olt main_v0 main_v1
  let main_c : IVec S_ 1 := constantI S_ 1 1#1
  let main_v3 : IVec S_ 1 := (fun x v => Host.reduce IntOp.andi x v reducesTo_S16x1x512x512_S_d0_1_2_3 h_S_) main_v2 main_c
  let main_v4 : FVec F S16x2x512x512 .f32 := Host.absf main_arg1
  let main_cst_0 : FVec F S_ .f32 := constant S_ .f32 0x7F800000#32
  let main_v5 : FVec F S16x2x512x512 .f32 := broadcastInDim S16x2x512x512 ![] bcast_S_S16x2x512x512 main_cst_0
  let main_v6 : IVec S16x2x512x512 1 := cmpf .olt main_v4 main_v5
  let main_c_1 : IVec S_ 1 := constantI S_ 1 1#1
  let main_v7 : IVec S_ 1 := (fun x v => Host.reduce IntOp.andi x v reducesTo_S16x2x512x512_S_d0_1_2_3 h_S_) main_v6 main_c_1
  let main_v8 : IVec S_ 1 := andi main_v3 main_v7
  let main_v9 : FVec F S16x1x512x512 .f32 := Host.absf main_arg2
  let main_cst_2 : FVec F S_ .f32 := constant S_ .f32 0x7F800000#32
  let main_v10 : FVec F S16x1x512x512 .f32 := broadcastInDim S16x1x512x512 ![] bcast_S_S16x1x512x512 main_cst_2
  let main_v11 : IVec S16x1x512x512 1 := cmpf .olt main_v9 main_v10
  let main_c_3 : IVec S_ 1 := constantI S_ 1 1#1
  let main_v12 : IVec S_ 1 := (fun x v => Host.reduce IntOp.andi x v reducesTo_S16x1x512x512_S_d0_1_2_3 h_S_) main_v11 main_c_3
  let main_v13 : IVec S_ 1 := andi main_v8 main_v12
  let main_c_4 : IVec S_ 32 := constantI S_ 32 0#32
  let main_v14 : IVec S16x32x128x2 32 := broadcastInDim S16x32x128x2 ![] bcast_S_S16x32x128x2 main_c_4
  let main_v15 : IVec S16x32x128x2 1 := cmpi .sge main_arg3 main_v14
  let main_c_5 : IVec S_ 1 := constantI S_ 1 1#1
  fn_part1 (F := F) main_arg3 main_v13 main_v15 main_c_5
-- ==== Kernel.lean ====
abbrev S16x1x512x512 : Shape := ⟨4, ![16, 1, 512, 512]⟩
abbrev S16x2x512x512 : Shape := ⟨4, ![16, 2, 512, 512]⟩
abbrev S16x32x128x2 : Shape := ⟨4, ![16, 32, 128, 2]⟩
abbrev S16x512x512 : Shape := ⟨3, ![16, 512, 512]⟩
abbrev S16x128 : Shape := ⟨2, ![16, 128]⟩
abbrev S8x128x512 : Shape := ⟨3, ![8, 128, 512]⟩
abbrev S8x128 : Shape := ⟨2, ![8, 128]⟩
abbrev S8x1 : Shape := ⟨2, ![8, 1]⟩
abbrev S8 : Shape := ⟨1, ![8]⟩
abbrev S8x1x1 : Shape := ⟨3, ![8, 1, 1]⟩
abbrev S16x1 : Shape := ⟨2, ![16, 1]⟩
abbrev S16 : Shape := ⟨1, ![16]⟩
abbrev S_ : Shape := ⟨0, ![]⟩
abbrev S16x2x262144 : Shape := ⟨3, ![16, 2, 262144]⟩
abbrev S16x32x128x1 : Shape := ⟨4, ![16, 32, 128, 1]⟩
abbrev S16x32x128 : Shape := ⟨3, ![16, 32, 128]⟩
abbrev S16x4096 : Shape := ⟨2, ![16, 4096]⟩
abbrev S16x1x4096 : Shape := ⟨3, ![16, 1, 4096]⟩
abbrev S16x2x4096 : Shape := ⟨3, ![16, 2, 4096]⟩
abbrev S16x2x4096x1 : Shape := ⟨4, ![16, 2, 4096, 1]⟩
abbrev S1 : Shape := ⟨1, ![1]⟩
abbrev S1x1x1x1 : Shape := ⟨4, ![1, 1, 1, 1]⟩
abbrev S16x2x32x128 : Shape := ⟨4, ![16, 2, 32, 128]⟩
abbrev S16x32x2 : Shape := ⟨3, ![16, 32, 2]⟩
abbrev S16x32x1x2 : Shape := ⟨4, ![16, 32, 1, 2]⟩
abbrev S16x32 : Shape := ⟨2, ![16, 32]⟩

abbrev nBuf : Space → Nat
  | .hbm => 101
  | .vmem => 9
  | .smem => 0
  | _ => 0

abbrev bufTy : (tb : Table) → Fin (tcTables nBuf tb) → BufTy
  | .hbm, ⟨0, _⟩ => ⟨S16x1x512x512, .f32⟩
  | .hbm, ⟨1, _⟩ => ⟨S16x2x512x512, .f32⟩
  | .hbm, ⟨2, _⟩ => ⟨S16x1x512x512, .f32⟩
  | .hbm, ⟨3, _⟩ => ⟨S16x32x128x2, .i32⟩
  | .hbm, ⟨4, _⟩ => ⟨S16x512x512, .f32⟩
  | .hbm, ⟨5, _⟩ => ⟨S16x512x512, .f32⟩
  | .hbm, ⟨6, _⟩ => ⟨S16x128, .f32⟩
  | .hbm, ⟨7, _⟩ => ⟨S16x1, .f32⟩
  | .hbm, ⟨8, _⟩ => ⟨S16, .f32⟩
  | .hbm, ⟨9, _⟩ => ⟨S16x1, .f32⟩
  | .hbm, ⟨10, _⟩ => ⟨S16, .f32⟩
  | .hbm, ⟨11, _⟩ => ⟨S16x1, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S_, .f32⟩
  | .hbm, ⟨17, _⟩ => ⟨S16, .f32⟩
  | .hbm, ⟨18, _⟩ => ⟨S16, .f32⟩
  | .hbm, ⟨19, _⟩ => ⟨S_, .f32⟩
  | .hbm, ⟨20, _⟩ => ⟨S16, .f32⟩
  | .hbm, ⟨21, _⟩ => ⟨S16, .f32⟩
  | .hbm, ⟨22, _⟩ => ⟨S16, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S16x2x262144, .f32⟩
  | .hbm, ⟨34, _⟩ => ⟨S16x32x128x1, .i32⟩
  | .hbm, ⟨35, _⟩ => ⟨S16x32x128, .i32⟩
  | .hbm, ⟨36, _⟩ => ⟨S16x32x128x1, .i32⟩
  | .hbm, ⟨37, _⟩ => ⟨S16x32x128, .i32⟩
  | .hbm, ⟨38, _⟩ => ⟨S_, .i32⟩
  | .hbm, ⟨39, _⟩ => ⟨S16x32x128, .i32⟩
  | .hbm, ⟨40, _⟩ => ⟨S16x32x128, .i32⟩
  | .hbm, ⟨41, _⟩ => ⟨S16x32x128, .i32⟩
  | .hbm, ⟨42, _⟩ => ⟨S16x4096, .i32⟩
  | .hbm, ⟨43, _⟩ => ⟨S16x1x4096, .i32⟩
  | .hbm, ⟨44, _⟩ => ⟨S16x2x4096, .i32⟩
  | .hbm, ⟨45, _⟩ => ⟨S_, .i32⟩
  | .hbm, ⟨46, _⟩ => ⟨S16x2x4096, .i32⟩
  | .hbm, ⟨47, _⟩ => ⟨S16x2x4096, .i1⟩
  | .hbm, ⟨48, _⟩ => ⟨S_, .i32⟩
  | .hbm, ⟨49, _⟩ => ⟨S16x2x4096, .i32⟩
  | .hbm, ⟨50, _⟩ => ⟨S16x2x4096, .i32⟩
  | .hbm, ⟨51, _⟩ => ⟨S16x2x4096, .i32⟩
  | .hbm, ⟨52, _⟩ => ⟨S16x2x4096x1, .i32⟩
  | .hbm, ⟨53, _⟩ => ⟨S1, .i32⟩
  | .hbm, ⟨54, _⟩ => ⟨S_, .i32⟩
  | .hbm, ⟨55, _⟩ => ⟨S16x2x4096x1, .i32⟩
  | .hbm, ⟨56, _⟩ => ⟨S16x2x4096x1, .i1⟩
  | .hbm, ⟨57, _⟩ => ⟨S1x1x1x1, .i32⟩
  | .hbm, ⟨58, _⟩ => ⟨S16x2x4096x1, .i32⟩
  | .hbm, ⟨59, _⟩ => ⟨S16x2x4096x1, .i1⟩
  | .hbm, ⟨60, _⟩ => ⟨S16x2x4096x1, .i1⟩
  | .hbm, ⟨61, _⟩ => ⟨S_, .i1⟩
  | .hbm, ⟨62, _⟩ => ⟨S16x2x4096, .i1⟩
  | .hbm, ⟨63, _⟩ => ⟨S16x2x4096, .f32⟩
  | .hbm, ⟨64, _⟩ => ⟨S_, .f32⟩
  | .hbm, ⟨65, _⟩ => ⟨S16x2x4096, .f32⟩
  | .hbm, ⟨66, _⟩ => ⟨S16x2x4096, .f32⟩
  | .hbm, ⟨67, _⟩ => ⟨S16x2x32x128, .f32⟩
  | .hbm, ⟨68, _⟩ => ⟨S16x32x128x2, .f32⟩
  | .hbm, ⟨69, _⟩ => ⟨S16x32x128x2, .f32⟩
  | .hbm, ⟨70, _⟩ => ⟨S_, .f32⟩
  | .hbm, ⟨71, _⟩ => ⟨S16x32x2, .f32⟩
  | .hbm, ⟨72, _⟩ => ⟨S_, .f32⟩
  | .hbm, ⟨73, _⟩ => ⟨S16x32x2, .f32⟩
  | .hbm, ⟨74, _⟩ => ⟨S16x32x2, .f32⟩
  | .hbm, ⟨75, _⟩ => ⟨S16x32x2, .f32⟩
  | .hbm, ⟨76, _⟩ => ⟨S16x32x128x2, .f32⟩
  | .hbm, ⟨77, _⟩ => ⟨S16x32x1x2, .f32⟩
  | .hbm, ⟨78, _⟩ => ⟨S16x32x128x2, .f32⟩
  | .hbm, ⟨79, _⟩ => ⟨S16x32x128x2, .f32⟩
  | .hbm, ⟨80, _⟩ => ⟨S16x32x128x2, .f32⟩
  | .hbm, ⟨81, _⟩ => ⟨S_, .f32⟩
  | .hbm, ⟨82, _⟩ => ⟨S16x32x128, .f32⟩
  | .hbm, ⟨83, _⟩ => ⟨S16x32x128, .f32⟩
  | .hbm, ⟨84, _⟩ => ⟨S_, .f32⟩
  | .hbm, ⟨85, _⟩ => ⟨S16x32, .f32⟩
  | .hbm, ⟨86, _⟩ => ⟨S_, .f32⟩
  | .hbm, ⟨87, _⟩ => ⟨S16x32, .f32⟩
  | .hbm, ⟨88, _⟩ => ⟨S16x32, .f32⟩
  | .hbm, ⟨89, _⟩ => ⟨S_, .f32⟩
  | .hbm, ⟨90, _⟩ => ⟨S16, .f32⟩
  | .hbm, ⟨91, _⟩ => ⟨S_, .f32⟩
  | .hbm, ⟨92, _⟩ => ⟨S16, .f32⟩
  | .hbm, ⟨93, _⟩ => ⟨S16, .f32⟩
  | .hbm, ⟨94, _⟩ => ⟨S_, .f32⟩
  | .hbm, ⟨95, _⟩ => ⟨S_, .f32⟩
  | .hbm, ⟨96, _⟩ => ⟨S_, .f32⟩
  | .hbm, ⟨97, _⟩ => ⟨S_, .f32⟩
  | .hbm, ⟨98, _⟩ => ⟨S_, .f32⟩
  | .hbm, ⟨99, _⟩ => ⟨S_, .f32⟩
  | .hbm, ⟨100, _⟩ => ⟨S_, .f32⟩
  | .local _ .vmem, ⟨0, _⟩ => ⟨S8x128x512, .f32⟩
  | .local _ .vmem, ⟨1, _⟩ => ⟨S8x128x512, .f32⟩
  | .local _ .vmem, ⟨2, _⟩ => ⟨S8x128x512, .f32⟩
  | .local _ .vmem, ⟨3, _⟩ => ⟨S8x128x512, .f32⟩
  | .local _ .vmem, ⟨4, _⟩ => ⟨S8x128, .f32⟩
  | .local _ .vmem, ⟨5, _⟩ => ⟨S8x128, .f32⟩
  | .local _ .vmem, ⟨6, _⟩ => ⟨S8x1, .f32⟩
  | .local _ .vmem, ⟨7, _⟩ => ⟨S8x1, .f32⟩
  | .local _ .vmem, ⟨8, _⟩ => ⟨S8x1, .f32⟩
  | _, _ => ⟨S16x1x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_v9 : Ref sig .tc := ⟨.hbm, 14, rfl⟩
abbrev main_v10 : Ref sig .tc := ⟨.hbm, 15, rfl⟩
abbrev main_cst_0 : Ref sig .tc := ⟨.hbm, 16, rfl⟩
abbrev main_v11 : Ref sig .tc := ⟨.hbm, 17, rfl⟩
abbrev main_v12 : Ref sig .tc := ⟨.hbm, 18, rfl⟩
abbrev main_cst_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst_2 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_cst_4 : Ref sig .tc := ⟨.hbm, 28, rfl⟩
abbrev main_v19 : Ref sig .tc := ⟨.hbm, 29, rfl⟩
abbrev main_cst_5 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_c : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_call0_c : Ref sig .tc := ⟨.hbm, 45, rfl⟩
abbrev main_call0_v0 : Ref sig .tc := ⟨.hbm, 46, rfl⟩
abbrev main_call0_v1 : Ref sig .tc := ⟨.hbm, 47, rfl⟩
abbrev main_call0_c_0 : Ref sig .tc := ⟨.hbm, 48, rfl⟩
abbrev main_call0_v2 : Ref sig .tc := ⟨.hbm, 49, rfl⟩
abbrev main_call0_v3 : Ref sig .tc := ⟨.hbm, 50, rfl⟩
abbrev main_call0_v4 : Ref sig .tc := ⟨.hbm, 51, rfl⟩
abbrev main_call0_v5 : Ref sig .tc := ⟨.hbm, 52, rfl⟩
abbrev main_call0_c_1 : Ref sig .tc := ⟨.hbm, 53, rfl⟩
abbrev main_call0_c_2 : Ref sig .tc := ⟨.hbm, 54, rfl⟩
abbrev main_call0_v6 : Ref sig .tc := ⟨.hbm, 55, rfl⟩
abbrev main_call0_v7 : Ref sig .tc := ⟨.hbm, 56, rfl⟩
abbrev main_call0_v8 : Ref sig .tc := ⟨.hbm, 57, rfl⟩
abbrev main_call0_v9 : Ref sig .tc := ⟨.hbm, 58, rfl⟩
abbrev main_call0_v10 : Ref sig .tc := ⟨.hbm, 59, rfl⟩
abbrev main_call0_v11 : Ref sig .tc := ⟨.hbm, 60, rfl⟩
abbrev main_call0_c_3 : Ref sig .tc := ⟨.hbm, 61, rfl⟩
abbrev main_call0_v12 : Ref sig .tc := ⟨.hbm, 62, rfl⟩
abbrev main_call0_v13 : Ref sig .tc := ⟨.hbm, 63, rfl⟩
abbrev main_call0_cst : Ref sig .tc := ⟨.hbm, 64, rfl⟩
abbrev main_call0_v14 : Ref sig .tc := ⟨.hbm, 65, rfl⟩
abbrev main_v33 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_cst_6 : Ref sig .tc := ⟨.hbm, 70, rfl⟩
abbrev main_v37 : Ref sig .tc := ⟨.hbm, 71, rfl⟩
abbrev main_cst_7 : Ref sig .tc := ⟨.hbm, 72, rfl⟩
abbrev main_v38 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_8 : Ref sig .tc := ⟨.hbm, 81, rfl⟩
abbrev main_v46 : Ref sig .tc := ⟨.hbm, 82, rfl⟩
abbrev main_v47 : Ref sig .tc := ⟨.hbm, 83, rfl⟩
abbrev main_cst_9 : Ref sig .tc := ⟨.hbm, 84, rfl⟩
abbrev main_v48 : Ref sig .tc := ⟨.hbm, 85, rfl⟩
abbrev main_cst_10 : Ref sig .tc := ⟨.hbm, 86, rfl⟩
abbrev main_v49 : Ref sig .tc := ⟨.hbm, 87, rfl⟩
abbrev main_v50 : Ref sig .tc := ⟨.hbm, 88, rfl⟩
abbrev main_cst_11 : Ref sig .tc := ⟨.hbm, 89, rfl⟩
abbrev main_v51 : Ref sig .tc := ⟨.hbm, 90, rfl⟩
abbrev main_cst_12 : Ref sig .tc := ⟨.hbm, 91, rfl⟩
abbrev main_v52 : Ref sig .tc := ⟨.hbm, 92, rfl⟩
abbrev main_v53 : Ref sig .tc := ⟨.hbm, 93, rfl⟩
abbrev main_cst_13 : Ref sig .tc := ⟨.hbm, 94, rfl⟩
abbrev main_v54 : Ref sig .tc := ⟨.hbm, 95, rfl⟩
abbrev main_cst_14 : Ref sig .tc := ⟨.hbm, 96, rfl⟩
abbrev main_v55 : Ref sig .tc := ⟨.hbm, 97, rfl⟩
abbrev main_cst_15 : Ref sig .tc := ⟨.hbm, 98, rfl⟩
abbrev main_v56 : Ref sig .tc := ⟨.hbm, 99, rfl⟩
abbrev main_v57 : Ref sig .tc := ⟨.hbm, 100, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![2, 4], ![false, false]⟩

def k0_cond2 (i : grid0.Coords) : BitVec 1 :=
  let arg1 : BitVec 32 := BitVec.ofNat 32 (i 1).val
  let c3_i32 : BitVec 32 := 3#32
  let v72 : BitVec 1 := Scalar.cmpi .eq arg1 c3_i32
  let v73 : BitVec 32 := Scalar.extui v72
  let c0_i32_32 : BitVec 32 := 0#32
  let v74 : BitVec 1 := Scalar.cmpi .ne v73 c0_i32_32
  v74

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S8x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S8x128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S16x1x512x512_S16x512x512 : S16x1x512x512.ShapeCasts S16x512x512
  inb_S8x1_S8x1_0_0 : ∀ a, (![0, 0] : Fin 2 → Nat) a + S8x1.size a ≤ S8x1.size a
  h_S8x1 : 0 < S8x1.numel
  shapeCasts_S8x1_S8x1 : S8x1.ShapeCasts S8x1
  inb_S8x128x512_S8x128x512_0_0_0 : ∀ a, (![0, 0, 0] : Fin 3 → Nat) a + S8x128x512.size a ≤ S8x128x512.size a
  h_S8x128x512 : 0 < S8x128x512.numel
  shapeCasts_S8x128x512_S8x128x512 : S8x128x512.ShapeCasts S8x128x512
  natLt_1_32 : 1 < 32
  reduces_S8x128x512_S8 : S8x128x512.Reduces [1, 2] S8
  shapeCasts_S8_S8x1x1 : S8.ShapeCasts S8x1x1
  shapeCasts_S8x1x1_S8x1 : S8x1x1.ShapeCasts S8x1
  inb_S8x128_S8x128_0_0 : ∀ a, (![0, 0] : Fin 2 → Nat) a + S8x128.size a ≤ S8x128.size a
  h_S8x128 : 0 < S8x128.numel
  inb_S8x128_S8x1_0_0 : ∀ a, (![0, 0] : Fin 2 → Nat) a + S8x1.size a ≤ S8x128.size a
  inb_S8x128_S8x1_0_1 : ∀ a, (![0, 1] : Fin 2 → Nat) a + S8x1.size a ≤ S8x128.size a
  inb_S8x128_S8x1_0_2 : ∀ a, (![0, 2] : Fin 2 → Nat) a + S8x1.size a ≤ S8x128.size a
  slices_S16x128_S16x1_0_0 : S16x128.Slices ![0, 0] S16x1
  shapeCasts_S16x1_S16 : S16x1.ShapeCasts S16
  slices_S16x128_S16x1_0_1 : S16x128.Slices ![0, 1] S16x1
  slices_S16x128_S16x1_0_2 : S16x128.Slices ![0, 2] S16x1
  bcast_S_S16 : S_.BroadcastsInDim S16 (![] : Fin 0 → Fin S16.rank)
  reducesTo_S16_S_d0 : S16.ReducesTo [0] S_
  h_S_ : 0 < S_.numel
  shapeCasts_S16x2x512x512_S16x2x262144 : S16x2x512x512.ShapeCasts S16x2x262144
  slices_S16x32x128x2_S16x32x128x1_0_0_0_0 : S16x32x128x2.Slices ![0, 0, 0, 0] S16x32x128x1
  shapeCasts_S16x32x128x1_S16x32x128 : S16x32x128x1.ShapeCasts S16x32x128
  slices_S16x32x128x2_S16x32x128x1_0_0_0_1 : S16x32x128x2.Slices ![0, 0, 0, 1] S16x32x128x1
  bcast_S_S16x32x128 : S_.BroadcastsInDim S16x32x128 (![] : Fin 0 → Fin S16x32x128.rank)
  shapeCasts_S16x32x128_S16x4096 : S16x32x128.ShapeCasts S16x4096
  bcast_S16x4096_S16x1x4096_0_2 : S16x4096.BroadcastsInDim S16x1x4096 (![0, 2] : Fin 2 → Fin S16x1x4096.rank)
  bcast_S16x1x4096_S16x2x4096_0_1_2 : S16x1x4096.BroadcastsInDim S16x2x4096 (![0, 1, 2] : Fin 3 → Fin S16x2x4096.rank)
  bcast_S_S16x2x4096 : S_.BroadcastsInDim S16x2x4096 (![] : Fin 0 → Fin S16x2x4096.rank)
  shapeCasts_S16x2x4096_S16x2x4096x1 : S16x2x4096.ShapeCasts S16x2x4096x1
  bcast_S_S16x2x4096x1 : S_.BroadcastsInDim S16x2x4096x1 (![] : Fin 0 → Fin S16x2x4096x1.rank)
  bcast_S1_S1x1x1x1_3 : S1.BroadcastsInDim S1x1x1x1 (![3] : Fin 1 → Fin S1x1x1x1.rank)
  bcast_S1x1x1x1_S16x2x4096x1_0_1_2_3 : S1x1x1x1.BroadcastsInDim S16x2x4096x1 (![0, 1, 2, 3] : Fin 4 → Fin S16x2x4096x1.rank)
  reducesTo_S16x2x4096x1_S16x2x4096_d3 : S16x2x4096x1.ReducesTo [3] S16x2x4096
  shapeCasts_S16x2x4096_S16x2x32x128 : S16x2x4096.ShapeCasts S16x2x32x128
  transposes_S16x2x32x128_S16x32x128x2_0_2_3_1 : S16x2x32x128.Transposes [0, 2, 3, 1] S16x32x128x2
  reducesTo_S16x32x128x2_S16x32x2_d2 : S16x32x128x2.ReducesTo [2] S16x32x2
  bcast_S_S16x32x2 : S_.BroadcastsInDim S16x32x2 (![] : Fin 0 → Fin S16x32x2.rank)
  bcast_S16x32x2_S16x32x1x2_0_1_3 : S16x32x2.BroadcastsInDim S16x32x1x2 (![0, 1, 3] : Fin 3 → Fin S16x32x1x2.rank)
  bcast_S16x32x1x2_S16x32x128x2_0_1_2_3 : S16x32x1x2.BroadcastsInDim S16x32x128x2 (![0, 1, 2, 3] : Fin 4 → Fin S16x32x128x2.rank)
  reducesTo_S16x32x128x2_S16x32x128_d3 : S16x32x128x2.ReducesTo [3] S16x32x128
  reducesTo_S16x32x128_S16x32_d2 : S16x32x128.ReducesTo [2] S16x32
  bcast_S_S16x32 : S_.BroadcastsInDim S16x32 (![] : Fin 0 → Fin S16x32.rank)
  reducesTo_S16x32_S16_d1 : S16x32.ReducesTo [1] S16
  gather_S16x2x262144_S16x2x4096x1_S16x2x4096_n_2_01_01_2_3_111_wf : GatherDims.WF S16x2x262144 S16x2x4096x1 S16x2x4096 [] [2] [0, 1] [2] [0, 1] 3 ![1, 1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x512.size a ≤ S16x512x512.size a
  hwx0_0 : ∀ i : grid0.Coords, EltTy.bits .f32 = 32 ∨ (Rect.block (s := S16x512x512) S8x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8x128x512.size a ≤ S16x512x512.size a
  hwx0_1 : ∀ i : grid0.Coords, EltTy.bits .f32 = 32 ∨ (Rect.block (s := S16x512x512) S8x128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S8x128.size a ≤ S16x128.size a
  hwx0_2 : ∀ i : grid0.Coords, EltTy.bits .f32 = 32 ∨ (Rect.block (s := S16x128) S8x128.size (cc0_transform_2 i) (hinb0_2 i)).WholeWords (EltTy.packing .f32)

variable [Facts₀]

def gather_S16x2x262144_S16x2x4096x1_S16x2x4096_n_2_01_01_2_3_111 : GatherDims S16x2x262144 S16x2x4096x1 S16x2x4096 where
  offsetDims := []
  collapsedSliceDims := [2]
  operandBatchingDims := [0, 1]
  startIndicesBatchingDims := [0, 1]
  startIndexMap := [2]
  indexVectorDim := 3
  sliceSizes := ![1, 1, 1]
  wf := gather_S16x2x262144_S16x2x4096x1_S16x2x4096_n_2_01_01_2_3_111_wf

abbrev win0_0 : Pipeline.Window sig grid0 :=
  Pipeline.Window.ofSpec (Memref.whole main_v0) S8x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S8x128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S16x1x512x512 : Shape := ⟨4, ![16, 1, 512, 512]⟩
abbrev S16x2x512x512 : Shape := ⟨4, ![16, 2, 512, 512]⟩
abbrev S16x32x128x2 : Shape := ⟨4, ![16, 32, 128, 2]⟩
abbrev S_ : Shape := ⟨0, ![]⟩
abbrev S16 : Shape := ⟨1, ![16]⟩
abbrev S16x32x128x1 : Shape := ⟨4, ![16, 32, 128, 1]⟩
abbrev S16x32x128 : Shape := ⟨3, ![16, 32, 128]⟩
abbrev S16x2x32x128 : Shape := ⟨4, ![16, 2, 32, 128]⟩
abbrev S16x32x2 : Shape := ⟨3, ![16, 32, 2]⟩
abbrev S16x32x1x2 : Shape := ⟨4, ![16, 32, 1, 2]⟩
abbrev S16x32 : Shape := ⟨2, ![16, 32]⟩

abbrev nBuf : Space → Nat
  | .hbm => 147
  | .vmem => 0
  | .smem => 0
  | _ => 0

abbrev hbmTy0_0 (i : Nat) : BufTy := match i % 128 with
  | 0 => ⟨S16x1x512x512, .f32⟩
  | 1 => ⟨S16x2x512x512, .f32⟩
  | 2 => ⟨S16x1x512x512, .f32⟩
  | 3 => ⟨S16x32x128x2, .i32⟩
  | 4 => ⟨S_, .f32⟩
  | 5 => ⟨S16x1x512x512, .f32⟩
  | 6 => ⟨S16x1x512x512, .i1⟩
  | 7 => ⟨S16x1x512x512, .f32⟩
  | 8 => ⟨S16x1x512x512, .f32⟩
  | 9 => ⟨S16x1x512x512, .f32⟩
  | 10 => ⟨S_, .f32⟩
  | 11 => ⟨S16x1x512x512, .f32⟩
  | 12 => ⟨S16x1x512x512, .f32⟩
  | 13 => ⟨S_, .f32⟩
  | 14 => ⟨S16x1x512x512, .f32⟩
  | 15 => ⟨S16x1x512x512, .f32⟩
  | 16 => ⟨S_, .f32⟩
  | 17 => ⟨S_, .f32⟩
  | 18 => ⟨S_, .f32⟩
  | 19 => ⟨S16x1x512x512, .f32⟩
  | 20 => ⟨S16x1x512x512, .f32⟩
  | 21 => ⟨S_, .f32⟩
  | 22 => ⟨S16x1x512x512, .f32⟩
  | 23 => ⟨S16x1x512x512, .f32⟩
  | 24 => ⟨S16x1x512x512, .f32⟩
  | 25 => ⟨S_, .f32⟩
  | 26 => ⟨S16x1x512x512, .f32⟩
  | 27 => ⟨S16x1x512x512, .f32⟩
  | 28 => ⟨S_, .f32⟩
  | 29 => ⟨S16x1x512x512, .f32⟩
  | 30 => ⟨S16x1x512x512, .f32⟩
  | 31 => ⟨S16x1x512x512, .f32⟩
  | 32 => ⟨S16x1x512x512, .f32⟩
  | 33 => ⟨S_, .f32⟩
  | 34 => ⟨S16x1x512x512, .f32⟩
  | 35 => ⟨S16x1x512x512, .f32⟩
  | 36 => ⟨S_, .f32⟩
  | 37 => ⟨S16x1x512x512, .f32⟩
  | 38 => ⟨S16x1x512x512, .f32⟩
  | 39 => ⟨S16x1x512x512, .f32⟩
  | 40 => ⟨S16x1x512x512, .f32⟩
  | 41 => ⟨S16x1x512x512, .f32⟩
  | 42 => ⟨S_, .f32⟩
  | 43 => ⟨S16x1x512x512, .f32⟩
  | 44 => ⟨S16x1x512x512, .f32⟩
  | 45 => ⟨S16x1x512x512, .f32⟩
  | 46 => ⟨S_, .f32⟩
  | 47 => ⟨S16x1x512x512, .f32⟩
  | 48 => ⟨S16x1x512x512, .f32⟩
  | 49 => ⟨S_, .f32⟩
  | 50 => ⟨S16x1x512x512, .f32⟩
  | 51 => ⟨S16x1x512x512, .f32⟩
  | 52 => ⟨S16x1x512x512, .f32⟩
  | 53 => ⟨S16x1x512x512, .f32⟩
  | 54 => ⟨S16x1x512x512, .f32⟩
  | 55 => ⟨S_, .f32⟩
  | 56 => ⟨S16x1x512x512, .f32⟩
  | 57 => ⟨S16x1x512x512, .f32⟩
  | 58 => ⟨S_, .f32⟩
  | 59 => ⟨S16x1x512x512, .f32⟩
  | 60 => ⟨S16x1x512x512, .f32⟩
  | 61 => ⟨S16x1x512x512, .f32⟩
  | 62 => ⟨S_, .f32⟩
  | 63 => ⟨S16x1x512x512, .f32⟩
  | 64 => ⟨S16x1x512x512, .f32⟩
  | 65 => ⟨S16x1x512x512, .f32⟩
  | 66 => ⟨S_, .f32⟩
  | 67 => ⟨S16, .f32⟩
  | 68 => ⟨S_, .f32⟩
  | 69 => ⟨S16, .f32⟩
  | 70 => ⟨S16, .f32⟩
  | 71 => ⟨S_, .f32⟩
  | 72 => ⟨S16, .f32⟩
  | 73 => ⟨S16, .f32⟩
  | 74 => ⟨S_, .f32⟩
  | 75 => ⟨S16, .f32⟩
  | 76 => ⟨S16, .f32⟩
  | 77 => ⟨S_, .f32⟩
  | 78 => ⟨S16, .f32⟩
  | 79 => ⟨S16, .f32⟩
  | 80 => ⟨S_, .f32⟩
  | 81 => ⟨S_, .f32⟩
  | 82 => ⟨S_, .f32⟩
  | 83 => ⟨S_, .f32⟩
  | 84 => ⟨S_, .f32⟩
  | 85 => ⟨S16, .f32⟩
  | 86 => ⟨S16, .f32⟩
  | 87 => ⟨S_, .f32⟩
  | 88 => ⟨S_, .f32⟩
  | 89 => ⟨S_, .f32⟩
  | 90 => ⟨S_, .f32⟩
  | 91 => ⟨S_, .f32⟩
  | 92 => ⟨S16x32x128x1, .i32⟩
  | 93 => ⟨S16x32x128, .i32⟩
  | 94 => ⟨S16x32x128x1, .i32⟩
  | 95 => ⟨S16x32x128, .i32⟩
  | 96 => ⟨S_, .i32⟩
  | 97 => ⟨S16x32x128, .i32⟩
  | 98 => ⟨S16x32x128, .i1⟩
  | 99 => ⟨S_, .i32⟩
  | 100 => ⟨S16x32x128, .i32⟩
  | 101 => ⟨S16x32x128, .i32⟩
  | 102 => ⟨S16x32x128, .i32⟩
  | 103 => ⟨S_, .i32⟩
  | 104 => ⟨S16x32x128, .i32⟩
  | 105 => ⟨S16x32x128, .i1⟩
  | 106 => ⟨S_, .i32⟩
  | 107 => ⟨S16x32x128, .i32⟩
  | 108 => ⟨S16x32x128, .i32⟩
  | 109 => ⟨S16x32x128, .i32⟩
  | 110 => ⟨S16x32x128x1, .i32⟩
  | 111 => ⟨S16x32x128x1, .i32⟩
  | 112 => ⟨S16x32x128x2, .i32⟩
  | 113 => ⟨S16x2x32x128, .f32⟩
  | 114 => ⟨S16x32x128x2, .f32⟩
  | 115 => ⟨S16x32x128x2, .f32⟩
  | 116 => ⟨S_, .f32⟩
  | 117 => ⟨S16x32x2, .f32⟩
  | 118 => ⟨S_, .f32⟩
  | 119 => ⟨S16x32x2, .f32⟩
  | 120 => ⟨S16x32x2, .f32⟩
  | 121 => ⟨S16x32x2, .f32⟩
  | 122 => ⟨S16x32x128x2, .f32⟩
  | 123 => ⟨S16x32x1x2, .f32⟩
  | 124 => ⟨S16x32x128x2, .f32⟩
  | 125 => ⟨S16x32x128x2, .f32⟩
  | 126 => ⟨S16x32x128x2, .f32⟩
  | 127 => ⟨S_, .f32⟩
  | _ => ⟨S16x1x512x512, .f32⟩

abbrev hbmTy0_1 (i : Nat) : BufTy := match i % 128 with
  | 0 => ⟨S16x32x128, .f32⟩
  | 1 => ⟨S16x32x128, .f32⟩
  | 2 => ⟨S_, .f32⟩
  | 3 => ⟨S16x32, .f32⟩
  | 4 => ⟨S_, .f32⟩
  | 5 => ⟨S16x32, .f32⟩
  | 6 => ⟨S16x32, .f32⟩
  | 7 => ⟨S_, .f32⟩
  | 8 => ⟨S16, .f32⟩
  | 9 => ⟨S_, .f32⟩
  | 10 => ⟨S16, .f32⟩
  | 11 => ⟨S16, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | _ => ⟨S16x1x512x512, .f32⟩

abbrev hbmTy (i : Nat) : BufTy := match i / 128 with
  | 0 => hbmTy0_0 i
  | 1 => hbmTy0_1 i
  | _ => ⟨S16x1x512x512, .f32⟩

abbrev bufTy : (tb : Table) → Fin (tcTables nBuf tb) → BufTy
  | .hbm, ⟨i, _⟩ => hbmTy i
  | _, _ => ⟨S16x1x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_cst_2 : Ref sig .tc := ⟨.hbm, 16, rfl⟩
abbrev main_cst_3 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_v9 : Ref sig .tc := ⟨.hbm, 23, rfl⟩
abbrev main_v10 : Ref sig .tc := ⟨.hbm, 24, rfl⟩
abbrev main_cst_4 : Ref sig .tc := ⟨.hbm, 25, rfl⟩
abbrev main_v11 : Ref sig .tc := ⟨.hbm, 26, rfl⟩
abbrev main_v12 : Ref sig .tc := ⟨.hbm, 27, rfl⟩
abbrev main_cst_5 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_cst_6 : Ref sig .tc := ⟨.hbm, 33, rfl⟩
abbrev main_v17 : Ref sig .tc := ⟨.hbm, 34, rfl⟩
abbrev main_v18 : Ref sig .tc := ⟨.hbm, 35, rfl⟩
abbrev main_cst_7 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_cst_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_cst_10 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_11 : Ref sig .tc := ⟨.hbm, 55, rfl⟩
abbrev main_v34 : Ref sig .tc := ⟨.hbm, 56, rfl⟩
abbrev main_v35 : Ref sig .tc := ⟨.hbm, 57, rfl⟩
abbrev main_cst_12 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_13 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_14 : Ref sig .tc := ⟨.hbm, 66, rfl⟩
abbrev main_v42 : Ref sig .tc := ⟨.hbm, 67, rfl⟩
abbrev main_cst_15 : Ref sig .tc := ⟨.hbm, 68, rfl⟩
abbrev main_v43 : Ref sig .tc := ⟨.hbm, 69, rfl⟩
abbrev main_v44 : Ref sig .tc := ⟨.hbm, 70, rfl⟩
abbrev main_cst_16 : Ref sig .tc := ⟨.hbm, 71, rfl⟩
abbrev main_v45 : Ref sig .tc := ⟨.hbm, 72, rfl⟩
abbrev main_v46 : Ref sig .tc := ⟨.hbm, 73, rfl⟩
abbrev main_cst_17 : Ref sig .tc := ⟨.hbm, 74, rfl⟩
abbrev main_v47 : Ref sig .tc := ⟨.hbm, 75, rfl⟩
abbrev main_v48 : Ref sig .tc := ⟨.hbm, 76, rfl⟩
abbrev main_cst_18 : Ref sig .tc := ⟨.hbm, 77, rfl⟩
abbrev main_v49 : Ref sig .tc := ⟨.hbm, 78, rfl⟩
abbrev main_v50 : Ref sig .tc := ⟨.hbm, 79, rfl⟩
abbrev main_cst_19 : Ref sig .tc := ⟨.hbm, 80, rfl⟩
abbrev main_v51 : Ref sig .tc := ⟨.hbm, 81, rfl⟩
abbrev main_cst_20 : Ref sig .tc := ⟨.hbm, 82, rfl⟩
abbrev main_v52 : Ref sig .tc := ⟨.hbm, 83, rfl⟩
abbrev main_cst_21 : Ref sig .tc := ⟨.hbm, 84, rfl⟩
abbrev main_v53 : Ref sig .tc := ⟨.hbm, 85, rfl⟩
abbrev main_v54 : Ref sig .tc := ⟨.hbm, 86, rfl⟩
abbrev main_cst_22 : Ref sig .tc := ⟨.hbm, 87, rfl⟩
abbrev main_v55 : Ref sig .tc := ⟨.hbm, 88, rfl⟩
abbrev main_cst_23 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_c : Ref sig .tc := ⟨.hbm, 96, rfl⟩
abbrev main_v62 : Ref sig .tc := ⟨.hbm, 97, rfl⟩
abbrev main_v63 : Ref sig .tc := ⟨.hbm, 98, rfl⟩
abbrev main_c_24 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_c_25 : Ref sig .tc := ⟨.hbm, 103, rfl⟩
abbrev main_v67 : Ref sig .tc := ⟨.hbm, 104, rfl⟩
abbrev main_v68 : Ref sig .tc := ⟨.hbm, 105, rfl⟩
abbrev main_c_26 : Ref sig .tc := ⟨.hbm, 106, rfl⟩
abbrev main_v69 : Ref sig .tc := ⟨.hbm, 107, rfl⟩
abbrev main_v70 : Ref sig .tc := ⟨.hbm, 108, rfl⟩
abbrev main_v71 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_cst_27 : Ref sig .tc := ⟨.hbm, 116, rfl⟩
abbrev main_v78 : Ref sig .tc := ⟨.hbm, 117, rfl⟩
abbrev main_cst_28 : Ref sig .tc := ⟨.hbm, 118, rfl⟩
abbrev main_v79 : Ref sig .tc := ⟨.hbm, 119, rfl⟩
abbrev main_v80 : Ref sig .tc := ⟨.hbm, 120, rfl⟩
abbrev main_v81 : Ref sig .tc := ⟨.hbm, 121, rfl⟩
abbrev main_v82 : Ref sig .tc := ⟨.hbm, 122, rfl⟩
abbrev main_v83 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_cst_29 : Ref sig .tc := ⟨.hbm, 127, rfl⟩
abbrev main_v87 : Ref sig .tc := ⟨.hbm, 128, rfl⟩
abbrev main_v88 : Ref sig .tc := ⟨.hbm, 129, rfl⟩
abbrev main_cst_30 : Ref sig .tc := ⟨.hbm, 130, rfl⟩
abbrev main_v89 : Ref sig .tc := ⟨.hbm, 131, rfl⟩
abbrev main_cst_31 : Ref sig .tc := ⟨.hbm, 132, rfl⟩
abbrev main_v90 : Ref sig .tc := ⟨.hbm, 133, rfl⟩
abbrev main_v91 : Ref sig .tc := ⟨.hbm, 134, rfl⟩
abbrev main_cst_32 : Ref sig .tc := ⟨.hbm, 135, rfl⟩
abbrev main_v92 : Ref sig .tc := ⟨.hbm, 136, rfl⟩
abbrev main_cst_33 : Ref sig .tc := ⟨.hbm, 137, rfl⟩
abbrev main_v93 : Ref sig .tc := ⟨.hbm, 138, rfl⟩
abbrev main_v94 : Ref sig .tc := ⟨.hbm, 139, rfl⟩
abbrev main_cst_34 : Ref sig .tc := ⟨.hbm, 140, rfl⟩
abbrev main_v95 : Ref sig .tc := ⟨.hbm, 141, rfl⟩
abbrev main_cst_35 : Ref sig .tc := ⟨.hbm, 142, rfl⟩
abbrev main_v96 : Ref sig .tc := ⟨.hbm, 143, rfl⟩
abbrev main_cst_36 : Ref sig .tc := ⟨.hbm, 144, rfl⟩
abbrev main_v97 : Ref sig .tc := ⟨.hbm, 145, rfl⟩
abbrev main_v98 : Ref sig .tc := ⟨.hbm, 146, rfl⟩

abbrev nD : Nat := 1
abbrev τ : Topo := Topo.v7x

variable {F : FTy → Type} [FloatOps F]

class Facts₀ : Prop where
  bcast_S_S16x1x512x512 : S_.BroadcastsInDim S16x1x512x512 (![] : Fin 0 → Fin S16x1x512x512.rank)
  reducesTo_S16x1x512x512_S16_d1_2_3 : S16x1x512x512.ReducesTo [1, 2, 3] S16
  h_S_ : 0 < S_.numel
  bcast_S_S16 : S_.BroadcastsInDim S16 (![] : Fin 0 → Fin S16.rank)
  reducesTo_S16_S_d0 : S16.ReducesTo [0] S_
  slices_S16x32x128x2_S16x32x128x1_0_0_0_0 : S16x32x128x2.Slices ![0, 0, 0, 0] S16x32x128x1
  shapeCasts_S16x32x128x1_S16x32x128 : S16x32x128x1.ShapeCasts S16x32x128
  slices_S16x32x128x2_S16x32x128x1_0_0_0_1 : S16x32x128x2.Slices ![0, 0, 0, 1] S16x32x128x1
  bcast_S_S16x32x128 : S_.BroadcastsInDim S16x32x128 (![] : Fin 0 → Fin S16x32x128.rank)
  bcast_S16x32x128_S16x32x128x1_0_1_2 : S16x32x128.BroadcastsInDim S16x32x128x1 (![0, 1, 2] : Fin 3 → Fin S16x32x128x1.rank)
  concatenates_S16x32x128x1_S16x32x128x1_S16x32x128x2_d3 : Shape.Concatenates [S16x32x128x1, S16x32x128x1] S16x32x128x2 3
  transposes_S16x2x32x128_S16x32x128x2_0_2_3_1 : S16x2x32x128.Transposes [0, 2, 3, 1] S16x32x128x2
  reducesTo_S16x32x128x2_S16x32x2_d2 : S16x32x128x2.ReducesTo [2] S16x32x2
  bcast_S_S16x32x2 : S_.BroadcastsInDim S16x32x2 (![] : Fin 0 → Fin S16x32x2.rank)
  bcast_S16x32x2_S16x32x1x2_0_1_3 : S16x32x2.BroadcastsInDim S16x32x1x2 (![0, 1, 3] : Fin 3 → Fin S16x32x1x2.rank)
  bcast_S16x32x1x2_S16x32x128x2_0_1_2_3 : S16x32x1x2.BroadcastsInDim S16x32x128x2 (![0, 1, 2, 3] : Fin 4 → Fin S16x32x128x2.rank)
  reducesTo_S16x32x128x2_S16x32x128_d3 : S16x32x128x2.ReducesTo [3] S16x32x128
  reducesTo_S16x32x128_S16x32_d2 : S16x32x128.ReducesTo [2] S16x32
  bcast_S_S16x32 : S_.BroadcastsInDim S16x32 (![] : Fin 0 → Fin S16x32.rank)
  reducesTo_S16x32_S16_d1 : S16x32.ReducesTo [1] S16
  gather_S16x2x512x512_S16x32x128x2_S16x2x32x128_1_23_0_0_23_3_1211_wf : GatherDims.WF S16x2x512x512 S16x32x128x2 S16x2x32x128 [1] [2, 3] [0] [2, 3] [0] 3 ![1, 2, 1, 1]

variable [Facts₀]

def gather_S16x2x512x512_S16x32x128x2_S16x2x32x128_1_23_0_0_23_3_1211 : GatherDims S16x2x512x512 S16x32x128x2 S16x2x32x128 where
  offsetDims := [1]
  collapsedSliceDims := [2, 3]
  operandBatchingDims := [0]
  startIndicesBatchingDims := [0]
  startIndexMap := [2, 3]
  indexVectorDim := 3
  sliceSizes := ![1, 2, 1, 1]
  wf := gather_S16x2x512x512_S16x32x128x2_S16x2x32x128_1_23_0_0_23_3_1211_wf

class Facts : Prop extends Facts₀ where

variable [Facts]
-- ==== Proof.K.Runs.lean ====
/-
  The pipelined focal-loss region of the program, its launch side: the buffer contents the region finds after the two
  reshapes that precede it, the host lines that follow it (they read the region's result and two arguments, write
  fresh buffers only and none of the region's three arrays), each input window's block at a grid point, the two
  branch conditions of the body decided over the 2 × 4 grid (the row-step is the point's index modulo 4: the first
  step resets the three per-image accumulators, the last one writes them into the result block), and where the
  result window is idle.
-/
import proofs.«400395_j77730318123291_3_alg».proof.Proof.Gen.Kernel.Launch
import proofs.«400395_j77730318123291_3_alg».proof.Proof.Gen.Kernel.Skeleton
import proofs.«400395_j77730318123291_3_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two reshapes of the heat and target maps. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 8000000 in
theorem hostOps1_fresh : (hostOps1 : List (HloOp τ sig (Elt F))).Forall fun op => op.fresh = ∅ := by
  simp only [List.Forall]; repeat' constructor
set_option maxHeartbeats 8000000 in
theorem hostOps1_1_fresh : (hostOps1_1 : List (HloOp τ sig (Elt F))).Forall fun op => op.fresh = ∅ := by
  simp only [List.Forall]; repeat' constructor
set_option maxHeartbeats 8000000 in
theorem hostOps1_2_fresh : (hostOps1_2 : List (HloOp τ sig (Elt F))).Forall fun op => op.fresh = ∅ := by
  simp only [List.Forall]; repeat' constructor

/-- The lines after the region, as the three stretches @main's chain has them. -/
abbrev tailOps : List (List (HloOp τ sig (Elt F))) := [hostOps1, hostOps1_1, hostOps1_2]

set_option maxHeartbeats 8000000 in
/-- @main is the two reshapes, the region, then the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

set_option maxHeartbeats 8000000 in
theorem hostOps1_keeps : (hostOps1 : List (HloOp τ sig (Elt F))).Forall fun op => ∀ w, Proc.devRef .tc (Pipeline.arrRef spec0 w) ∉ op.writes := by
  simp only [hostOps1, List.Forall]
  repeat' apply And.intro
  all_goals (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

set_option maxHeartbeats 8000000 in
theorem hostOps1_1_keeps : (hostOps1_1 : List (HloOp τ sig (Elt F))).Forall fun op => ∀ w, Proc.devRef .tc (Pipeline.arrRef spec0 w) ∉ op.writes := by
  simp only [hostOps1_1, List.Forall]
  repeat' apply And.intro
  all_goals (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

set_option maxHeartbeats 8000000 in
theorem hostOps1_2_keeps : (hostOps1_2 : List (HloOp τ sig (Elt F))).Forall fun op => ∀ w, Proc.devRef .tc (Pipeline.arrRef spec0 w) ∉ op.writes := by
  simp only [hostOps1_2, List.Forall]
  repeat' apply And.intro
  all_goals (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

/-- And they write none of the region's three arrays: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 8000000 in
/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, List.flatten_cons, List.flatten_nil, List.append_nil, List.cons_append, List.nil_append, List.Forall, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 8000000 in
/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, List.flatten_cons, List.flatten_nil, List.append_nil, List.cons_append, List.nil_append, List.Forall, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 8000000 in
/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append, List.nil_append, List.Forall, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 8000000 in
/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, List.flatten_cons, List.flatten_nil, List.append_nil, List.cons_append, List.nil_append, List.Forall, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The heat window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The target window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the library's frame post, read at the four argument arrays (none is a window's array: the windows stage the
    two reshaped copies and the result), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's branch conditions -/

/-- The first `scf.if`: the row-step is the first one. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second `scf.if`: the row-step is the last one. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging and scratch memrefs -/

abbrev VO0_2 : View sig .tc .vmem S8x128 .f32 := (Memref.whole cc0_stg2_0 : Memref sig .tc .vmem S8x128 .f32).view
abbrev ms0_0 (t : Fin cfg0.N) : Memref sig .tc .vmem S8x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The three per-image accumulators: whole scoped buffers of the kernel's own. -/
abbrev scM0_0 : Memref sig .tc .vmem S8x1 .f32 := Memref.whole cc0_scratch0
abbrev scM0_1 : Memref sig .tc .vmem S8x1 .f32 := Memref.whole cc0_scratch1
abbrev scM0_2 : Memref sig .tc .vmem S8x1 .f32 := Memref.whole cc0_scratch2
abbrev VS0_0 : View sig .tc .vmem S8x1 .f32 := scM0_0.view
abbrev VS0_1 : View sig .tc .vmem S8x1 .f32 := scM0_1.view
abbrev VS0_2 : View sig .tc .vmem S8x1 .f32 := scM0_2.view

/-- The region's invariant with the three accumulators owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.Kernel.Fr

end
-- ==== Proof.K.RunA.lean ====
/-
  The body's run at a FIRST row-step (first conditional taken, second not): the three accumulators, found at any
  contents, are reset and then receive the block's three per-image sums; the result block is not touched.
-/
import proofs.«400395_j77730318123291_3_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the first row-step leaves in each accumulator, as the pieces its stores wrote (last first), with the proof
    that from the two input blocks at their contents, the result buffer at any contents (handed back untouched) and the
    accumulators at anything, the body runs to a continuation holding exactly that. -/
noncomputable def kernelRun0_A (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i)
    (x0 : Vec F S8x128x512 .f32) (x1 : Vec F S8x128x512 .f32) :
    Σ' (LS0 : List (View.Piece (Elt F) S8x1 .f32)) (LS1 : List (View.Piece (Elt F) S8x1 .f32)), { LS2 : List (View.Piece (Elt F) S8x1 .f32) //
      ∀ (xi2 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__focal_kernel i arg2 harg2 arg3 harg3 arg4 harg4 arg5 harg5 arg6 harg6 arg7 harg7) K } := by
  refine ⟨?_, ?_, ?_, fun xi2 E K => ?run⟩
  case run =>
    simp only [cc0__focal_kernel_eq_skeleton]; unfold cc0__focal_kernel_skel
    simp only [k0_part2_eq_skeleton]; unfold k0_part2_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Fr

end
-- ==== Proof.K.RunB.lean ====
/-
  The body's run at a MIDDLE row-step (neither conditional taken): each accumulator, found at what the step before
  left, receives its contents plus the block's per-image sum; the result block is not touched.
-/
import proofs.«400395_j77730318123291_3_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i)
    (x0 : Vec F S8x128x512 .f32) (x1 : Vec F S8x128x512 .f32) (xs0 xs1 xs2 : Vec F S8x1 .f32) :
    Σ' (LS0 : List (View.Piece (Elt F) S8x1 .f32)) (LS1 : List (View.Piece (Elt F) S8x1 .f32)), { LS2 : List (View.Piece (Elt F) S8x1 .f32) //
      ∀ (xi2 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__focal_kernel i arg2 harg2 arg3 harg3 arg4 harg4 arg5 harg5 arg6 harg6 arg7 harg7) K } := by
  refine ⟨?_, ?_, ?_, fun xi2 E K => ?run⟩
  case run =>
    simp only [cc0__focal_kernel_eq_skeleton]; unfold cc0__focal_kernel_skel
    simp only [k0_part2_eq_skeleton]; unfold k0_part2_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.Kernel.Fr

end
-- ==== Proof.K.RunC.lean ====
/-
  The body's run at a LAST row-step (second conditional taken): each accumulator receives its contents plus the block's
  per-image sum, and the result block is stored whole (zeros) and then its first three lanes take the accumulators.
-/
import proofs.«400395_j77730318123291_3_alg».proof.Proof.K.RunB

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i)
    (x0 : Vec F S8x128x512 .f32) (x1 : Vec F S8x128x512 .f32) (xs0 xs1 xs2 : Vec F S8x1 .f32) :
    Σ' (L2 : List (View.Piece (Elt F) S8x128 .f32)) (LS0 : List (View.Piece (Elt F) S8x1 .f32)) (LS1 : List (View.Piece (Elt F) S8x1 .f32)), { LS2 : List (View.Piece (Elt F) S8x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__focal_kernel i arg2 harg2 arg3 harg3 arg4 harg4 arg5 harg5 arg6 harg6 arg7 harg7) K } := by
  refine ⟨?_, ?_, ?_, ?_, fun E K => ?run⟩
  case run =>
    simp only [cc0__focal_kernel_eq_skeleton]; unfold cc0__focal_kernel_skel
    simp only [k0_part2_eq_skeleton]; unfold k0_part2_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.Kernel.Fr

end
-- ==== Proof.K.Frame.lean ====
/-
  The frame of the focal-loss program: what each of the three cases of the body leaves in the accumulators and in the
  result block (the pieces its stores wrote, read back), the accumulation over the eight grid points (the accumulators
  after a point are those of the point before plus the block's per-image sums, reset at each image group's first
  row-step), the region's proof data over it, the body obligation by cases on the row-step, and the launch: the run of
  @main — two reshapes, the region, the later host lines — and the frame claim.
-/
import proofs.«400395_j77730318123291_3_alg».proof.Proof.K.RunC

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's stores into accumulator 0 cover it. -/
theorem scover0_A_0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) (y : S8x1.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S8x1.size (by sl_kernel_rfl) y
/-- What case A leaves in accumulator 0: its pieces read back. -/
def sout0_A_0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) : Vec F S8x1 .f32 :=
  VS0_0.read (Elt F) (VS0_0.writes (Elt F) VS0_0.junk (kernelRun0_A c i arg2 harg2 arg3 harg3 arg4 harg4 arg5 harg5 arg6 harg6 arg7 harg7 hc0 hc1 x0 x1).1)

/-- Case A's stores into accumulator 1 cover it. -/
theorem scover0_A_1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) (y : S8x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S8x1.size (by sl_kernel_rfl) y
/-- What case A leaves in accumulator 1: its pieces read back. -/
def sout0_A_1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) : Vec F S8x1 .f32 :=
  VS0_1.read (Elt F) (VS0_1.writes (Elt F) VS0_1.junk (kernelRun0_A c i arg2 harg2 arg3 harg3 arg4 harg4 arg5 harg5 arg6 harg6 arg7 harg7 hc0 hc1 x0 x1).2.1)

/-- Case A's stores into accumulator 2 cover it. -/
theorem scover0_A_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) (y : S8x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S8x1.size (by sl_kernel_rfl) y
/-- What case A leaves in accumulator 2: its pieces read back. -/
def sout0_A_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) : Vec F S8x1 .f32 :=
  VS0_2.read (Elt F) (VS0_2.writes (Elt F) VS0_2.junk (kernelRun0_A c i arg2 harg2 arg3 harg3 arg4 harg4 arg5 harg5 arg6 harg6 arg7 harg7 hc0 hc1 x0 x1).2.2.1)

/-- Case B's stores into accumulator 0 cover it. -/
theorem scover0_B_0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) (y : S8x1.Idx) :
    ∃ pc ∈ (kernelRun0_B c i arg2 harg2 arg3 harg3 arg4 harg4 arg5 harg5 arg6 harg6 arg7 harg7 hc0 hc1 x0 x1 xs0 xs1 xs2).1, y ∈ pc.1.set :=
  View.cover_of_tiledL (kernelRun0_B c i arg2 harg2 arg3 harg3 arg4 harg4 arg5 harg5 arg6 harg6 arg7 harg7 hc0 hc1 x0 x1 xs0 xs1 xs2).1 S8x1.size (by sl_kernel_rfl) y
/-- What case B leaves in accumulator 0: its pieces read back. -/
def sout0_B_0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) : Vec F S8x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1 xs2).1)

/-- Case B's stores into accumulator 1 cover it. -/
theorem scover0_B_1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) (y : S8x1.Idx) :
    ∃ pc ∈ (kernelRun0_B c i arg2 harg2 arg3 harg3 arg4 harg4 arg5 harg5 arg6 harg6 arg7 harg7 hc0 hc1 x0 x1 xs0 xs1 xs2).2.1, y ∈ pc.1.set :=
  View.cover_of_tiledL (kernelRun0_B c i arg2 harg2 arg3 harg3 arg4 harg4 arg5 harg5 arg6 harg6 arg7 harg7 hc0 hc1 x0 x1 xs0 xs1 xs2).2.1 S8x1.size (by sl_kernel_rfl) y
/-- What case B leaves in accumulator 1: its pieces read back. -/
def sout0_B_1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) : Vec F S8x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1 xs2).2.1)

/-- Case B's stores into accumulator 2 cover it. -/
theorem scover0_B_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) (y : S8x1.Idx) :
    ∃ pc ∈ (kernelRun0_B c i arg2 harg2 arg3 harg3 arg4 harg4 arg5 harg5 arg6 harg6 arg7 harg7 hc0 hc1 x0 x1 xs0 xs1 xs2).2.2.1, y ∈ pc.1.set :=
  View.cover_of_tiledL (kernelRun0_B c i arg2 harg2 arg3 harg3 arg4 harg4 arg5 harg5 arg6 harg6 arg7 harg7 hc0 hc1 x0 x1 xs0 xs1 xs2).2.2.1 S8x1.size (by sl_kernel_rfl) y
/-- What case B leaves in accumulator 2: its pieces read back. -/
def sout0_B_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) : Vec F S8x1 .f32 :=
  VS0_2.read (Elt F) (VS0_2.writes (Elt F) VS0_2.junk (kernelRun0_B c i arg2 harg2 arg3 harg3 arg4 harg4 arg5 harg5 arg6 harg6 arg7 harg7 hc0 hc1 x0 x1 xs0 xs1 xs2).2.2.1)

/-- Case C's stores into accumulator 0 cover it. -/
theorem scover0_C_0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) (y : S8x1.Idx) :
    ∃ pc ∈ (kernelRun0_C c i arg2 harg2 arg3 harg3 arg4 harg4 arg5 harg5 arg6 harg6 arg7 harg7 hc0 hc1 x0 x1 xs0 xs1 xs2).2.1, y ∈ pc.1.set :=
  View.cover_of_tiledL (kernelRun0_C c i arg2 harg2 arg3 harg3 arg4 harg4 arg5 harg5 arg6 harg6 arg7 harg7 hc0 hc1 x0 x1 xs0 xs1 xs2).2.1 S8x1.size (by sl_kernel_rfl) y
/-- What case C leaves in accumulator 0: its pieces read back. -/
def sout0_C_0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) : Vec F S8x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1 xs2).2.1)

/-- Case C's stores into accumulator 1 cover it. -/
theorem scover0_C_1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) (y : S8x1.Idx) :
    ∃ pc ∈ (kernelRun0_C c i arg2 harg2 arg3 harg3 arg4 harg4 arg5 harg5 arg6 harg6 arg7 harg7 hc0 hc1 x0 x1 xs0 xs1 xs2).2.2.1, y ∈ pc.1.set :=
  View.cover_of_tiledL (kernelRun0_C c i arg2 harg2 arg3 harg3 arg4 harg4 arg5 harg5 arg6 harg6 arg7 harg7 hc0 hc1 x0 x1 xs0 xs1 xs2).2.2.1 S8x1.size (by sl_kernel_rfl) y
/-- What case C leaves in accumulator 1: its pieces read back. -/
def sout0_C_1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) : Vec F S8x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1 xs2).2.2.1)

/-- Case C's stores into accumulator 2 cover it. -/
theorem scover0_C_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) (y : S8x1.Idx) :
    ∃ pc ∈ (kernelRun0_C c i arg2 harg2 arg3 harg3 arg4 harg4 arg5 harg5 arg6 harg6 arg7 harg7 hc0 hc1 x0 x1 xs0 xs1 xs2).2.2.2.1, y ∈ pc.1.set :=
  View.cover_of_tiledL (kernelRun0_C c i arg2 harg2 arg3 harg3 arg4 harg4 arg5 harg5 arg6 harg6 arg7 harg7 hc0 hc1 x0 x1 xs0 xs1 xs2).2.2.2.1 S8x1.size (by sl_kernel_rfl) y
/-- What case C leaves in accumulator 2: its pieces read back. -/
def sout0_C_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) : Vec F S8x1 .f32 :=
  VS0_2.read (Elt F) (VS0_2.writes (Elt F) VS0_2.junk (kernelRun0_C c i arg2 harg2 arg3 harg3 arg4 harg4 arg5 harg5 arg6 harg6 arg7 harg7 hc0 hc1 x0 x1 xs0 xs1 xs2).2.2.2.1)

/-- The last row-step's stores into the result block cover it: one whole store and three one-lane stores, cut into
    one-lane columns. -/
theorem cover0_C_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) (y : S8x128.Idx) :
    ∃ pc ∈ (kernelRun0_C c i arg2 harg2 arg3 harg3 arg4 harg4 arg5 harg5 arg6 harg6 arg7 harg7 hc0 hc1 x0 x1 xs0 xs1 xs2).1, y ∈ pc.1.set :=
  View.cover_of_tiledBy (kernelRun0_C c i arg2 harg2 arg3 harg3 arg4 harg4 arg5 harg5 arg6 harg6 arg7 harg7 hc0 hc1 x0 x1 xs0 xs1 xs2).1 ![8, 1] (by sl_kernel_rfl) y
/-- What the last row-step leaves in the result block's staging buffer: its pieces read back. -/
def out0_C_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) : Vec F S8x128 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1 xs2).1)
/-- At the other row-steps the result window is idle (nothing stored, nothing written back): a placeholder nothing reads. -/
def outIdle : Vec F S8x128 .f32 := VO0_2.read (Elt F) (VO0_2.writes (Elt F) VO0_2.junk [])

/-! ## What the result block and the accumulators hold after each point -/

/-- After the body at position `n`: the result block's staging buffer, then the three accumulators — the case the
    row-step selects, run on the point's input blocks and, past a first row-step, on what the point before left in
    the accumulators. -/
def outsAt0 (c : Dev nD) : (n : ℕ) → n < cfg0.N → Vec F S8x128 .f32 × Vec F S8x1 .f32 × Vec F S8x1 .f32 × Vec F S8x1 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by have hN : n + 1 < 8 := lt_of_lt_of_eq hn (show cfg0.N = 8 from N_0); omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (outIdle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 4 = 0) (h1 : ¬t.val % 4 = 3) :
    outsAt0 m c t.val t.isLt = (outIdle, sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (outIdle, sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the three accumulators at anything; afterwards
    each at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- On core `c`: the three arrays as the region finds them; after the body at point `t` each input's staging buffer
    at its block and the result's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the two input buffers hold their blocks; the row-step (the point's index modulo 4) says which
    of the three cases applies; the invariant hands the accumulators over at what the point before left (at anything
    at the very first point) and takes them back at this point's contents; the result buffer is handed back untouched
    except at a last row-step, where it takes the stored block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0 sout0_C_1 sout0_C_2; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_C c (grid0.coords t) _ _ _ _ _ _ _ _ _ _ _ _ (fun h => h0 ((hcond0_0 t).mp h)) ((hcond0_1 t).mpr h1) (iblk m c 0 t) (iblk m c 1 t) _ _ _).2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        iintro ⟨H0, H1, ⟨%e2, H2⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0 sout0_B_1 sout0_B_2; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) _ _ _).2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
set_option maxHeartbeats 8000000 in
/-- Every weakly fair execution of @main terminates, and every final state has each of the region's arrays at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: every weakly fair execution terminates, faults nowhere, and leaves the four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.Kernel.Fr

end
-- ==== Proof.KI.Runs.lean ====
/-
  The pipelined focal-loss region of the program, its launch side: the buffer contents the region finds after the two
  reshapes that precede it, the host lines that follow it (they read the region's result and two arguments, write
  fresh buffers only and none of the region's three arrays), each input window's block at a grid point, the two
  branch conditions of the body decided over the 2 × 4 grid (the row-step is the point's index modulo 4: the first
  step resets the three per-image accumulators, the last one writes them into the result block), and where the
  result window is idle.
-/
import proofs.«400395_j77730318123291_3_alg».proof.Proof.Gen.KernelIdeal.Launch
import proofs.«400395_j77730318123291_3_alg».proof.Proof.Gen.KernelIdeal.Skeleton
import proofs.«400395_j77730318123291_3_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main around the region -/

/-- Core `c`'s buffer contents when the region is entered: after the two reshapes of the heat and target maps. -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
set_option maxHeartbeats 8000000 in
theorem hostOps1_fresh : (hostOps1 : List (HloOp τ sig (Elt F))).Forall fun op => op.fresh = ∅ := by
  simp only [List.Forall]; repeat' constructor
set_option maxHeartbeats 8000000 in
theorem hostOps1_1_fresh : (hostOps1_1 : List (HloOp τ sig (Elt F))).Forall fun op => op.fresh = ∅ := by
  simp only [List.Forall]; repeat' constructor
set_option maxHeartbeats 8000000 in
theorem hostOps1_2_fresh : (hostOps1_2 : List (HloOp τ sig (Elt F))).Forall fun op => op.fresh = ∅ := by
  simp only [List.Forall]; repeat' constructor

/-- The lines after the region, as the three stretches @main's chain has them. -/
abbrev tailOps : List (List (HloOp τ sig (Elt F))) := [hostOps1, hostOps1_1, hostOps1_2]

set_option maxHeartbeats 8000000 in
/-- @main is the two reshapes, the region, then the later lines: it reduces to the region continued by them. -/
theorem hmain (𝒱₀ : Variants) : Pipeline.HMainK (Ix := Unit) (Name := ℕ) (U := UR sig nD τ) (Lvl := ℕ) cfgs 0 defs₀ 𝒱₀ m (main (F := F)) (V m)
      (fun _ => Pipeline.chain [StableHlo.seq hostOps1, StableHlo.seq hostOps1_1, StableHlo.seq hostOps1_2]) :=
  Pipeline.hmain_around cfgs 0 defs₀ 𝒱₀ m main [hostOps0] [hostOps1, hostOps1_1, hostOps1_2] (by simp only [List.Forall]; exact hostOps0_sub)
    (by simp only [List.Forall]; exact hostOps0_fresh) main_chain

/-- The later lines touch unscoped TensorCore buffers only. -/
theorem sfx_sub : ∀ ops ∈ (tailOps : List (List (HloOp τ sig (Elt F)))), ∀ op ∈ ops,
    op.bufs ⊆ Pipeline.tailRefs sig Pipeline.Prefetch.none spec0 := by
  rw [Pipeline.tailRefs_none spec0 launch0.win.arr_unscoped]
  intro ops hops op hop
  simp only [tailOps, List.mem_cons, List.mem_nil_iff, or_false] at hops
  rcases hops with rfl | rfl | rfl
  · exact Pipeline.sub_ucRefs op ((List.forall_iff_forall_mem.mp hostOps1_sub) op hop)
  · exact Pipeline.sub_ucRefs op ((List.forall_iff_forall_mem.mp hostOps1_1_sub) op hop)
  · exact Pipeline.sub_ucRefs op ((List.forall_iff_forall_mem.mp hostOps1_2_sub) op hop)
/-- They allocate nothing. -/
theorem sfx_fresh : ∀ ops ∈ (tailOps : List (List (HloOp τ sig (Elt F)))), ∀ op ∈ ops, op.fresh = ∅ := by
  intro ops hops op hop
  simp only [tailOps, List.mem_cons, List.mem_nil_iff, or_false] at hops
  rcases hops with rfl | rfl | rfl
  · exact (List.forall_iff_forall_mem.mp hostOps1_fresh) op hop
  · exact (List.forall_iff_forall_mem.mp hostOps1_1_fresh) op hop
  · exact (List.forall_iff_forall_mem.mp hostOps1_2_fresh) op hop

set_option maxHeartbeats 8000000 in
theorem hostOps1_keeps : (hostOps1 : List (HloOp τ sig (Elt F))).Forall fun op => ∀ w, Proc.devRef .tc (Pipeline.arrRef spec0 w) ∉ op.writes := by
  simp only [hostOps1, List.Forall]
  repeat' apply And.intro
  all_goals (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

set_option maxHeartbeats 8000000 in
theorem hostOps1_1_keeps : (hostOps1_1 : List (HloOp τ sig (Elt F))).Forall fun op => ∀ w, Proc.devRef .tc (Pipeline.arrRef spec0 w) ∉ op.writes := by
  simp only [hostOps1_1, List.Forall]
  repeat' apply And.intro
  all_goals (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

set_option maxHeartbeats 8000000 in
theorem hostOps1_2_keeps : (hostOps1_2 : List (HloOp τ sig (Elt F))).Forall fun op => ∀ w, Proc.devRef .tc (Pipeline.arrRef spec0 w) ∉ op.writes := by
  simp only [hostOps1_2, List.Forall]
  repeat' apply And.intro
  all_goals (intro w; fin_cases w <;> simp only [StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide))

/-- And they write none of the region's three arrays: each writes its own result buffer only. -/
theorem sfx_keeps : ∀ ops ∈ (tailOps : List (List (HloOp τ sig (Elt F)))), ∀ op ∈ ops,
    ∀ w, Proc.devRef .tc (Pipeline.arrRef spec0 w) ∉ op.writes := by
  intro ops hops op hop
  simp only [tailOps, List.mem_cons, List.mem_nil_iff, or_false] at hops
  rcases hops with rfl | rfl | rfl
  · exact (List.forall_iff_forall_mem.mp hostOps1_keeps) op hop
  · exact (List.forall_iff_forall_mem.mp hostOps1_1_keeps) op hop
  · exact (List.forall_iff_forall_mem.mp hostOps1_2_keeps) op hop

/-- No host operation before the region writes argument 0: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 8000000 in
/-- No host operation after the region writes argument 0: it ends as launched. -/
theorem W_main_arg0 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg0 = m ((c : Thread nD τ).loc main_arg0) := by
  unfold Pipeline.afterTail₀
  rw [StableHlo.after_of_forall_not_mem (b := Proc.devRef .tc main_arg0) _ _ (List.forall_iff_forall_mem.mp (by
      simp only [hostOps1, hostOps1_1, hostOps1_2, List.flatten_cons, List.flatten_nil, List.append_nil, List.cons_append, List.nil_append, List.Forall, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg0 (by exact (by decide : ∀ w, Pipeline.arrRef spec0 w ≠ main_arg0))]
  exact V_main_arg0 m c

/-- No host operation before the region writes argument 1: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 8000000 in
/-- No host operation after the region writes argument 1: it ends as launched. -/
theorem W_main_arg1 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg1 = m ((c : Thread nD τ).loc main_arg1) := by
  unfold Pipeline.afterTail₀
  rw [StableHlo.after_of_forall_not_mem (b := Proc.devRef .tc main_arg1) _ _ (List.forall_iff_forall_mem.mp (by
      simp only [hostOps1, hostOps1_1, hostOps1_2, List.flatten_cons, List.flatten_nil, List.append_nil, List.cons_append, List.nil_append, List.Forall, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg1 (by exact (by decide : ∀ w, Pipeline.arrRef spec0 w ≠ main_arg1))]
  exact V_main_arg1 m c

/-- No host operation before the region writes argument 2: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 8000000 in
/-- No host operation after the region writes argument 2: it ends as launched. -/
theorem W_main_arg2 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg2 = m ((c : Thread nD τ).loc main_arg2) := by
  unfold Pipeline.afterTail₀
  rw [StableHlo.after_of_forall_not_mem (b := Proc.devRef .tc main_arg2) _ _ (List.forall_iff_forall_mem.mp (by
      simp only [hostOps1, hostOps1_1, hostOps1_2, List.flatten_cons, List.flatten_nil, List.append_nil, List.cons_append, List.nil_append, List.Forall, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg2 (by exact (by decide : ∀ w, Pipeline.arrRef spec0 w ≠ main_arg2))]
  exact V_main_arg2 m c

/-- No host operation before the region writes argument 3: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

set_option maxHeartbeats 8000000 in
/-- No host operation after the region writes argument 3: it ends as launched. -/
theorem W_main_arg3 (dats : (p : Fin _) → (c : Dev nD) → Dat τ (Elt F) Unit ℕ (UR sig nD τ) ℕ (cfgs p) c) (c : Dev nD) :
    Pipeline.afterTail₀ cfgs dats 0 (V0 m) [hostOps1, hostOps1_1, hostOps1_2] c main_arg3 = m ((c : Thread nD τ).loc main_arg3) := by
  unfold Pipeline.afterTail₀
  rw [StableHlo.after_of_forall_not_mem (b := Proc.devRef .tc main_arg3) _ _ (List.forall_iff_forall_mem.mp (by
      simp only [hostOps1, hostOps1_1, hostOps1_2, List.flatten_cons, List.flatten_nil, List.append_nil, List.cons_append, List.nil_append, List.Forall, StableHlo.TRef.nullary, StableHlo.TRef.unary, StableHlo.TRef.binary, StableHlo.TRef.ternary, StableHlo.TRef.reshape, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))),
    Pipeline.withArrays_of_ne _ c (V0 m c) _ main_arg3 (by exact (by decide : ∀ w, Pipeline.arrRef spec0 w ≠ main_arg3))]
  exact V_main_arg3 m c

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The heat window's staging buffer holds its block at every point. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- The target window's staging buffer holds its block at every point. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- A run to the library's frame post, read at the four argument arrays (none is a window's array: the windows stage the
    two reshaped copies and the result), is the frame claim's post. -/
theorem frame_of (dats : (p : Fin 1) → (c : Dev nD) → Dat τ (Elt F) Unit ℕ (UR sig nD τ) ℕ (cfgs p) c)
    (h : θ_run defs (onTc (τ := τ) (main (F := F))) (s₀ m ρ) (Pipeline.FramePost cfgs dats 0 (Pipeline.afterTail₀ cfgs dats 0 (V0 m) tailOps))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_arg0 (Pipeline.mem_restRefs_of main_arg0 (by decide) (by decide))).trans (W_main_arg0 m dats c),
     ((h c).2 main_arg1 (Pipeline.mem_restRefs_of main_arg1 (by decide) (by decide))).trans (W_main_arg1 m dats c),
     ((h c).2 main_arg2 (Pipeline.mem_restRefs_of main_arg2 (by decide) (by decide))).trans (W_main_arg2 m dats c),
     ((h c).2 main_arg3 (Pipeline.mem_restRefs_of main_arg3 (by decide) (by decide))).trans (W_main_arg3 m dats c)⟩) h

/-! ## The body's branch conditions -/

/-- The first `scf.if`: the row-step is the first one. -/
abbrev cond0_0 (i : grid0.Coords) : Prop := (Scalar.cmpi .ne (Scalar.extui (Scalar.cmpi .eq (BitVec.ofNat 32 (i 1).val) 0#32)) 0#32) = 1#1
theorem hcond0_0 : ∀ t : Fin cfg0.N, cond0_0 (grid0.coords t) ↔ t.val % 4 = 0 :=
  (by decide +kernel : ∀ t : Fin grid0.N, cond0_0 (grid0.coords t) ↔ t.val % 4 = 0)
/-- The second `scf.if`: the row-step is the last one. -/
abbrev cond0_1 (i : grid0.Coords) : Prop := k0_cond2 i = 1#1
theorem hcond0_1 : ∀ t : Fin cfg0.N, cond0_1 (grid0.coords t) ↔ t.val % 4 = 3 :=
  (by decide +kernel : ∀ t : Fin grid0.N, cond0_1 (grid0.coords t) ↔ t.val % 4 = 3)

/-! ## Where the windows are idle -/

theorem liveAt0_0 : ∀ t : Fin cfg0.N, cfg0.idle 0 (grid0.coords t) = false := by decide +kernel
theorem liveAt0_1 : ∀ t : Fin cfg0.N, cfg0.idle 1 (grid0.coords t) = false := by decide +kernel
theorem idleAt0_2 : ∀ t : Fin cfg0.N, ¬cond0_1 (grid0.coords t) → cfg0.idle 2 (grid0.coords t) = true := by decide +kernel
theorem noFlush0_2 : ∀ t : Fin cfg0.N, ¬cond0_1 (grid0.coords t) → (cfg0.win 2).flush t = false := by decide +kernel
theorem liveAt0_2 : ∀ t : Fin cfg0.N, cond0_1 (grid0.coords t) → cfg0.idle 2 (grid0.coords t) = false := by decide +kernel

/-! ## The staging and scratch memrefs -/

abbrev VO0_2 : View sig .tc .vmem S8x128 .f32 := (Memref.whole cc0_stg2_0 : Memref sig .tc .vmem S8x128 .f32).view
abbrev ms0_0 (t : Fin cfg0.N) : Memref sig .tc .vmem S8x128x512 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S8x128x512 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x128 .f32 := win0_2.stage (cfg0.slots t 2)
abbrev hs0_2 (t : Fin cfg0.N) : (ms0_2 t).IsWhole := hstage0_2 ((cfg0.slots t 2).cast nbuf0_2)
/-- The three per-image accumulators: whole scoped buffers of the kernel's own. -/
abbrev scM0_0 : Memref sig .tc .vmem S8x1 .f32 := Memref.whole cc0_scratch0
abbrev scM0_1 : Memref sig .tc .vmem S8x1 .f32 := Memref.whole cc0_scratch1
abbrev scM0_2 : Memref sig .tc .vmem S8x1 .f32 := Memref.whole cc0_scratch2
abbrev VS0_0 : View sig .tc .vmem S8x1 .f32 := scM0_0.view
abbrev VS0_1 : View sig .tc .vmem S8x1 .f32 := scM0_1.view
abbrev VS0_2 : View sig .tc .vmem S8x1 .f32 := scM0_2.view

/-- The region's invariant with the three accumulators owned at some contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d)) ∗ (∃ r, prngReg c r)) := by
  unfold Pipeline.ΦA; rw [scopedRest0_eq]; simp only [scM0_0, scM0_1, scM0_2, owns_whole]; try rfl

end Cert.KernelIdeal.Fr

end
-- ==== Proof.KI.RunA.lean ====
/-
  The body's run at a FIRST row-step (first conditional taken, second not): the three accumulators, found at any
  contents, are reset and then receive the block's three per-image sums; the result block is not touched.
-/
import proofs.«400395_j77730318123291_3_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- What the first row-step leaves in each accumulator, as the pieces its stores wrote (last first), with the proof
    that from the two input blocks at their contents, the result buffer at any contents (handed back untouched) and the
    accumulators at anything, the body runs to a continuation holding exactly that. -/
noncomputable def kernelRun0_A (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i)
    (x0 : Vec F S8x128x512 .f32) (x1 : Vec F S8x128x512 .f32) :
    Σ' (LS0 : List (View.Piece (Elt F) S8x1 .f32)) (LS1 : List (View.Piece (Elt F) S8x1 .f32)), { LS2 : List (View.Piece (Elt F) S8x1 .f32) //
      ∀ (xi2 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ (∃ d, owns (c : Thread nD τ) arg5 fullShare d) ∗ (∃ d, owns (c : Thread nD τ) arg6 fullShare d) ∗ (∃ d, owns (c : Thread nD τ) arg7 fullShare d)
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__focal_kernel i arg2 harg2 arg3 harg3 arg4 harg4 arg5 harg5 arg6 harg6 arg7 harg7) K } := by
  refine ⟨?_, ?_, ?_, fun xi2 E K => ?run⟩
  case run =>
    simp only [cc0__focal_kernel_eq_skeleton]; unfold cc0__focal_kernel_skel
    simp only [k0_part2_eq_skeleton]; unfold k0_part2_skel
    simp only [k0_part1_eq_skeleton]
    unfold owns
    iintro ⟨⟨%f0, %hf0, H0⟩, ⟨%f1, %hf1, H1⟩, ⟨%f2, %hf2, H2⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Fr

end
-- ==== Proof.KI.RunB.lean ====
/-
  The body's run at a MIDDLE row-step (neither conditional taken): each accumulator, found at what the step before
  left, receives its contents plus the block's per-image sum; the result block is not touched.
-/
import proofs.«400395_j77730318123291_3_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_B (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i)
    (x0 : Vec F S8x128x512 .f32) (x1 : Vec F S8x128x512 .f32) (xs0 xs1 xs2 : Vec F S8x1 .f32) :
    Σ' (LS0 : List (View.Piece (Elt F) S8x1 .f32)) (LS1 : List (View.Piece (Elt F) S8x1 .f32)), { LS2 : List (View.Piece (Elt F) S8x1 .f32) //
      ∀ (xi2 : Vec F S8x128 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ owns (c : Thread nD τ) arg4 fullShare xi2 ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__focal_kernel i arg2 harg2 arg3 harg3 arg4 harg4 arg5 harg5 arg6 harg6 arg7 harg7) K } := by
  refine ⟨?_, ?_, ?_, fun xi2 E K => ?run⟩
  case run =>
    simp only [cc0__focal_kernel_eq_skeleton]; unfold cc0__focal_kernel_skel
    simp only [k0_part2_eq_skeleton]; unfold k0_part2_skel
    simp only [k0_part1_eq_skeleton]
    unfold owns
    iintro ⟨⟨%f0, %hf0, H0⟩, ⟨%f1, %hf1, H1⟩, ⟨%f2, %hf2, H2⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [HS0]; · iexists _; iexact HS0
    isplitl [HS1]; · iexists _; iexact HS1
    iexists _; iexact HS2

end Cert.KernelIdeal.Fr

end
-- ==== Proof.KI.RunC.lean ====
/-
  The body's run at a LAST row-step (second conditional taken): each accumulator receives its contents plus the block's
  per-image sum, and the result block is stored whole (zeros) and then its first three lanes take the accumulators.
-/
import proofs.«400395_j77730318123291_3_alg».proof.Proof.KI.RunB

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
noncomputable def kernelRun0_C (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i)
    (x0 : Vec F S8x128x512 .f32) (x1 : Vec F S8x128x512 .f32) (xs0 xs1 xs2 : Vec F S8x1 .f32) :
    Σ' (L2 : List (View.Piece (Elt F) S8x128 .f32)) (LS0 : List (View.Piece (Elt F) S8x1 .f32)) (LS1 : List (View.Piece (Elt F) S8x1 .f32)), { LS2 : List (View.Piece (Elt F) S8x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs0 ∗ owns (c : Thread nD τ) arg6 fullShare xs1 ∗ owns (c : Thread nD τ) arg7 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f LS0) ∗ (∃ f, arg6.view.loc (c : Thread nD τ) ↦[arg6.view.set]{fullShare} arg6.view.writes (Elt F) f LS1) ∗ (∃ f, arg7.view.loc (c : Thread nD τ) ↦[arg7.view.set]{fullShare} arg7.view.writes (Elt F) f LS2)) -∗ K ⟨⟩))
          ⊢ wp frame (wpE (defs₀ (F := F)) Variants.none c none) E (cc0__focal_kernel i arg2 harg2 arg3 harg3 arg4 harg4 arg5 harg5 arg6 harg6 arg7 harg7) K } := by
  refine ⟨?_, ?_, ?_, ?_, fun E K => ?run⟩
  case run =>
    simp only [cc0__focal_kernel_eq_skeleton]; unfold cc0__focal_kernel_skel
    simp only [k0_part2_eq_skeleton]; unfold k0_part2_skel
    simp only [k0_part1_eq_skeleton]
    unfold owns
    iintro ⟨⟨%f0, %hf0, H0⟩, ⟨%f1, %hf1, H1⟩, ⟨%d2, %f2, -, H2⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg5.eq_unread hfs0; obtain rfl := harg6.eq_unread hfs1; obtain rfl := harg7.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [HS0]; · iexists _; iexact HS0
    isplitl [HS1]; · iexists _; iexact HS1
    iexists _; iexact HS2

end Cert.KernelIdeal.Fr

end
-- ==== Proof.KI.Frame.lean ====
/-
  The frame of the focal-loss program: what each of the three cases of the body leaves in the accumulators and in the
  result block (the pieces its stores wrote, read back), the accumulation over the eight grid points (the accumulators
  after a point are those of the point before plus the block's per-image sums, reset at each image group's first
  row-step), the region's proof data over it, the body obligation by cases on the row-step, and the launch: the run of
  @main — two reshapes, the region, the later host lines — and the frame claim.
-/
import proofs.«400395_j77730318123291_3_alg».proof.Proof.KI.RunC

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Case A's stores into accumulator 0 cover it. -/
theorem scover0_A_0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) (y : S8x1.Idx) :
    ∃ pc ∈ (kernelRun0_A c i arg2 harg2 arg3 harg3 arg4 harg4 arg5 harg5 arg6 harg6 arg7 harg7 hc0 hc1 x0 x1).1, y ∈ pc.1.set :=
  View.cover_of_tiledL (kernelRun0_A c i arg2 harg2 arg3 harg3 arg4 harg4 arg5 harg5 arg6 harg6 arg7 harg7 hc0 hc1 x0 x1).1 S8x1.size (by sl_kernel_rfl) y
/-- What case A leaves in accumulator 0: its pieces read back. -/
def sout0_A_0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) : Vec F S8x1 .f32 :=
  VS0_0.read (Elt F) (VS0_0.writes (Elt F) VS0_0.junk (kernelRun0_A c i arg2 harg2 arg3 harg3 arg4 harg4 arg5 harg5 arg6 harg6 arg7 harg7 hc0 hc1 x0 x1).1)

/-- Case A's stores into accumulator 1 cover it. -/
theorem scover0_A_1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) (y : S8x1.Idx) :
    ∃ pc ∈ (kernelRun0_A c i arg2 harg2 arg3 harg3 arg4 harg4 arg5 harg5 arg6 harg6 arg7 harg7 hc0 hc1 x0 x1).2.1, y ∈ pc.1.set :=
  View.cover_of_tiledL (kernelRun0_A c i arg2 harg2 arg3 harg3 arg4 harg4 arg5 harg5 arg6 harg6 arg7 harg7 hc0 hc1 x0 x1).2.1 S8x1.size (by sl_kernel_rfl) y
/-- What case A leaves in accumulator 1: its pieces read back. -/
def sout0_A_1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) : Vec F S8x1 .f32 :=
  VS0_1.read (Elt F) (VS0_1.writes (Elt F) VS0_1.junk (kernelRun0_A c i arg2 harg2 arg3 harg3 arg4 harg4 arg5 harg5 arg6 harg6 arg7 harg7 hc0 hc1 x0 x1).2.1)

/-- Case A's stores into accumulator 2 cover it. -/
theorem scover0_A_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) (y : S8x1.Idx) :
    ∃ pc ∈ (kernelRun0_A c i arg2 harg2 arg3 harg3 arg4 harg4 arg5 harg5 arg6 harg6 arg7 harg7 hc0 hc1 x0 x1).2.2.1, y ∈ pc.1.set :=
  View.cover_of_tiledL (kernelRun0_A c i arg2 harg2 arg3 harg3 arg4 harg4 arg5 harg5 arg6 harg6 arg7 harg7 hc0 hc1 x0 x1).2.2.1 S8x1.size (by sl_kernel_rfl) y
/-- What case A leaves in accumulator 2: its pieces read back. -/
def sout0_A_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) : Vec F S8x1 .f32 :=
  VS0_2.read (Elt F) (VS0_2.writes (Elt F) VS0_2.junk (kernelRun0_A c i arg2 harg2 arg3 harg3 arg4 harg4 arg5 harg5 arg6 harg6 arg7 harg7 hc0 hc1 x0 x1).2.2.1)

/-- Case B's stores into accumulator 0 cover it. -/
theorem scover0_B_0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) (y : S8x1.Idx) :
    ∃ pc ∈ (kernelRun0_B c i arg2 harg2 arg3 harg3 arg4 harg4 arg5 harg5 arg6 harg6 arg7 harg7 hc0 hc1 x0 x1 xs0 xs1 xs2).1, y ∈ pc.1.set :=
  View.cover_of_tiledL (kernelRun0_B c i arg2 harg2 arg3 harg3 arg4 harg4 arg5 harg5 arg6 harg6 arg7 harg7 hc0 hc1 x0 x1 xs0 xs1 xs2).1 S8x1.size (by sl_kernel_rfl) y
/-- What case B leaves in accumulator 0: its pieces read back. -/
def sout0_B_0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) : Vec F S8x1 .f32 :=
  VS0_0.read (Elt F) (VS0_0.writes (Elt F) VS0_0.junk (kernelRun0_B c i arg2 harg2 arg3 harg3 arg4 harg4 arg5 harg5 arg6 harg6 arg7 harg7 hc0 hc1 x0 x1 xs0 xs1 xs2).1)

/-- Case B's stores into accumulator 1 cover it. -/
theorem scover0_B_1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) (y : S8x1.Idx) :
    ∃ pc ∈ (kernelRun0_B c i arg2 harg2 arg3 harg3 arg4 harg4 arg5 harg5 arg6 harg6 arg7 harg7 hc0 hc1 x0 x1 xs0 xs1 xs2).2.1, y ∈ pc.1.set :=
  View.cover_of_tiledL (kernelRun0_B c i arg2 harg2 arg3 harg3 arg4 harg4 arg5 harg5 arg6 harg6 arg7 harg7 hc0 hc1 x0 x1 xs0 xs1 xs2).2.1 S8x1.size (by sl_kernel_rfl) y
/-- What case B leaves in accumulator 1: its pieces read back. -/
def sout0_B_1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) : Vec F S8x1 .f32 :=
  VS0_1.read (Elt F) (VS0_1.writes (Elt F) VS0_1.junk (kernelRun0_B c i arg2 harg2 arg3 harg3 arg4 harg4 arg5 harg5 arg6 harg6 arg7 harg7 hc0 hc1 x0 x1 xs0 xs1 xs2).2.1)

/-- Case B's stores into accumulator 2 cover it. -/
theorem scover0_B_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) (y : S8x1.Idx) :
    ∃ pc ∈ (kernelRun0_B c i arg2 harg2 arg3 harg3 arg4 harg4 arg5 harg5 arg6 harg6 arg7 harg7 hc0 hc1 x0 x1 xs0 xs1 xs2).2.2.1, y ∈ pc.1.set :=
  View.cover_of_tiledL (kernelRun0_B c i arg2 harg2 arg3 harg3 arg4 harg4 arg5 harg5 arg6 harg6 arg7 harg7 hc0 hc1 x0 x1 xs0 xs1 xs2).2.2.1 S8x1.size (by sl_kernel_rfl) y
/-- What case B leaves in accumulator 2: its pieces read back. -/
def sout0_B_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) : Vec F S8x1 .f32 :=
  VS0_2.read (Elt F) (VS0_2.writes (Elt F) VS0_2.junk (kernelRun0_B c i arg2 harg2 arg3 harg3 arg4 harg4 arg5 harg5 arg6 harg6 arg7 harg7 hc0 hc1 x0 x1 xs0 xs1 xs2).2.2.1)

/-- Case C's stores into accumulator 0 cover it. -/
theorem scover0_C_0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) (y : S8x1.Idx) :
    ∃ pc ∈ (kernelRun0_C c i arg2 harg2 arg3 harg3 arg4 harg4 arg5 harg5 arg6 harg6 arg7 harg7 hc0 hc1 x0 x1 xs0 xs1 xs2).2.1, y ∈ pc.1.set :=
  View.cover_of_tiledL (kernelRun0_C c i arg2 harg2 arg3 harg3 arg4 harg4 arg5 harg5 arg6 harg6 arg7 harg7 hc0 hc1 x0 x1 xs0 xs1 xs2).2.1 S8x1.size (by sl_kernel_rfl) y
/-- What case C leaves in accumulator 0: its pieces read back. -/
def sout0_C_0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) : Vec F S8x1 .f32 :=
  VS0_0.read (Elt F) (VS0_0.writes (Elt F) VS0_0.junk (kernelRun0_C c i arg2 harg2 arg3 harg3 arg4 harg4 arg5 harg5 arg6 harg6 arg7 harg7 hc0 hc1 x0 x1 xs0 xs1 xs2).2.1)

/-- Case C's stores into accumulator 1 cover it. -/
theorem scover0_C_1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) (y : S8x1.Idx) :
    ∃ pc ∈ (kernelRun0_C c i arg2 harg2 arg3 harg3 arg4 harg4 arg5 harg5 arg6 harg6 arg7 harg7 hc0 hc1 x0 x1 xs0 xs1 xs2).2.2.1, y ∈ pc.1.set :=
  View.cover_of_tiledL (kernelRun0_C c i arg2 harg2 arg3 harg3 arg4 harg4 arg5 harg5 arg6 harg6 arg7 harg7 hc0 hc1 x0 x1 xs0 xs1 xs2).2.2.1 S8x1.size (by sl_kernel_rfl) y
/-- What case C leaves in accumulator 1: its pieces read back. -/
def sout0_C_1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) : Vec F S8x1 .f32 :=
  VS0_1.read (Elt F) (VS0_1.writes (Elt F) VS0_1.junk (kernelRun0_C c i arg2 harg2 arg3 harg3 arg4 harg4 arg5 harg5 arg6 harg6 arg7 harg7 hc0 hc1 x0 x1 xs0 xs1 xs2).2.2.1)

/-- Case C's stores into accumulator 2 cover it. -/
theorem scover0_C_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) (y : S8x1.Idx) :
    ∃ pc ∈ (kernelRun0_C c i arg2 harg2 arg3 harg3 arg4 harg4 arg5 harg5 arg6 harg6 arg7 harg7 hc0 hc1 x0 x1 xs0 xs1 xs2).2.2.2.1, y ∈ pc.1.set :=
  View.cover_of_tiledL (kernelRun0_C c i arg2 harg2 arg3 harg3 arg4 harg4 arg5 harg5 arg6 harg6 arg7 harg7 hc0 hc1 x0 x1 xs0 xs1 xs2).2.2.2.1 S8x1.size (by sl_kernel_rfl) y
/-- What case C leaves in accumulator 2: its pieces read back. -/
def sout0_C_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) : Vec F S8x1 .f32 :=
  VS0_2.read (Elt F) (VS0_2.writes (Elt F) VS0_2.junk (kernelRun0_C c i arg2 harg2 arg3 harg3 arg4 harg4 arg5 harg5 arg6 harg6 arg7 harg7 hc0 hc1 x0 x1 xs0 xs1 xs2).2.2.2.1)

/-- The last row-step's stores into the result block cover it: one whole store and three one-lane stores, cut into
    one-lane columns. -/
theorem cover0_C_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) (y : S8x128.Idx) :
    ∃ pc ∈ (kernelRun0_C c i arg2 harg2 arg3 harg3 arg4 harg4 arg5 harg5 arg6 harg6 arg7 harg7 hc0 hc1 x0 x1 xs0 xs1 xs2).1, y ∈ pc.1.set :=
  View.cover_of_tiledBy (kernelRun0_C c i arg2 harg2 arg3 harg3 arg4 harg4 arg5 harg5 arg6 harg6 arg7 harg7 hc0 hc1 x0 x1 xs0 xs1 xs2).1 ![8, 1] (by sl_kernel_rfl) y
/-- What the last row-step leaves in the result block's staging buffer: its pieces read back. -/
def out0_C_2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) : Vec F S8x128 .f32 :=
  VO0_2.read (Elt F) (VO0_2.writes (Elt F) VO0_2.junk (kernelRun0_C c i arg2 harg2 arg3 harg3 arg4 harg4 arg5 harg5 arg6 harg6 arg7 harg7 hc0 hc1 x0 x1 xs0 xs1 xs2).1)
/-- At the other row-steps the result window is idle (nothing stored, nothing written back): a placeholder nothing reads. -/
def outIdle : Vec F S8x128 .f32 := VO0_2.read (Elt F) (VO0_2.writes (Elt F) VO0_2.junk [])

/-! ## What the result block and the accumulators hold after each point -/

/-- After the body at position `n`: the result block's staging buffer, then the three accumulators — the case the
    row-step selects, run on the point's input blocks and, past a first row-step, on what the point before left in
    the accumulators. -/
def outsAt0 (c : Dev nD) : (n : ℕ) → n < cfg0.N → Vec F S8x128 .f32 × Vec F S8x1 .f32 × Vec F S8x1 .f32 × Vec F S8x1 .f32
  | 0, hn => (outIdle, sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩), sout0_A_2 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0_0 (Memref.isWhole_whole _) scM0_1 (Memref.isWhole_whole _) scM0_2 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩))
  | n + 1, hn =>
    if h0 : (n + 1) % 4 = 0 then
      if h1 : (n + 1) % 4 = 3 then
        False.elim (by have hN : n + 1 < 8 := lt_of_lt_of_eq hn (show cfg0.N = 8 from N_0); omega)
      else
        (outIdle, sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩), sout0_A_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩))
    else
      if h1 : (n + 1) % 4 = 3 then
        (out0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_C_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)
      else
        (outIdle, sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2, sout0_B_2 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0_0 (Memref.isWhole_whole _) scM0_1 (Memref.isWhole_whole _) scM0_2 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (outsAt0 c n (Nat.lt_of_succ_lt hn)).2.1 (outsAt0 c n (Nat.lt_of_succ_lt hn)).2.2.1 (outsAt0 c n (Nat.lt_of_succ_lt hn)).2.2.2)

theorem outsAt0_A (c : Dev nD) (t : Fin cfg0.N) (h0 : t.val % 4 = 0) (h1 : ¬t.val % 4 = 3) :
    outsAt0 m c t.val t.isLt = (outIdle, sout0_A_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t), sout0_A_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) ((hcond0_0 t).mpr h0) (fun h => h1 ((hcond0_1 t).mp h)) (iblk m c 0 t) (iblk m c 1 t)) := by
  obtain ⟨n, hn⟩ := t
  cases n with
  | zero => exact rfl
  | succ n => exact (dif_pos h0).trans ((dif_neg h1).trans rfl)

theorem outsAt0_B (c : Dev nD) (t : Fin cfg0.N) (h0 : ¬t.val % 4 = 0) (h1 : ¬t.val % 4 = 3) :
    outsAt0 m c t.val t.isLt = (outIdle, sout0_B_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_B_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) (fun h => h1 ((hcond0_1 t).mp h)) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

theorem outsAt0_C (c : Dev nD) (t : Fin cfg0.N) (h0 : ¬t.val % 4 = 0) (h1 : t.val % 4 = 3) :
    outsAt0 m c t.val t.isLt = (out0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_0 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_1 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2, sout0_C_2 c (grid0.coords t) (ms0_0 t) (hs0_0 t) (ms0_1 t) (hs0_1 t) (ms0_2 t) (hs0_2 t) scM0_0 (Memref.isWhole_whole _) scM0_1 (Memref.isWhole_whole _) scM0_2 (Memref.isWhole_whole _) (fun h => h0 ((hcond0_0 t).mp h)) ((hcond0_1 t).mpr h1) (iblk m c 0 t) (iblk m c 1 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region's invariant before position `n`: before the first point the three accumulators at anything; afterwards
    each at what the point before left in it; the generator register at some state throughout. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r))

theorem PhiS_zero (c : Dev nD) (n : ℕ) (h : n ≤ cfg0.N) (hz : n = 0) : PhiS m c n h = Pipeline.ΦA spec0 c := by
  subst hz; rfl
theorem PhiS_succ (c : Dev nD) (n : ℕ) (hn : n < cfg0.N) :
    PhiS m c (n + 1) hn = iprop(iprop(owns (c : Thread nD τ) scM0_0 fullShare ((outsAt0 m c n hn).2.1) ∗ owns (c : Thread nD τ) scM0_1 fullShare ((outsAt0 m c n hn).2.2.1) ∗ owns (c : Thread nD τ) scM0_2 fullShare ((outsAt0 m c n hn).2.2.2)) ∗ (∃ r, prngReg c r)) := rfl
theorem PhiS_pos (c : Dev nD) (n : ℕ) (h : n ≤ cfg0.N) (hz : n ≠ 0) :
    PhiS m c n h = iprop(iprop(owns (c : Thread nD τ) scM0_0 fullShare ((outsAt0 m c (n - 1) (by omega)).2.1) ∗ owns (c : Thread nD τ) scM0_1 fullShare ((outsAt0 m c (n - 1) (by omega)).2.2.1) ∗ owns (c : Thread nD τ) scM0_2 fullShare ((outsAt0 m c (n - 1) (by omega)).2.2.2)) ∗ (∃ r, prngReg c r)) := by
  cases n with
  | zero => exact absurd rfl hz
  | succ n => rfl

/-! ## The pipeline's proof data -/

/-- On core `c`: the three arrays as the region finds them; after the body at point `t` each input's staging buffer
    at its block and the result's at `outsAt0`'s first component; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (outsAt0 m c t.val t.isLt).1
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]
theorem PhiS_castSucc (c : Dev nD) (t : Fin cfg0.N) :
    (dats m 0 c).Φ t.castSucc = PhiS m c t.val (Nat.le_of_lt t.isLt) := by
  dsimp only [dats]; simp only [Fin.coe_castSucc]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (outsAt0 m c t.val t.isLt).1 := by dsimp only [dats]
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

set_option maxHeartbeats 8000000 in
/-- The body at any point: the two input buffers hold their blocks; the row-step (the point's index modulo 4) says which
    of the three cases applies; the invariant hands the accumulators over at what the point before left (at anything
    at the very first point) and takes them back at this point's contents; the result buffer is handed back untouched
    except at a last row-step, where it takes the stored block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).owesAt () t.succ = (dats m 0 c).owesAt () t.castSucc from rfl]
  rw [show (dats m 0 c).Φ t.succ = PhiS m c (t.val + 1) t.isLt from rfl, PhiS_succ]
  have hN : t.val < 8 := lt_of_lt_of_eq t.isLt (show cfg0.N = 8 from N_0)
  by_cases h0 : t.val % 4 = 0
  · by_cases h1 : t.val % 4 = 3
    · exfalso; omega
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_A m c t h0 h1]
      unfold sout0_A_0 sout0_A_1 sout0_A_2; (try dsimp only)
      by_cases hz : t.val = 0
      · rw [PhiS_castSucc m c t, PhiS_zero m c _ _ hz, PhiA0_eq]
        iintro ⟨⟨⟨HS0, HS1, HS2⟩, Hg⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _)
          iexact Hg
        isplitl [Ho]; · iexact Ho
        isplitl [H0]; · iexact H0
        isplitl [H1]; · iexact H1
        iexists _; iexact H2
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_A c (grid0.coords t) _ _ _ _ _ _ _ _ _ _ _ _ ((hcond0_0 t).mpr h0) (fun h => h1 ((hcond0_1 t).mp h)) (iblk m c 0 t) (iblk m c 1 t)).2.2.2 _ Set.univ _)
        isplitl [H0]; · iexact H0
        isplitl [H1]; · iexact H1
        isplitl [H2]; · iexact H2
        isplitl [HS0]; · iexists _; iexact HS0
        isplitl [HS1]; · iexists _; iexact HS1
        isplitl [HS2]; · iexists _; iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_A_0 c _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _)
            unfold owns; iexists _; isplitr
            swap; · iexact HS2
            ipureintro; exact View.read_writes_of_cover _ _ _ _ _ (scover0_A_2 c _ _ _ _ _ _ _ _ _ _ _ _ _ _ _ _ _)
          iexact Hg
        isplitl [Ho]; · iexact Ho
        isplitl [H0]; · iexact H0
        isplitl [H1]; · iexact H1
        iexists _; iexact H2
  · by_cases h1 : t.val % 4 = 3
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [show (dats m 0 c).leavesExact 2 t = owns (c : Thread nD τ) (ms0_2 t) fullShare ((dats m 0 c).after 2 t) from by
        unfold Dat.leavesExact; rw [liveAt0_2 t ((hcond0_1 t).mpr h1)], after0_2]
      rw [outsAt0_C m c t h0 h1]
      unfold out0_C_2 sout0_C_0 sout0_C_1 sout0_C_2; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_C c (grid0.coords t) _ _ _ _ _ _ _ _ _ _ _ _ (fun h => h0 ((hcond0_0 t).mp h)) ((hcond0_1 t).mpr h1) (iblk m c 0 t) (iblk m c 1 t) _ _ _).2.2.2.2 Set.univ _)
        isplitl [H0]; · iexact H0
        isplitl [H1]; · iexact H1
        isplitl [H2]; · iexists _; iexact H2
        isplitl [HS0]; · iexact HS0
        isplitl [HS1]; · iexact HS1
        isplitl [HS2]; · iexact HS2
        iintro ⟨H0, H1, ⟨%e2, H2⟩, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_C_0 c _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _)
            unfold owns; iexists _; isplitr
            swap; · iexact HS2
            ipureintro; exact View.read_writes_of_cover _ _ _ _ _ (scover0_C_2 c _ _ _ _ _ _ _ _ _ _ _ _ _ _ _ _ _ _ _ _)
          iexact Hg
        isplitl [Ho]; · iexact Ho
        isplitl [H0]; · iexact H0
        isplitl [H1]; · iexact H1
        unfold owns; iexists _; isplitr
        swap; · iexact H2
        ipureintro; exact View.read_writes_of_cover _ _ _ _ _ (cover0_C_2 c _ _ _ _ _ _ _ _ _ _ _ _ _ _ _ _ _ _ _ _)
    · rw [show (dats m 0 c).leavesExact 0 t = owns (c : Thread nD τ) (ms0_0 t) fullShare ((dats m 0 c).after 0 t) from by
        unfold Dat.leavesExact; rw [liveAt0_0 t], after0_0]
      rw [show (dats m 0 c).leavesExact 1 t = owns (c : Thread nD τ) (ms0_1 t) fullShare ((dats m 0 c).after 1 t) from by
        unfold Dat.leavesExact; rw [liveAt0_1 t], after0_1]
      rw [Dat.leavesExact_idle (dats m 0 c) 2 t (idleAt0_2 t (fun h => h1 ((hcond0_1 t).mp h))) (noFlush0_2 t (fun h => h1 ((hcond0_1 t).mp h)))]
      rw [outsAt0_B m c t h0 h1]
      unfold sout0_B_0 sout0_B_1 sout0_B_2; (try dsimp only)
      by_cases hz : t.val = 0
      · exfalso; omega
      · rw [PhiS_castSucc m c t, PhiS_pos m c _ _ hz]
        iintro ⟨⟨⟨HS0, HS1, HS2⟩, Hg⟩, Ho, ⟨%d0, H0⟩, ⟨%d1, H1⟩, ⟨%d2, H2⟩⟩
        iapply ((kernelRun0_B c (grid0.coords t) _ _ _ _ _ _ _ _ _ _ _ _ (fun h => h0 ((hcond0_0 t).mp h)) (fun h => h1 ((hcond0_1 t).mp h)) (iblk m c 0 t) (iblk m c 1 t) _ _ _).2.2.2 _ Set.univ _)
        isplitl [H0]; · iexact H0
        isplitl [H1]; · iexact H1
        isplitl [H2]; · iexact H2
        isplitl [HS0]; · iexact HS0
        isplitl [HS1]; · iexact HS1
        isplitl [HS2]; · iexact HS2
        iintro ⟨H0, H1, H2, ⟨%es0, HS0⟩, ⟨%es1, HS1⟩, ⟨%es2, HS2⟩⟩
        isplitl [HS0 HS1 HS2 Hg]
        · isplitl [HS0 HS1 HS2]
          · isplitl [HS0]
            · unfold owns; iexists _; isplitr
              swap; · iexact HS0
              ipureintro; exact View.read_writes_of_cover _ _ _ _ _ (scover0_B_0 c _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _)
            unfold owns; iexists _; isplitr
            swap; · iexact HS2
            ipureintro; exact View.read_writes_of_cover _ _ _ _ _ (scover0_B_2 c _ _ _ _ _ _ _ _ _ _ _ _ _ _ _ _ _ _ _ _)
          iexact Hg
        isplitl [Ho]; · iexact Ho
        isplitl [H0]; · iexact H0
        isplitl [H1]; · iexact H1
        iexists _; iexact H2

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point the invariant gives the launch's back: the accumulators' named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2⟩, Hg⟩
  isplitl [HS0 HS1 HS2]
  · isplitl [HS0]; · iexists _; iexact HS0
    isplitl [HS1]; · iexists _; iexact HS1
    iexists _; iexact HS2
  iexact Hg

theorem hout (c : Dev nD) : (dats m 0 c).Φ (Fin.last cfg0.N) ⊢ Pipeline.ΦA spec0 c :=
  Phi_out m c _ (by rw [Fin.val_last]; have : cfg0.N = 8 := N_0; omega)

/-! ## The run and the frame -/

set_option backward.isDefEq.respectTransparency.types false in
set_option maxHeartbeats 8000000 in
/-- Every weakly fair execution of @main terminates, and every final state has each of the region's arrays at what the
    library computes from the proof data and every other unscoped buffer as the later lines leave it. -/
theorem run_main : θ_run defs (onTc (τ := τ) (main (F := F))) (s₀ m ρ) (Pipeline.FramePost cfgs (dats m) 0 (Pipeline.afterTail₀ cfgs (dats m) 0 (V0 m) tailOps)) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := tailOps) (hsub := sfx_sub) (hfresh := sfx_fresh) (hkeep := sfx_keeps)
    (hmain := hmain m Variants.none) (hA := A_eq m) (hin := hin m) (hout := hout m)

/-- The frame: every weakly fair execution terminates, faults nowhere, and leaves the four argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (run_main m ρ)

end Cert.KernelIdeal.Fr

end
-- ==== Proof.KI.Pieces.lean ====
/- What each of the body's three control cases leaves in the three accumulators, as the payloads of the
   body's stores. At a first row-step an accumulator is reset and then receives the block's per-image sum added
   to what the reset wrote; at a later row-step it receives the sum added to what it held before. In every case
   the last store covers the whole accumulator, so the accumulator's contents afterwards are that store's
   payload, its loads read at the contents the buffers held when they were loaded. -/
import proofs.«400395_j77730318123291_3_alg».proof.Proof.KI.Frame
import Idealize.ShloMosaic.Lib.Pipeline.Value
import Idealize.ShloMosaic.Lib.Tactic

set_option maxRecDepth 16384

noncomputable section

namespace Cert.KernelIdeal.Pc

open Cert.KernelIdeal Cert.KernelIdeal.Gen Cert.KernelIdeal.Fr
open Idealize.ShloMosaic Idealize.ShloMosaic.TcCoe Idealize.ShloMosaic.Tactic Idealize.SL.Sem

variable {F : FTy → Type} [FloatOps F]

/-- The zero offsets of a whole-buffer rectangle, rank 2 and rank 3. -/
theorem hz2 : (![0, 0] : Fin 2 → Nat) = fun _ => 0 := funext fun a => by fin_cases a <;> rfl
theorem hz3 : (![0, 0, 0] : Fin 3 → Nat) = fun _ => 0 := funext fun a => by fin_cases a <;> rfl

/-- At a first row-step the count accumulator holds the block's sum added to the reset's zeros. -/
theorem sA0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) :
    sout0_A_0 c i arg2 harg2 arg3 harg3 arg4 harg4 arg5 harg5 arg6 harg6 arg7 harg7 hc0 hc1 x0 x1 = k0_pay10 (k0_pay5 x1) k0_pay1 := by
  unfold sout0_A_0
  rw [View.read_writes_eq_canon _ _ _ (scover0_A_0 c i arg2 harg2 arg3 harg3 arg4 harg4 arg5 harg5 arg6 harg6 arg7 harg7 hc0 hc1 x0 x1)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg5.read_unread, harg6.read_unread,
    harg7.read_unread, View.ld_unit_zero (S := S8x1) hz2, View.ld_unit_zero (S := S8x128x512) hz3,
    View.readCov_unit_zero (S := S8x1) _ hz2, shapeCast_self]

/-- At a first row-step the positive-loss accumulator holds the block's sum added to the reset's zeros. -/
theorem sA1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) :
    sout0_A_1 c i arg2 harg2 arg3 harg3 arg4 harg4 arg5 harg5 arg6 harg6 arg7 harg7 hc0 hc1 x0 x1 = k0_pay11 (k0_pay5 x1) (k0_pay7 x0 x1) (k0_pay8 x0 x1) k0_pay2 := by
  unfold sout0_A_1
  rw [View.read_writes_eq_canon _ _ _ (scover0_A_1 c i arg2 harg2 arg3 harg3 arg4 harg4 arg5 harg5 arg6 harg6 arg7 harg7 hc0 hc1 x0 x1)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg5.read_unread, harg6.read_unread,
    harg7.read_unread, View.ld_unit_zero (S := S8x1) hz2, View.ld_unit_zero (S := S8x128x512) hz3,
    View.readCov_unit_zero (S := S8x1) _ hz2, shapeCast_self]

/-- At a first row-step the negative-loss accumulator holds the block's sum added to the reset's zeros. -/
theorem sA2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : cond0_0 i) (hc1 : ¬cond0_1 i) (x0 x1 : Vec F S8x128x512 .f32) :
    sout0_A_2 c i arg2 harg2 arg3 harg3 arg4 harg4 arg5 harg5 arg6 harg6 arg7 harg7 hc0 hc1 x0 x1 = k0_pay12 (k0_pay4 x1) (k0_pay5 x1) (k0_pay7 x0 x1) (k0_pay8 x0 x1) k0_pay3 := by
  unfold sout0_A_2
  rw [View.read_writes_eq_canon _ _ _ (scover0_A_2 c i arg2 harg2 arg3 harg3 arg4 harg4 arg5 harg5 arg6 harg6 arg7 harg7 hc0 hc1 x0 x1)]
  unfold kernelRun0_A
  dsimp only
  sl_unfold_words
  rw [View.canon_cons_unit_zero (S := S8x1) hz2, View.readCov_unit_zero (S := S8x1) _ hz2]
  simp only [View.readAt_eq_ld, harg2.read_unread, harg3.read_unread, harg5.read_unread, harg6.read_unread,
    harg7.read_unread, View.ld_unit_zero (S := S8x1) hz2, View.ld_unit_zero (S := S8x128x512) hz3,
    View.readCov_unit_zero (S := S8x1) _ hz2, shapeCast_self]

/-- At a middle row-step the count accumulator holds the block's sum added to what it held before. -/
theorem sB0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) :
    sout0_B_0 c i arg2 harg2 arg3 harg3 arg4 harg4 arg5 harg5 arg6 harg6 arg7 harg7 hc0 hc1 x0 x1 xs0 xs1 xs2 = k0_pay10 (k0_pay5 x1) xs0 := by
  unfold sout0_B_0
  rw [View.read_writes_eq_canon _ _ _ (scover0_B_0 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, harg6.read_unread,
    harg7.read_unread, View.ld_unit_zero (S := S8x1) hz2, View.ld_unit_zero (S := S8x128x512) hz3,
    View.readCov_unit_zero (S := S8x1) _ hz2, shapeCast_self]

/-- At a middle row-step the positive-loss accumulator holds the block's sum added to what it held before. -/
theorem sB1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) :
    sout0_B_1 c i arg2 harg2 arg3 harg3 arg4 harg4 arg5 harg5 arg6 harg6 arg7 harg7 hc0 hc1 x0 x1 xs0 xs1 xs2 = k0_pay11 (k0_pay5 x1) (k0_pay7 x0 x1) (k0_pay8 x0 x1) xs1 := by
  unfold sout0_B_1
  rw [View.read_writes_eq_canon _ _ _ (scover0_B_1 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, harg6.read_unread,
    harg7.read_unread, View.ld_unit_zero (S := S8x1) hz2, View.ld_unit_zero (S := S8x128x512) hz3,
    View.readCov_unit_zero (S := S8x1) _ hz2, shapeCast_self]

/-- At a middle row-step the negative-loss accumulator holds the block's sum added to what it held before. -/
theorem sB2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : ¬cond0_1 i) (x0 x1 : Vec F S8x128x512 .f32) (xs0 xs1 xs2 : Vec F S8x1 .f32) :
    sout0_B_2 c i arg2 harg2 arg3 harg3 arg4 harg4 arg5 harg5 arg6 harg6 arg7 harg7 hc0 hc1 x0 x1 xs0 xs1 xs2 = k0_pay12 (k0_pay4 x1) (k0_pay5 x1) (k0_pay7 x0 x1) (k0_pay8 x0 x1) xs2 := by
  unfold sout0_B_2
  rw [View.read_writes_eq_canon _ _ _ (scover0_B_2 c i arg2 harg2 arg3 harg3 arg4 harg4 arg5 harg5 arg6 harg6 arg7 harg7 hc0 hc1 x0 x1 xs0 xs1 xs2)]
  unfold kernelRun0_B
  dsimp only
  sl_unfold_words
  rw [View.canon_unit_zero hz2]
  simp only [View.readAt_eq_ld, harg2.read_unread, harg3.read_unread, harg5.read_unread, harg6.read_unread,
    harg7.read_unread, View.ld_unit_zero (S := S8x1) hz2, View.ld_unit_zero (S := S8x128x512) hz3,
    View.readCov_unit_zero (S := S8x1) _ hz2, shapeCast_self]

/-- At a last row-step the count accumulator holds the block's sum added to what it held before. -/
theorem sC0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) :
    sout0_C_0 c i arg2 harg2 arg3 harg3 arg4 harg4 arg5 harg5 arg6 harg6 arg7 harg7 hc0 hc1 x0 x1 xs0 xs1 xs2 = k0_pay10 (k0_pay5 x1) xs0 := by
  unfold sout0_C_0
  rw [View.read_writes_eq_canon _ _ _ (scover0_C_0 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, harg6.read_unread,
    harg7.read_unread, View.ld_unit_zero (S := S8x1) hz2, View.ld_unit_zero (S := S8x128x512) hz3,
    View.readCov_unit_zero (S := S8x1) _ hz2, shapeCast_self]

/-- At a last row-step the positive-loss accumulator holds the block's sum added to what it held before. -/
theorem sC1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) :
    sout0_C_1 c i arg2 harg2 arg3 harg3 arg4 harg4 arg5 harg5 arg6 harg6 arg7 harg7 hc0 hc1 x0 x1 xs0 xs1 xs2 = k0_pay11 (k0_pay5 x1) (k0_pay7 x0 x1) (k0_pay8 x0 x1) xs1 := by
  unfold sout0_C_1
  rw [View.read_writes_eq_canon _ _ _ (scover0_C_1 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, harg6.read_unread,
    harg7.read_unread, View.ld_unit_zero (S := S8x1) hz2, View.ld_unit_zero (S := S8x128x512) hz3,
    View.readCov_unit_zero (S := S8x1) _ hz2, shapeCast_self]

/-- At a last row-step the negative-loss accumulator holds the block's sum added to what it held before. -/
theorem sC2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) :
    sout0_C_2 c i arg2 harg2 arg3 harg3 arg4 harg4 arg5 harg5 arg6 harg6 arg7 harg7 hc0 hc1 x0 x1 xs0 xs1 xs2 = k0_pay12 (k0_pay4 x1) (k0_pay5 x1) (k0_pay7 x0 x1) (k0_pay8 x0 x1) xs2 := by
  unfold sout0_C_2
  rw [View.read_writes_eq_canon _ _ _ (scover0_C_2 c i arg2 harg2 arg3 harg3 arg4 harg4 arg5 harg5 arg6 harg6 arg7 harg7 hc0 hc1 x0 x1 xs0 xs1 xs2)]
  unfold kernelRun0_C
  dsimp only
  sl_unfold_words
  rw [View.canon_unit_zero hz2]
  simp only [View.readAt_eq_ld, harg2.read_unread, harg3.read_unread, harg5.read_unread, harg6.read_unread,
    harg7.read_unread, View.ld_unit_zero (S := S8x1) hz2, View.ld_unit_zero (S := S8x128x512) hz3,
    View.readCov_unit_zero (S := S8x1) _ hz2, shapeCast_self]

end Cert.KernelIdeal.Pc

end
-- ==== Proof.KI.OutPiece.lean ====
import proofs.«400395_j77730318123291_3_alg».proof.Proof.KI.Frame
import Idealize.ShloMosaic.Lib.Pipeline.Value
import Idealize.ShloMosaic.Lib.ValueIdx
import Idealize.ShloMosaic.Lib.Tactic

set_option maxRecDepth 16384

noncomputable section

namespace Cert.KernelIdeal.Po

open Cert.KernelIdeal Cert.KernelIdeal.Gen Cert.KernelIdeal.Fr
open Idealize.ShloMosaic Idealize.ShloMosaic.TcCoe Idealize.SL.Sem Idealize.ShloMosaic.Tactic

variable {F : FTy → Type} [FloatOps F]

/-- The zero offsets of a rank-2 whole-buffer access. -/
theorem hz2 : (![0, 0] : Fin 2 → Nat) = fun _ => 0 := funext fun a => by fin_cases a <;> rfl
/-- The zero offsets of a rank-3 whole-buffer access. -/
theorem hz3 : (![0, 0, 0] : Fin 3 → Nat) = fun _ => 0 := funext fun a => by fin_cases a <;> rfl

/-- A whole [8, 128] store followed by one-lane column stores at lanes 0, 1, 2 (last store first in the list):
    lane l of row b holds row b of the l-th column store's payload. -/
theorem canon_lanes (w2 w1 w0 : S8x1.Idx → Elt F .f32) (wz : S8x128.Idx → Elt F .f32)
    (inb2 : ∀ a, (![0, 2] : Fin 2 → Nat) a + (![8, 1] : Fin 2 → Nat) a ≤ S8x128.size a)
    (inb1 : ∀ a, (![0, 1] : Fin 2 → Nat) a + (![8, 1] : Fin 2 → Nat) a ≤ S8x128.size a)
    (inb0 : ∀ a, (![0, 0] : Fin 2 → Nat) a + (![8, 1] : Fin 2 → Nat) a ≤ S8x128.size a)
    (inbw : ∀ a, (![0, 0] : Fin 2 → Nat) a + (![8, 128] : Fin 2 → Nat) a ≤ S8x128.size a) (b : Fin 8) :
    View.canon ([⟨Rect.unit ![0, 2] ![8, 1] inb2, w2⟩, ⟨Rect.unit ![0, 1] ![8, 1] inb1, w1⟩,
        ⟨Rect.unit ![0, 0] ![8, 1] inb0, w0⟩, ⟨Rect.unit ![0, 0] ![8, 128] inbw, wz⟩] : List (View.Piece (Elt F) S8x128 .f32))
        (ValueIdx.ix2 b (0 : Fin 128)) = w0 (ValueIdx.ix2 b (0 : Fin 1))
    ∧ View.canon ([⟨Rect.unit ![0, 2] ![8, 1] inb2, w2⟩, ⟨Rect.unit ![0, 1] ![8, 1] inb1, w1⟩,
        ⟨Rect.unit ![0, 0] ![8, 1] inb0, w0⟩, ⟨Rect.unit ![0, 0] ![8, 128] inbw, wz⟩] : List (View.Piece (Elt F) S8x128 .f32))
        (ValueIdx.ix2 b (1 : Fin 128)) = w1 (ValueIdx.ix2 b (0 : Fin 1))
    ∧ View.canon ([⟨Rect.unit ![0, 2] ![8, 1] inb2, w2⟩, ⟨Rect.unit ![0, 1] ![8, 1] inb1, w1⟩,
        ⟨Rect.unit ![0, 0] ![8, 1] inb0, w0⟩, ⟨Rect.unit ![0, 0] ![8, 128] inbw, wz⟩] : List (View.Piece (Elt F) S8x128 .f32))
        (ValueIdx.ix2 b (2 : Fin 128)) = w2 (ValueIdx.ix2 b (0 : Fin 1)) := by
  have e0 : ValueIdx.ix2 b (0 : Fin 128) = (Rect.unit (s := S8x128) ![0, 0] ![8, 1] inb0).emb (ValueIdx.ix2 b (0 : Fin 1)) := by
    funext a; apply Fin.ext; rw [Rect.emb_apply]
    match a with
    | ⟨0, _⟩ => show b.val = 0 + 1 * b.val; omega
    | ⟨1, _⟩ => show 0 = 0 + 1 * 0; rfl
  have e1 : ValueIdx.ix2 b (1 : Fin 128) = (Rect.unit (s := S8x128) ![0, 1] ![8, 1] inb1).emb (ValueIdx.ix2 b (0 : Fin 1)) := by
    funext a; apply Fin.ext; rw [Rect.emb_apply]
    match a with
    | ⟨0, _⟩ => show b.val = 0 + 1 * b.val; omega
    | ⟨1, _⟩ => show 1 = 1 + 1 * 0; rfl
  have e2 : ValueIdx.ix2 b (2 : Fin 128) = (Rect.unit (s := S8x128) ![0, 2] ![8, 1] inb2).emb (ValueIdx.ix2 b (0 : Fin 1)) := by
    funext a; apply Fin.ext; rw [Rect.emb_apply]
    match a with
    | ⟨0, _⟩ => show b.val = 0 + 1 * b.val; omega
    | ⟨1, _⟩ => show 2 = 2 + 1 * 0; rfl
  have n02 : ValueIdx.ix2 b (0 : Fin 128) ∉ (Rect.unit (s := S8x128) ![0, 2] ![8, 1] inb2).set := by
    rw [Rect.mem_set_unit]; intro h
    have h1 : (2 : Nat) ≤ 0 := (h 1).1
    omega
  have n01 : ValueIdx.ix2 b (0 : Fin 128) ∉ (Rect.unit (s := S8x128) ![0, 1] ![8, 1] inb1).set := by
    rw [Rect.mem_set_unit]; intro h
    have h1 : (1 : Nat) ≤ 0 := (h 1).1
    omega
  have n12 : ValueIdx.ix2 b (1 : Fin 128) ∉ (Rect.unit (s := S8x128) ![0, 2] ![8, 1] inb2).set := by
    rw [Rect.mem_set_unit]; intro h
    have h1 : (2 : Nat) ≤ 1 := (h 1).1
    omega
  refine ⟨?_, ?_, ?_⟩
  · refine (View.canon_cons_of_not_mem (⟨Rect.unit ![0, 2] ![8, 1] inb2, w2⟩ : View.Piece (Elt F) S8x128 .f32) _ n02).trans ?_
    refine (View.canon_cons_of_not_mem (⟨Rect.unit ![0, 1] ![8, 1] inb1, w1⟩ : View.Piece (Elt F) S8x128 .f32) _ n01).trans ?_
    rw [e0]
    exact View.canon_cons_emb (Rect.unit (s := S8x128) ![0, 0] ![8, 1] inb0) w0 _ (ValueIdx.ix2 b (0 : Fin 1))
  · refine (View.canon_cons_of_not_mem (⟨Rect.unit ![0, 2] ![8, 1] inb2, w2⟩ : View.Piece (Elt F) S8x128 .f32) _ n12).trans ?_
    rw [e1]
    exact View.canon_cons_emb (Rect.unit (s := S8x128) ![0, 1] ![8, 1] inb1) w1 _ (ValueIdx.ix2 b (0 : Fin 1))
  · rw [e2]
    exact View.canon_cons_emb (Rect.unit (s := S8x128) ![0, 2] ![8, 1] inb2) w2 _ (ValueIdx.ix2 b (0 : Fin 1))

/-- Lane 0 of the result block after the last row-step: the first accumulator's new contents. -/
theorem oC_lane0 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) (b : Fin 8) :
    out0_C_2 c i arg2 harg2 arg3 harg3 arg4 harg4 arg5 harg5 arg6 harg6 arg7 harg7 hc0 hc1 x0 x1 xs0 xs1 xs2 (ValueIdx.ix2 b (0 : Fin 128)) = k0_pay10 (k0_pay5 x1) xs0 (ValueIdx.ix2 b (0 : Fin 1)) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  refine (canon_lanes _ _ _ _ _ _ _ _ b).1.trans ?_
  rw [View.readCov_unit_zero (S := S8x1) _ hz2]
  simp only [View.readAt_eq_ld, harg2.read_unread, harg3.read_unread, harg5.read_unread, View.ld_unit_zero (S := S8x128x512) hz3,
    View.ld_unit_zero (S := S8x1) hz2]

/-- Lane 1 of the result block after the last row-step: the second accumulator's new contents. -/
theorem oC_lane1 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) (b : Fin 8) :
    out0_C_2 c i arg2 harg2 arg3 harg3 arg4 harg4 arg5 harg5 arg6 harg6 arg7 harg7 hc0 hc1 x0 x1 xs0 xs1 xs2 (ValueIdx.ix2 b (1 : Fin 128))
      = k0_pay11 (k0_pay5 x1) (k0_pay7 x0 x1) (k0_pay8 x0 x1) xs1 (ValueIdx.ix2 b (0 : Fin 1)) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  refine (canon_lanes _ _ _ _ _ _ _ _ b).2.1.trans ?_
  rw [View.readCov_unit_zero (S := S8x1) _ hz2]
  simp only [View.readAt_eq_ld, harg2.read_unread, harg3.read_unread, harg6.read_unread, View.ld_unit_zero (S := S8x128x512) hz3,
    View.ld_unit_zero (S := S8x1) hz2]

/-- Lane 2 of the result block after the last row-step: the third accumulator's new contents. -/
theorem oC_lane2 (c : Dev nD) (i : grid0.Coords) (arg2 : Memref sig .tc .vmem S8x128x512 .f32) (harg2 : arg2.IsWhole) (arg3 : Memref sig .tc .vmem S8x128x512 .f32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (arg7 : Memref sig .tc .vmem S8x1 .f32) (harg7 : arg7.IsWhole) (hc0 : ¬cond0_0 i) (hc1 : cond0_1 i) (x0 x1 : Vec F S8x128x512 .f32) (xs0 xs1 xs2 : Vec F S8x1 .f32) (b : Fin 8) :
    out0_C_2 c i arg2 harg2 arg3 harg3 arg4 harg4 arg5 harg5 arg6 harg6 arg7 harg7 hc0 hc1 x0 x1 xs0 xs1 xs2 (ValueIdx.ix2 b (2 : Fin 128))
      = k0_pay12 (k0_pay4 x1) (k0_pay5 x1) (k0_pay7 x0 x1) (k0_pay8 x0 x1) xs2 (ValueIdx.ix2 b (0 : Fin 1)) := by
  unfold out0_C_2
  rw [View.read_writes_eq_canon _ _ _ (cover0_C_2 c i arg2 harg2 arg3 harg3 arg4 harg4 arg5 harg5 arg6 harg6 arg7 harg7 hc0 hc1 x0 x1 xs0 xs1 xs2)]
  unfold kernelRun0_C
  dsimp only
  sl_unfold_words
  refine (canon_lanes _ _ _ _ _ _ _ _ b).2.2.trans ?_
  rw [View.readCov_unit_zero (S := S8x1) _ hz2]
  simp only [View.readAt_eq_ld, harg2.read_unread, harg3.read_unread, harg7.read_unread, View.ld_unit_zero (S := S8x128x512) hz3,
    View.ld_unit_zero (S := S8x1) hz2]

end Cert.KernelIdeal.Po

end
-- ==== Proof.KI.Blocks.lean ====
/-
  The region's two input windows read at an index. Each window stages [8,128,512] blocks of a [16,512,512] array that
  a reshape made from a [16,1,512,512] argument before the region. The grid is 2 × 4: point t has coordinates
  (t / 4, t % 4), and its block starts at image 8·(t / 4) and row 128·(t % 4). So element (b, r, c) of the block at
  point t is the argument at image 8·(t / 4) + b, channel 0, row 128·(t % 4) + r, column c.
-/
import proofs.«400395_j77730318123291_3_alg».proof.Proof.KI.Runs
import Idealize.ShloMosaic.Lib.Pipeline.Value
import Idealize.ShloMosaic.Lib.ValueIdx
import Idealize.ShloMosaic.Lib.StableHlo.Run
import Mathlib.Algebra.BigOperators.Fin

noncomputable section

open scoped BigOperators

namespace Cert.KernelIdeal.Blk

open Cert.KernelIdeal Cert.KernelIdeal.Gen Cert.KernelIdeal.Fr
open Idealize.ShloMosaic Idealize.ShloMosaic.TcCoe Idealize.SL.Sem

variable (m : (ℓ : Loc nD τ sig) → Buf (Elt Ideal) ℓ)

/-- The heat map as the region finds it: the reshape of argument 0. -/
theorem V_v0 (c : Dev nD) :
    (V m c main_v0 : FVec Ideal S16x512x512 .f32)
      = shapeCast S16x512x512 (m ((c : Thread nD τ).loc main_arg0)) shapeCasts_S16x1x512x512_S16x512x512 := by
  dsimp only [V, V0]
  simp only [hostOps0, List.flatten_cons, List.flatten_nil, List.append_nil, List.cons_append, List.nil_append]
  after_results
  rfl

/-- The target map as the region finds it: the reshape of argument 2. -/
theorem V_v1 (c : Dev nD) :
    (V m c main_v1 : FVec Ideal S16x512x512 .f32)
      = shapeCast S16x512x512 (m ((c : Thread nD τ).loc main_arg2)) shapeCasts_S16x1x512x512_S16x512x512 := by
  dsimp only [V, V0]
  simp only [hostOps0, List.flatten_cons, List.flatten_nil, List.append_nil, List.cons_append, List.nil_append]
  after_results
  rfl

/-- The reshape that drops the unit channel axis, read at an index whose coordinates are given. -/
theorem reshape_elt (x : FVec Ideal S16x1x512x512 .f32) (k : S16x512x512.Idx) (a : Fin 16) (r : Fin 512) (cc : Fin 512)
    (h0 : (k 0).val = a.val) (h1 : (k 1).val = r.val) (h2 : (k 2).val = cc.val) :
    shapeCast S16x512x512 x shapeCasts_S16x1x512x512_S16x512x512 k = x (ValueIdx.ix4 a (0 : Fin 1) r cc) :=
  shapeCast_apply x _ k _ (by
    rw [Shape.rowMajor_val_four, Shape.rowMajor_val_three]
    show ((a.val * 1 + 0) * 512 + r.val) * 512 + cc.val = ((k 0).val * 512 + (k 1).val) * 512 + (k 2).val
    rw [h0, h1, h2]; omega)

/-- The heat window's block index over the grid: (t / 4, t % 4, 0). -/
theorem idx0 : ∀ t : Fin cfg0.N,
    win0_0.index t (0 : Fin 3) = t.val / 4 ∧ win0_0.index t (1 : Fin 3) = t.val % 4 ∧ win0_0.index t (2 : Fin 3) = 0 :=
  (by decide +kernel : ∀ t : Fin grid0.N,
    win0_0.index t (0 : Fin 3) = t.val / 4 ∧ win0_0.index t (1 : Fin 3) = t.val % 4 ∧ win0_0.index t (2 : Fin 3) = 0)

/-- The target window's block index over the grid: the same. -/
theorem idx1 : ∀ t : Fin cfg0.N,
    win0_1.index t (0 : Fin 3) = t.val / 4 ∧ win0_1.index t (1 : Fin 3) = t.val % 4 ∧ win0_1.index t (2 : Fin 3) = 0 :=
  (by decide +kernel : ∀ t : Fin grid0.N,
    win0_1.index t (0 : Fin 3) = t.val / 4 ∧ win0_1.index t (1 : Fin 3) = t.val % 4 ∧ win0_1.index t (2 : Fin 3) = 0)

/-- The heat window's block at point `t`, at element (b, r, cc). -/
theorem iblk0_elt (c : Dev nD) (t : Fin cfg0.N) (b : Fin 8) (r : Fin 128) (cc : Fin 512) :
    (iblk m c 0 t : Vec Ideal S8x128x512 .f32) (ValueIdx.ix3 b r cc)
      = m ((c : Thread nD τ).loc main_arg0)
          (ValueIdx.ix4 (⟨8 * (t.val / 4) + b.val, by have := t.isLt; have : cfg0.N = 8 := N_0; omega⟩ : Fin 16)
            (0 : Fin 1) (⟨128 * (t.val % 4) + r.val, by omega⟩ : Fin 512) cc) := by
  obtain ⟨h0, h1, h2⟩ := idx0 t
  unfold iblk
  rw [View.read_apply]
  show (V m c main_v0 : FVec Ideal S16x512x512 .f32) (((cfg0.win 0).blk t).view.emb (ValueIdx.ix3 b r cc)) = _
  rw [V_v0 m c]
  refine reshape_elt _ _ _ _ _ ?_ ?_ ?_
  · show win0_0.index t 0 * 8 + 1 * b.val = 8 * (t.val / 4) + b.val
    rw [h0]; omega
  · show win0_0.index t 1 * 128 + 1 * r.val = 128 * (t.val % 4) + r.val
    rw [h1]; omega
  · show win0_0.index t 2 * 512 + 1 * cc.val = cc.val
    rw [h2]; omega

/-- The target window's block at point `t`, at element (b, r, cc). -/
theorem iblk1_elt (c : Dev nD) (t : Fin cfg0.N) (b : Fin 8) (r : Fin 128) (cc : Fin 512) :
    (iblk m c 1 t : Vec Ideal S8x128x512 .f32) (ValueIdx.ix3 b r cc)
      = m ((c : Thread nD τ).loc main_arg2)
          (ValueIdx.ix4 (⟨8 * (t.val / 4) + b.val, by have := t.isLt; have : cfg0.N = 8 := N_0; omega⟩ : Fin 16)
            (0 : Fin 1) (⟨128 * (t.val % 4) + r.val, by omega⟩ : Fin 512) cc) := by
  obtain ⟨h0, h1, h2⟩ := idx1 t
  unfold iblk
  rw [View.read_apply]
  show (V m c main_v1 : FVec Ideal S16x512x512 .f32) (((cfg0.win 1).blk t).view.emb (ValueIdx.ix3 b r cc)) = _
  rw [V_v1 m c]
  refine reshape_elt _ _ _ _ _ ?_ ?_ ?_
  · show win0_1.index t 0 * 8 + 1 * b.val = 8 * (t.val / 4) + b.val
    rw [h0]; omega
  · show win0_1.index t 1 * 128 + 1 * r.val = 128 * (t.val % 4) + r.val
    rw [h1]; omega
  · show win0_1.index t 2 * 512 + 1 * cc.val = cc.val
    rw [h2]; omega

/-- Four additions onto a start value, in order, are the start value plus the sum of the four. -/
theorem chain4 (z : EReal) (S : Fin 4 → EReal) : (((z + S 0) + S 1) + S 2) + S 3 = z + ∑ h : Fin 4, S h := by
  rw [Fin.sum_univ_four, add_assoc, add_assoc, add_assoc]
  congr 1
  rw [add_assoc, add_assoc]

end Cert.KernelIdeal.Blk

end
-- ==== Proof.FocalScalar.lean ====
/- The focal loss at ONE pixel. The kernel body and the reference compute, from a heat value x and a
   target value t, the indicator pos = [t = 1], the clipped probability pred = min hi (max lo (σ x)),
   pt = pred·pos + (1 - pred)·(1 - pos), loss = -(1 - pt)^(1/4) · log pt, the weighted loss
   lm = (c₉·loss)·pos + (c₁·(1 - pos))·loss, and the two summands pos_loss = lm·pos and
   neg_loss = (1 - t)²·lm·(1 - pos). The two programs differ in four spellings only: the indicator's
   integer conversion, σ as one operation or as 1 / (1 + e^(-x)), the fourth root as √√ or as a power, the
   square as a product or as a power. This module names both spellings as scalar functions, reads the
   kernel's vector payloads at an index as the kernel's scalar functions, and proves the two spellings equal
   as extended reals. -/
import proofs.«400395_j77730318123291_3_alg».proof.Proof.Gen.KernelIdeal.Skeleton
import Idealize.ShloMosaic.PureOps.Ideal
import Idealize.ShloMosaic.PureOps.Ideal.Laws
import Idealize.ShloMosaic.Lib.Pipeline.Value
import Mathlib.Analysis.SpecialFunctions.Pow.Real

noncomputable section

namespace Cert.Focal

open Idealize.ShloMosaic Cert.KernelIdeal Cert.KernelIdeal.Gen

/-! ## The kernel's scalar functions (its operations in its order) -/

/-- pos = sitofp (extui (t == 1.0)). -/
def posK (t : Ideal .f32) : Ideal .f32 :=
  FloatOps.sitofp .f32 ((FloatOps.cmpf .oeq t (Scalar.ofBits (F := Ideal) .f32 0x3F800000#32)).setWidth 32)

/-- pred = min hi (max lo (σ x)). -/
def predK (x : Ideal .f32) : Ideal .f32 :=
  FloatOps.minimumf (Scalar.ofBits (F := Ideal) .f32 0x3F7FF972#32)
    (FloatOps.maximumf (Scalar.ofBits (F := Ideal) .f32 0x38D1B717#32) (FloatOps.logistic x))

/-- pt = pred·pos + (1 - pred)·(1 - pos). -/
def ptK (x t : Ideal .f32) : Ideal .f32 :=
  FloatOps.addf (FloatOps.mulf (predK x) (posK t))
    (FloatOps.mulf (FloatOps.subf (Scalar.ofBits (F := Ideal) .f32 0x3F800000#32) (predK x))
      (FloatOps.subf (Scalar.ofBits (F := Ideal) .f32 0x3F800000#32) (posK t)))

/-- loss = (0 - √√(1 - pt)) · log pt. -/
def lossK (x t : Ideal .f32) : Ideal .f32 :=
  FloatOps.mulf
    (FloatOps.subf (Scalar.ofBits (F := Ideal) .f32 0x00000000#32)
      (FloatOps.sqrt (FloatOps.sqrt (FloatOps.subf (Scalar.ofBits (F := Ideal) .f32 0x3F800000#32) (ptK x t)))))
    (FloatOps.log (ptK x t))

/-- lm = (c₉·loss)·pos + (c₁·(1 - pos))·loss. -/
def lmK (x t : Ideal .f32) : Ideal .f32 :=
  FloatOps.addf
    (FloatOps.mulf (FloatOps.mulf (Scalar.ofBits (F := Ideal) .f32 0x3F666666#32) (lossK x t)) (posK t))
    (FloatOps.mulf
      (FloatOps.mulf (Scalar.ofBits (F := Ideal) .f32 0x3DCCCCCD#32)
        (FloatOps.subf (Scalar.ofBits (F := Ideal) .f32 0x3F800000#32) (posK t)))
      (lossK x t))

/-- pos_loss = lm·pos. -/
def plK (x t : Ideal .f32) : Ideal .f32 := FloatOps.mulf (lmK x t) (posK t)

/-- neg_loss = (((1 - t)·(1 - t))·lm)·(1 - pos). -/
def nlK (x t : Ideal .f32) : Ideal .f32 :=
  FloatOps.mulf
    (FloatOps.mulf
      (FloatOps.mulf (FloatOps.subf (Scalar.ofBits (F := Ideal) .f32 0x3F800000#32) t)
        (FloatOps.subf (Scalar.ofBits (F := Ideal) .f32 0x3F800000#32) t))
      (lmK x t))
    (FloatOps.subf (Scalar.ofBits (F := Ideal) .f32 0x3F800000#32) (posK t))

/-! ## The reference's scalar functions (its operations in its order) -/

/-- pos = uitofp (t == 1.0). -/
def posR (t : Ideal .f32) : Ideal .f32 :=
  FloatOps.uitofp .f32 (FloatOps.cmpf .oeq t (FloatOps.ofBits (F := Ideal) .f32 0x3F800000#32))

/-- pred = min hi (max lo (1 / (1 + e^(-x)))). -/
def predR (x : Ideal .f32) : Ideal .f32 :=
  FloatOps.minimumf (FloatOps.ofBits (F := Ideal) .f32 0x3F7FF972#32)
    (FloatOps.maximumf (FloatOps.ofBits (F := Ideal) .f32 0x38D1B717#32)
      (FloatOps.hostDivf (FloatOps.ofBits (F := Ideal) .f32 0x3F800000#32)
        (FloatOps.addf (FloatOps.ofBits (F := Ideal) .f32 0x3F800000#32)
          (FloatOps.hostUnary .exp (FloatOps.hostNegf x)))))

/-- pt = pred·pos + (1 - pred)·(1 - pos). -/
def ptR (x t : Ideal .f32) : Ideal .f32 :=
  FloatOps.addf (FloatOps.mulf (predR x) (posR t))
    (FloatOps.mulf (FloatOps.subf (FloatOps.ofBits (F := Ideal) .f32 0x3F800000#32) (predR x))
      (FloatOps.subf (FloatOps.ofBits (F := Ideal) .f32 0x3F800000#32) (posR t)))

/-- loss = (-(1 - pt)^0.25) · log pt. -/
def lossR (x t : Ideal .f32) : Ideal .f32 :=
  FloatOps.mulf
    (FloatOps.hostNegf
      (FloatOps.hostPowf (FloatOps.subf (FloatOps.ofBits (F := Ideal) .f32 0x3F800000#32) (ptR x t))
        (FloatOps.ofBits (F := Ideal) .f32 0x3E800000#32)))
    (FloatOps.hostUnary .log (ptR x t))

/-- lm = (c₉·loss)·pos + (c₁·(1 - pos))·loss. -/
def lmR (x t : Ideal .f32) : Ideal .f32 :=
  FloatOps.addf
    (FloatOps.mulf (FloatOps.mulf (FloatOps.ofBits (F := Ideal) .f32 0x3F666666#32) (lossR x t)) (posR t))
    (FloatOps.mulf
      (FloatOps.mulf (FloatOps.ofBits (F := Ideal) .f32 0x3DCCCCCD#32)
        (FloatOps.subf (FloatOps.ofBits (F := Ideal) .f32 0x3F800000#32) (posR t)))
      (lossR x t))

/-- pos_loss = lm·pos. -/
def plR (x t : Ideal .f32) : Ideal .f32 := FloatOps.mulf (lmR x t) (posR t)

/-- neg_loss = ((1 - t)^2 · lm)·(1 - pos). -/
def nlR (x t : Ideal .f32) : Ideal .f32 :=
  FloatOps.mulf
    (FloatOps.mulf
      (FloatOps.hostPowf (FloatOps.subf (FloatOps.ofBits (F := Ideal) .f32 0x3F800000#32) t)
        (FloatOps.ofBits (F := Ideal) .f32 0x40000000#32))
      (lmR x t))
    (FloatOps.subf (FloatOps.ofBits (F := Ideal) .f32 0x3F800000#32) (posR t))

/-! ## The kernel's vector payloads at an index -/

section Payloads
variable (v3 v5 : Vec Ideal S8x128x512 .f32) (i : S8x128x512.Idx)

/-- The indicator payload at an index. -/
theorem pay_pos_apply : k0_pay5 (F := Ideal) v5 i = posK (v5 i) := by
  unfold k0_pay5 k0_pay4
  simp only [shapeCast_self]
  rfl

/-- The loss payload at an index. -/
theorem pay_loss_apply : k0_pay6 (F := Ideal) v3 v5 i = lossK (v3 i) (v5 i) := by
  have hp : ∀ j, k0_pay5 (F := Ideal) v5 j = posK (v5 j) := pay_pos_apply v5
  unfold k0_pay6
  simp only [shapeCast_self]
  show FloatOps.mulf _ _ = _
  simp only [mulf, addf, subf, sqrt, log, logistic, maximumf, minimumf, broadcast, hp]
  rfl

/-- The positive summand (the value summed into the second scratch) at an index. -/
theorem pay_pl_apply :
    mulf (k0_pay9 (F := Ideal) (k0_pay7 v3 v5) (k0_pay8 v3 v5)) (k0_pay5 v5) i = plK (v3 i) (v5 i) := by
  have hp : ∀ j, k0_pay5 (F := Ideal) v5 j = posK (v5 j) := pay_pos_apply v5
  have hl : ∀ j, k0_pay6 (F := Ideal) v3 v5 j = lossK (v3 j) (v5 j) := pay_loss_apply v3 v5
  unfold k0_pay9 k0_pay7 k0_pay8
  show FloatOps.mulf _ _ = _
  simp only [mulf, addf, subf, broadcast, hp, hl]
  rfl

/-- The negative summand (the value summed into the third scratch) at an index. -/
theorem pay_nl_apply :
    mulf
      (mulf
        (mulf (subf (broadcast S8x128x512 (Scalar.ofBits (F := Ideal) .f32 0x3F800000#32)) (k0_pay4 v5))
          (subf (broadcast S8x128x512 (Scalar.ofBits (F := Ideal) .f32 0x3F800000#32)) (k0_pay4 v5)))
        (k0_pay9 (F := Ideal) (k0_pay7 v3 v5) (k0_pay8 v3 v5)))
      (subf (broadcast S8x128x512 (Scalar.ofBits (F := Ideal) .f32 0x3F800000#32)) (k0_pay5 v5)) i
      = nlK (v3 i) (v5 i) := by
  have hp : ∀ j, k0_pay5 (F := Ideal) v5 j = posK (v5 j) := pay_pos_apply v5
  have hl : ∀ j, k0_pay6 (F := Ideal) v3 v5 j = lossK (v3 j) (v5 j) := pay_loss_apply v3 v5
  unfold k0_pay9 k0_pay7 k0_pay8 k0_pay4
  simp only [shapeCast_self]
  show FloatOps.mulf _ _ = _
  simp only [mulf, addf, subf, broadcast, hp, hl]
  rfl

/-- The positive summand as a vector: the scalar function at every index. -/
theorem pay_pl_eq :
    mulf (k0_pay9 (F := Ideal) (k0_pay7 v3 v5) (k0_pay8 v3 v5)) (k0_pay5 v5)
      = fun j => plK (v3 j) (v5 j) :=
  funext fun j => pay_pl_apply v3 v5 j

/-- The negative summand as a vector: the scalar function at every index. -/
theorem pay_nl_eq :
    mulf
      (mulf
        (mulf (subf (broadcast S8x128x512 (Scalar.ofBits (F := Ideal) .f32 0x3F800000#32)) (k0_pay4 v5))
          (subf (broadcast S8x128x512 (Scalar.ofBits (F := Ideal) .f32 0x3F800000#32)) (k0_pay4 v5)))
        (k0_pay9 (F := Ideal) (k0_pay7 v3 v5) (k0_pay8 v3 v5)))
      (subf (broadcast S8x128x512 (Scalar.ofBits (F := Ideal) .f32 0x3F800000#32)) (k0_pay5 v5))
      = fun j => nlK (v3 j) (v5 j) :=
  funext fun j => pay_nl_apply v3 v5 j

/-- The indicator payload as a vector. -/
theorem pay_pos_eq : k0_pay5 (F := Ideal) v5 = fun j => posK (v5 j) :=
  funext fun j => pay_pos_apply v5 j

end Payloads

/-! ## The two spellings agree -/

/-! ### The constants as extended reals -/

theorem ofBits_zero : Ideal.ofBits .f32 0x00000000#32 = 0 := by
  simp [Ideal.ofBits, Ideal.ieee]

theorem ofBits_one : Ideal.ofBits .f32 0x3F800000#32 = 1 := by
  simp [Ideal.ofBits, Ideal.ieee, -EReal.coe_mul]; norm_num

theorem ofBits_two : Ideal.ofBits .f32 0x40000000#32 = ((2 : ℝ) : EReal) := by
  simp [Ideal.ofBits, Ideal.ieee, -EReal.coe_mul]; norm_num

theorem ofBits_quarter : Ideal.ofBits .f32 0x3E800000#32 = ((1 / 4 : ℝ) : EReal) := by
  simp [Ideal.ofBits, Ideal.ieee, -EReal.coe_mul]; norm_num

/-- The lower clip bound, 13743895 · 2⁻³⁷. -/
theorem ofBits_lo : Ideal.ofBits .f32 0x38D1B717#32 = ((13743895 / 137438953472 : ℝ) : EReal) := by
  simp [Ideal.ofBits, Ideal.ieee, -EReal.coe_mul]; norm_num

/-- The upper clip bound, 16775538 · 2⁻²⁴. -/
theorem ofBits_hi : Ideal.ofBits .f32 0x3F7FF972#32 = ((8387769 / 8388608 : ℝ) : EReal) := by
  simp [Ideal.ofBits, Ideal.ieee, -EReal.coe_mul]; norm_num

/-! ### The indicator -/

/-- The indicator is 1 at t = 1 and 0 elsewhere. -/
theorem posR_eq_ite (t : Ideal .f32) : posR t = if t = 1 then 1 else 0 := by
  show ((((Ideal.cmp .oeq t (Ideal.ofBits .f32 0x3F800000#32)).toNat : ℝ)) : EReal) = _
  rw [ofBits_one]
  unfold Ideal.cmp
  by_cases h : t = 1
  · simp [h]
  · simp [h]

/-- Converting the one-bit comparison through a zero-extension read signed, or reading it unsigned. -/
theorem posK_eq (t : Ideal .f32) : posK t = posR t := by
  show ((((FloatOps.cmpf .oeq t (Ideal.ofBits .f32 0x3F800000#32)).setWidth 32).toInt : ℝ) : EReal)
    = (((FloatOps.cmpf .oeq t (Ideal.ofBits .f32 0x3F800000#32)).toNat : ℝ) : EReal)
  generalize FloatOps.cmpf .oeq t (Ideal.ofBits .f32 0x3F800000#32) = b
  have h0 : ((0#1 : BitVec 1).setWidth 32).toInt = 0 := by decide
  have h1 : ((1#1 : BitVec 1).setWidth 32).toInt = 1 := by decide
  rcases BitVec.eq_zero_or_eq_one b with rfl | rfl
  · rw [h0]; simp
  · rw [h1]; simp

/-! ### The clipped probability -/

/-- σ as one operation is 1 / (1 + e^(-x)) here. -/
theorem predK_eq (x : Ideal .f32) : predK x = predR x := by
  show min (Ideal.ofBits .f32 0x3F7FF972#32) (max (Ideal.ofBits .f32 0x38D1B717#32) (Ideal.logistic x))
    = min (Ideal.ofBits .f32 0x3F7FF972#32) (max (Ideal.ofBits .f32 0x38D1B717#32)
        (Ideal.div (Ideal.ofBits .f32 0x3F800000#32) (Ideal.ofBits .f32 0x3F800000#32 + Ideal.exp (-x))))
  rw [ofBits_one]
  rfl

/-- Whatever is clipped, the clip lands on a real in [0, 1]. -/
theorem clip_real (L : EReal) :
    ∃ p : ℝ, 0 ≤ p ∧ p ≤ 1 ∧
      min (Ideal.ofBits .f32 0x3F7FF972#32) (max (Ideal.ofBits .f32 0x38D1B717#32) L) = (p : EReal) := by
  rw [ofBits_lo, ofBits_hi]
  have h1 : ((13743895 / 137438953472 : ℝ) : EReal)
      ≤ min ((8387769 / 8388608 : ℝ) : EReal) (max ((13743895 / 137438953472 : ℝ) : EReal) L) :=
    le_min (by exact_mod_cast (by norm_num : (13743895 / 137438953472 : ℝ) ≤ 8387769 / 8388608)) (le_max_left _ _)
  have h2 : min ((8387769 / 8388608 : ℝ) : EReal) (max ((13743895 / 137438953472 : ℝ) : EReal) L)
      ≤ ((8387769 / 8388608 : ℝ) : EReal) := min_le_left _ _
  generalize min ((8387769 / 8388608 : ℝ) : EReal) (max ((13743895 / 137438953472 : ℝ) : EReal) L) = m at h1 h2
  induction m using EReal.rec with
  | bot => exact absurd h1 (by simp)
  | top => exact absurd h2 (by simp)
  | coe p =>
    have h1' : (13743895 / 137438953472 : ℝ) ≤ p := by exact_mod_cast h1
    have h2' : p ≤ (8387769 / 8388608 : ℝ) := by exact_mod_cast h2
    exact ⟨p, by linarith, by linarith, rfl⟩

theorem predR_real (x : Ideal .f32) : ∃ p : ℝ, 0 ≤ p ∧ p ≤ 1 ∧ predR x = (p : EReal) :=
  clip_real _

/-! ### pt -/

theorem ptK_eq (x t : Ideal .f32) : ptK x t = ptR x t := by
  unfold ptK ptR
  rw [predK_eq, posK_eq]

/-- pt is pred where t = 1 and 1 - pred elsewhere: a real in [0, 1]. -/
theorem ptR_real (x t : Ideal .f32) : ∃ q : ℝ, 0 ≤ q ∧ q ≤ 1 ∧ ptR x t = (q : EReal) := by
  obtain ⟨p, hp0, hp1, hp⟩ := predR_real x
  have hpt : ptR x t
      = (p : EReal) * (if t = 1 then 1 else 0) + (1 - (p : EReal)) * (1 - (if t = 1 then 1 else 0)) := by
    unfold ptR
    rw [hp, posR_eq_ite]
    show (p : EReal) * (if t = 1 then 1 else 0)
        + (Ideal.ofBits .f32 0x3F800000#32 - (p : EReal))
          * (Ideal.ofBits .f32 0x3F800000#32 - (if t = 1 then 1 else 0))
        = _
    rw [ofBits_one]
  rw [hpt]
  by_cases h : t = 1
  · refine ⟨p, hp0, hp1, ?_⟩
    have h11 : (1 : EReal) - 1 = 0 := by
      rw [← EReal.coe_one, ← EReal.coe_sub, sub_self, EReal.coe_zero]
    rw [if_pos h, h11, mul_zero, add_zero, mul_one]
  · refine ⟨1 - p, by linarith, by linarith, ?_⟩
    rw [if_neg h, mul_zero, zero_add, sub_zero, mul_one, EReal.coe_sub, EReal.coe_one]

/-! ### The loss: √√u = u^(1/4) on u ≥ 0, and 0 - a = -a -/

theorem root_core (q : ℝ) (h1 : q ≤ 1) :
    Ideal.ofBits .f32 0x00000000#32
        - Ideal.sqrt (Ideal.sqrt (Ideal.ofBits .f32 0x3F800000#32 - (q : EReal)))
      = -(Ideal.pow (Ideal.ofBits .f32 0x3F800000#32 - (q : EReal)) (Ideal.ofBits .f32 0x3E800000#32)) := by
  have hu : (0 : ℝ) ≤ 1 - q := sub_nonneg.mpr h1
  have hsub : (1 : EReal) - (q : EReal) = ((1 - q : ℝ) : EReal) := by
    rw [← EReal.coe_one, ← EReal.coe_sub]
  rw [ofBits_zero, ofBits_one, ofBits_quarter, hsub, Ideal.sqrt_coe, if_neg (not_lt.mpr hu), Ideal.sqrt_coe,
    if_neg (not_lt.mpr (Real.sqrt_nonneg _)), Ideal.pow_coe_coe, sub_eq_add_neg, zero_add]
  congr 2
  rw [Real.rpow_eq_pow, Real.sqrt_eq_rpow, Real.sqrt_eq_rpow, ← Real.rpow_mul hu]
  norm_num

theorem lossK_eq (x t : Ideal .f32) : lossK x t = lossR x t := by
  unfold lossK lossR
  rw [ptK_eq]
  obtain ⟨q, _, hq1, hq⟩ := ptR_real x t
  rw [hq]
  show (Ideal.ofBits .f32 0x00000000#32
        - Ideal.sqrt (Ideal.sqrt (Ideal.ofBits .f32 0x3F800000#32 - (q : EReal)))) * Ideal.log (q : EReal)
      = (-(Ideal.pow (Ideal.ofBits .f32 0x3F800000#32 - (q : EReal)) (Ideal.ofBits .f32 0x3E800000#32)))
        * Ideal.log (q : EReal)
  rw [root_core q hq1]

theorem lmK_eq (x t : Ideal .f32) : lmK x t = lmR x t := by
  unfold lmK lmR
  rw [lossK_eq, posK_eq]

/-! ### The two summands -/

theorem plK_eq (x t : Ideal .f32) : plK x t = plR x t := by
  unfold plK plR
  rw [lmK_eq, posK_eq]

/-- (1 - t)·(1 - t) = (1 - t)² needs t real: at t = +∞ the product is +∞ and the power is the junk -∞. -/
theorem nlK_eq (x t : Ideal .f32) (ht : ∃ r : ℝ, t = (r : EReal)) : nlK x t = nlR x t := by
  obtain ⟨r, rfl⟩ := ht
  have hsub : (1 : EReal) - (r : EReal) = ((1 - r : ℝ) : EReal) := by
    rw [← EReal.coe_one, ← EReal.coe_sub]
  have hsq : FloatOps.mulf (FloatOps.subf (Scalar.ofBits (F := Ideal) .f32 0x3F800000#32) (r : EReal))
        (FloatOps.subf (Scalar.ofBits (F := Ideal) .f32 0x3F800000#32) (r : EReal))
      = FloatOps.hostPowf (FloatOps.subf (FloatOps.ofBits (F := Ideal) .f32 0x3F800000#32) (r : EReal))
        (FloatOps.ofBits (F := Ideal) .f32 0x40000000#32) := by
    show (Ideal.ofBits .f32 0x3F800000#32 - (r : EReal)) * (Ideal.ofBits .f32 0x3F800000#32 - (r : EReal))
      = Ideal.pow (Ideal.ofBits .f32 0x3F800000#32 - (r : EReal)) (Ideal.ofBits .f32 0x40000000#32)
    rw [ofBits_one, ofBits_two, hsub, ← EReal.coe_mul, Ideal.pow_coe_coe]
    congr 1
    rw [Real.rpow_eq_pow, Real.rpow_two]
    ring
  unfold nlK nlR
  rw [hsq, lmK_eq, posK_eq]

end Cert.Focal

end
-- ==== Proof.SumLaws.lean ====
/-
  Two multi-axis sums read as plain double sums over the reduced coordinates, and a sum over 512 rows
  regrouped as four runs of 128 rows.

  A reduction over several axes sums the source over the indices that agree with the result index on the
  kept axis. For the shapes here the kept axis is the leading one, so those indices are exactly the result's
  coordinate followed by every choice of the remaining coordinates: the sum is a double sum over them.
-/
import Idealize.ShloMosaic.PureOps.Ideal
import Idealize.ShloMosaic.PureOps.Ideal.Laws
import Idealize.ShloMosaic.Lib.ValueIdx
import Mathlib.Algebra.BigOperators.Group.Finset.Basic
import Mathlib.Algebra.BigOperators.Group.Finset.Sigma

noncomputable section

open scoped BigOperators

namespace Cert.SumLaws

open Idealize.ShloMosaic

abbrev S16x1x512x512 : Shape := ⟨4, ![16, 1, 512, 512]⟩
abbrev S16 : Shape := ⟨1, ![16]⟩
abbrev S8x128x512 : Shape := ⟨3, ![8, 128, 512]⟩
abbrev S8 : Shape := ⟨1, ![8]⟩

/-- The host's sum of a [16,1,512,512] array over its last three axes, at image `j`: the initial value plus the
    double sum over rows and columns of that image's one channel. -/
theorem hostReduceAdd_img (h' : S16x1x512x512.ReducesTo [1, 2, 3] S16) (x : S16x1x512x512.Idx → EReal) (init : EReal)
    (j : S16.Idx) :
    Ideal.hostReduceAdd h' x init j
      = init + ∑ r : Fin 512, ∑ c : Fin 512, x (ValueIdx.ix4 (j 0) (0 : Fin 1) r c) := by
  unfold Ideal.hostReduceAdd
  refine congrArg (init + ·) ?_
  -- an index that drops to `j` is `j`'s coordinate followed by its own row and column
  have key : ∀ i : S16x1x512x512.Idx, h'.drop i = j →
      ValueIdx.ix4 (n0 := 16) (j 0) (0 : Fin 1) (i 2 : Fin 512) (i 3 : Fin 512) = i := by
    intro i hi
    have h0 : (j 0).val = (i 0).val := by
      rw [← hi]; exact h'.drop_apply_val_of_eq i 0 0
    have h1 : (i 1).val < 1 := (i 1).isLt
    funext a
    match a with
    | ⟨0, _⟩ => exact Fin.ext h0
    | ⟨1, _⟩ => exact Fin.ext (by show 0 = (i 1).val; omega)
    | ⟨2, _⟩ => rfl
    | ⟨3, _⟩ => rfl
  refine (Finset.sum_nbij' (fun i => ((i 2 : Fin 512), (i 3 : Fin 512)))
    (fun p : Fin 512 × Fin 512 => ValueIdx.ix4 (n0 := 16) (j 0) (0 : Fin 1) p.1 p.2) ?_ ?_ ?_ ?_ ?_).trans
    (Fintype.sum_prod_type fun p : Fin 512 × Fin 512 => x (ValueIdx.ix4 (j 0) (0 : Fin 1) p.1 p.2))
  · intro i _; exact Finset.mem_univ _
  · intro p _
    refine Finset.mem_filter.2 ⟨Finset.mem_univ _, ?_⟩
    funext b
    obtain rfl : b = 0 := Subsingleton.elim _ _
    exact Fin.ext (h'.drop_apply_val_of_eq _ 0 0)
  · intro i hi; exact key i (Finset.mem_filter.1 hi).2
  · intro p _; rfl
  · intro i hi; exact congrArg x (key i (Finset.mem_filter.1 hi).2).symm

/-- A block's sum over its rows and columns, at image `j` of the block: the double sum over rows and columns. -/
theorem reduceAdd_blk (h : S8x128x512.Reduces [1, 2] S8) (x : S8x128x512.Idx → EReal) (j : S8.Idx) :
    Ideal.reduceAdd h x j = ∑ r : Fin 128, ∑ c : Fin 512, x (ValueIdx.ix3 (j 0) r c) := by
  unfold Ideal.reduceAdd
  -- an index that drops to `j` is `j`'s coordinate followed by its own row and column
  have key : ∀ i : S8x128x512.Idx, h.drop i = j →
      ValueIdx.ix3 (n0 := 8) (j 0) (i 1 : Fin 128) (i 2 : Fin 512) = i := by
    intro i hi
    have h0 : (j 0).val = (i 0).val := by
      rw [← hi]; exact h.drop_apply_val_of_eq i 0 0
    funext a
    match a with
    | ⟨0, _⟩ => exact Fin.ext h0
    | ⟨1, _⟩ => rfl
    | ⟨2, _⟩ => rfl
  refine (Finset.sum_nbij' (fun i => ((i 1 : Fin 128), (i 2 : Fin 512)))
    (fun p : Fin 128 × Fin 512 => ValueIdx.ix3 (n0 := 8) (j 0) p.1 p.2) ?_ ?_ ?_ ?_ ?_).trans
    (Fintype.sum_prod_type fun p : Fin 128 × Fin 512 => x (ValueIdx.ix3 (j 0) p.1 p.2))
  · intro i _; exact Finset.mem_univ _
  · intro p _
    refine Finset.mem_filter.2 ⟨Finset.mem_univ _, ?_⟩
    funext b
    obtain rfl : b = 0 := Subsingleton.elim _ _
    exact Fin.ext (h.drop_apply_val_of_eq _ 0 0)
  · intro i hi; exact key i (Finset.mem_filter.1 hi).2
  · intro p _; rfl
  · intro i hi; exact congrArg x (key i (Finset.mem_filter.1 hi).2).symm

/-- The same for the float vector reduction over axes 1 and 2 of an [8,128,512] vector. -/
theorem multiReduction_add_blk (src : FVec Ideal S8x128x512 .f32) (acc : BitVec 32) (h : S8x128x512.Reduces [1, 2] S8)
    (hφ : FKind.Formats .f32) (hacc : acc = FKind.add.neutral .f32 hφ) (j : S8.Idx) :
    multiReduction .add [1, 2] S8 src acc h hφ hacc j = ∑ r : Fin 128, ∑ c : Fin 512, src (ValueIdx.ix3 (j 0) r c) :=
  reduceAdd_blk h src j

/-- The same with the accumulator's pattern and its evidence spelt as a printed payload spells them. -/
theorem multiReduction_add_blk' (src : FVec Ideal S8x128x512 .f32) (h : S8x128x512.Reduces [1, 2] S8)
    (hφ : FKind.Formats .f32) (hacc : (0x00000000#32 : BitVec 32) = 0x00000000#32) (j : S8.Idx) :
    multiReduction .add [1, 2] S8 src 0x00000000#32 h hφ hacc j
      = ∑ r : Fin 128, ∑ c : Fin 512, src (ValueIdx.ix3 (j 0) r c) :=
  reduceAdd_blk h src j

/-! The same three readings at a result index given by its coordinate. -/

theorem hostReduceAdd_img_ix (h' : S16x1x512x512.ReducesTo [1, 2, 3] S16) (x : S16x1x512x512.Idx → EReal) (init : EReal)
    (a : Fin 16) :
    Ideal.hostReduceAdd h' x init (ValueIdx.ix1 a)
      = init + ∑ r : Fin 512, ∑ c : Fin 512, x (ValueIdx.ix4 a (0 : Fin 1) r c) :=
  hostReduceAdd_img h' x init (ValueIdx.ix1 a)

theorem reduceAdd_blk_ix (h : S8x128x512.Reduces [1, 2] S8) (x : S8x128x512.Idx → EReal) (a : Fin 8) :
    Ideal.reduceAdd h x (ValueIdx.ix1 a) = ∑ r : Fin 128, ∑ c : Fin 512, x (ValueIdx.ix3 a r c) :=
  reduceAdd_blk h x (ValueIdx.ix1 a)

theorem multiReduction_add_blk_ix' (src : FVec Ideal S8x128x512 .f32) (h : S8x128x512.Reduces [1, 2] S8)
    (hφ : FKind.Formats .f32) (hacc : (0x00000000#32 : BitVec 32) = 0x00000000#32) (a : Fin 8) :
    multiReduction .add [1, 2] S8 src 0x00000000#32 h hφ hacc (ValueIdx.ix1 a)
      = ∑ r : Fin 128, ∑ c : Fin 512, src (ValueIdx.ix3 a r c) :=
  reduceAdd_blk h src (ValueIdx.ix1 a)

/-- 512 rows are four runs of 128 rows. -/
theorem sum_rows_split (g : Fin 512 → EReal) :
    ∑ r : Fin 512, g r = ∑ h : Fin 4, ∑ r : Fin 128, g ⟨128 * h.val + r.val, by omega⟩ := by
  -- a row number is 128 times its run plus its place in the run
  let e : Fin 4 × Fin 128 ≃ Fin 512 :=
    { toFun := fun p => ⟨128 * p.1.val + p.2.val, by omega⟩
      invFun := fun k => (⟨k.val / 128, by omega⟩, ⟨k.val % 128, by omega⟩)
      left_inv := fun p => Prod.ext (Fin.ext (by show (128 * p.1.val + p.2.val) / 128 = p.1.val; omega))
        (Fin.ext (by show (128 * p.1.val + p.2.val) % 128 = p.2.val; omega))
      right_inv := fun k => Fin.ext (by show 128 * (k.val / 128) + k.val % 128 = k.val; omega) }
  rw [← Equiv.sum_comp e g, Fintype.sum_prod_type]
  rfl

end Cert.SumLaws

end
-- ==== Proof.KPayload.lean ====
/- The kernel's accumulator payloads read at an index. Each of the three accumulate-stores writes the
   accumulator's loaded contents plus a sum of a block over its rows and columns: the sum lands in an [8]
   vector, is viewed as [8,1,1] and then as [8,1] (both views keep the row-major position), and is added to the
   contents. At the index (b, 0) the written value is the contents there plus the double sum, over the 128 rows
   and 512 columns of image b of the block, of the per-pixel summand. -/
import proofs.«400395_j77730318123291_3_alg».proof.Proof.FocalScalar
import proofs.«400395_j77730318123291_3_alg».proof.Proof.SumLaws
import proofs.«400395_j77730318123291_3_alg».proof.Proof.Gen.KernelIdeal.Skeleton
import Idealize.ShloMosaic.Lib.Pipeline.Value
import Idealize.ShloMosaic.Lib.ValueIdx
import Idealize.ShloMosaic.Lib.ValueLayout

noncomputable section

open scoped BigOperators

namespace Cert.KPay

open Idealize.ShloMosaic Cert.KernelIdeal Cert.KernelIdeal.Gen Cert.Focal

/-- Every index of an [8,1] vector is (b, 0). -/
theorem S8x1_idx (i : S8x1.Idx) : ∃ b : Fin 8, i = ValueIdx.ix2 b (0 : Fin 1) :=
  ⟨i 0, (ValueIdx.eq_ix2 i).trans (congrArg (ValueIdx.ix2 (n0 := 8) (n1 := 1) (i 0)) (Subsingleton.elim _ _))⟩

/-- An [8] vector viewed as [8,1,1] and then as [8,1], read at (b, 0), is the vector at b. -/
theorem cast_8_8x1 (w : FVec Ideal S8 .f32) (h1 : S8.ShapeCasts S8x1x1) (h2 : S8x1x1.ShapeCasts S8x1) (b : Fin 8) :
    shapeCast S8x1 (shapeCast S8x1x1 w h1) h2 (ValueIdx.ix2 b (0 : Fin 1)) = w (ValueIdx.ix1 b) := by
  refine (shapeCast_apply _ h2 _ (ValueIdx.ix3 b (0 : Fin 1) (0 : Fin 1)) ?_).trans ?_
  · rw [Shape.rowMajor_val_three, Shape.rowMajor_val_two]
    show (b.val * 1 + 0) * 1 + 0 = b.val * 1 + 0
    omega
  · refine shapeCast_apply _ h1 _ (ValueIdx.ix1 b) ?_
    rw [Shape.rowMajor_val_one, Shape.rowMajor_val_three]
    show b.val = (b.val * 1 + 0) * 1 + 0
    omega

/-- The count accumulator: its contents plus the number of pixels of image b of the block whose target is 1. -/
theorem acc_num (v5 : Vec Ideal S8x128x512 .f32) (s : Vec Ideal S8x1 .f32) (b : Fin 8) :
    k0_pay10 (F := Ideal) (k0_pay5 v5) s (ValueIdx.ix2 b (0 : Fin 1))
      = s (ValueIdx.ix2 b 0) + ∑ r : Fin 128, ∑ c : Fin 512, posK (v5 (ValueIdx.ix3 b r c)) := by
  unfold k0_pay10
  simp only [shapeCast_self]
  show s (ValueIdx.ix2 b 0) + _ = _
  refine congrArg (s (ValueIdx.ix2 b 0) + ·) ?_
  refine (cast_8_8x1 _ _ _ b).trans ?_
  rw [pay_pos_eq]
  exact Cert.SumLaws.multiReduction_add_blk_ix' _ _ _ _ b

/-- The positive-loss accumulator. -/
theorem acc_pos (v3 v5 : Vec Ideal S8x128x512 .f32) (s : Vec Ideal S8x1 .f32) (b : Fin 8) :
    k0_pay11 (F := Ideal) (k0_pay5 v5) (k0_pay7 v3 v5) (k0_pay8 v3 v5) s (ValueIdx.ix2 b (0 : Fin 1))
      = s (ValueIdx.ix2 b 0)
        + ∑ r : Fin 128, ∑ c : Fin 512, plK (v3 (ValueIdx.ix3 b r c)) (v5 (ValueIdx.ix3 b r c)) := by
  unfold k0_pay11
  simp only [shapeCast_self]
  show s (ValueIdx.ix2 b 0) + _ = _
  refine congrArg (s (ValueIdx.ix2 b 0) + ·) ?_
  refine (cast_8_8x1 _ _ _ b).trans ?_
  rw [pay_pl_eq]
  exact Cert.SumLaws.multiReduction_add_blk_ix' _ _ _ _ b

/-- The negative-loss accumulator. -/
theorem acc_neg (v3 v5 : Vec Ideal S8x128x512 .f32) (s : Vec Ideal S8x1 .f32) (b : Fin 8) :
    k0_pay12 (F := Ideal) (k0_pay4 v5) (k0_pay5 v5) (k0_pay7 v3 v5) (k0_pay8 v3 v5) s (ValueIdx.ix2 b (0 : Fin 1))
      = s (ValueIdx.ix2 b 0)
        + ∑ r : Fin 128, ∑ c : Fin 512, nlK (v3 (ValueIdx.ix3 b r c)) (v5 (ValueIdx.ix3 b r c)) := by
  unfold k0_pay12
  simp only [shapeCast_self]
  show s (ValueIdx.ix2 b 0) + _ = _
  refine congrArg (s (ValueIdx.ix2 b 0) + ·) ?_
  refine (cast_8_8x1 _ _ _ b).trans ?_
  rw [pay_nl_eq]
  exact Cert.SumLaws.multiReduction_add_blk_ix' _ _ _ _ b

/-- The three resets write zero. -/
theorem reset_zero (i : S8x1.Idx) :
    k0_pay1 (F := Ideal) i = 0 ∧ k0_pay2 (F := Ideal) i = 0 ∧ k0_pay3 (F := Ideal) i = 0 := by
  refine ⟨?_, ?_, ?_⟩
  · unfold k0_pay1; simp only [shapeCast_self]; exact ofBits_zero
  · unfold k0_pay2; simp only [shapeCast_self]; exact ofBits_zero
  · unfold k0_pay3; simp only [shapeCast_self]; exact ofBits_zero

/-- The output block is first filled with zero. -/
theorem fill_zero (i : S8x128.Idx) : k0_pay13 (F := Ideal) i = 0 := by
  unfold k0_pay13; exact ofBits_zero

end Cert.KPay

end
-- ==== Proof.KI.OutValue.lean ====
/-
  The result block of the focal-loss region as a function of the arguments: after the run, lane 0, 1, 2 of row b' of the
  [16,128] result array hold, for image b', the count of positive pixels, the summed positive loss and the summed
  negative loss over all 512 × 512 pixels — each the zero the first row-step resets to plus the four row-steps' block
  sums, in order, which over the extended reals is the plain double sum over the image.
-/
import proofs.«400395_j77730318123291_3_alg».proof.Proof.KI.Frame
import proofs.«400395_j77730318123291_3_alg».proof.Proof.KI.Pieces
import proofs.«400395_j77730318123291_3_alg».proof.Proof.KI.OutPiece
import proofs.«400395_j77730318123291_3_alg».proof.Proof.KI.Blocks
import proofs.«400395_j77730318123291_3_alg».proof.Proof.KPayload
import proofs.«400395_j77730318123291_3_alg».proof.Proof.SumLaws
import Idealize.ShloMosaic.Lib.Pipeline.Value

set_option maxRecDepth 16384

noncomputable section

namespace Cert.KernelIdeal.Ov

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx
open Cert.Focal

variable (m : (ℓ : Loc nD τ sig) → Buf (Elt Ideal) ℓ)

/-! ## One block's per-image sums -/

/-- Row `b` of the block at point `t`: the count of positive pixels, -/
def blkNum (c : Dev nD) (t : Fin cfg0.N) (b : Fin 8) : EReal :=
  ∑ r : Fin 128, ∑ cc : Fin 512, posK ((iblk m c 1 t : Vec Ideal S8x128x512 .f32) (ix3 b r cc))
/-- the summed positive loss, -/
def blkPos (c : Dev nD) (t : Fin cfg0.N) (b : Fin 8) : EReal :=
  ∑ r : Fin 128, ∑ cc : Fin 512, plK ((iblk m c 0 t : Vec Ideal S8x128x512 .f32) (ix3 b r cc)) ((iblk m c 1 t : Vec Ideal S8x128x512 .f32) (ix3 b r cc))
/-- and the summed negative loss. -/
def blkNeg (c : Dev nD) (t : Fin cfg0.N) (b : Fin 8) : EReal :=
  ∑ r : Fin 128, ∑ cc : Fin 512, nlK ((iblk m c 0 t : Vec Ideal S8x128x512 .f32) (ix3 b r cc)) ((iblk m c 1 t : Vec Ideal S8x128x512 .f32) (ix3 b r cc))

/-! ## The accumulators point by point -/

/-- After a first row-step each accumulator holds zero plus the block's sum. -/
theorem acc_first (c : Dev nD) (t : Fin cfg0.N) (h0 : t.val % 4 = 0) (b : Fin 8) :
    (outsAt0 m c t.val t.isLt).2.1 (ix2 b (0 : Fin 1)) = 0 + blkNum m c t b
    ∧ (outsAt0 m c t.val t.isLt).2.2.1 (ix2 b (0 : Fin 1)) = 0 + blkPos m c t b
    ∧ (outsAt0 m c t.val t.isLt).2.2.2 (ix2 b (0 : Fin 1)) = 0 + blkNeg m c t b := by
  rw [outsAt0_A m c t h0 (by omega)]
  dsimp only
  rw [Pc.sA0, Pc.sA1, Pc.sA2]
  refine ⟨?_, ?_, ?_⟩
  · rw [KPay.acc_num, (KPay.reset_zero _).1]; rfl
  · rw [KPay.acc_pos, (KPay.reset_zero _).2.1]; rfl
  · rw [KPay.acc_neg, (KPay.reset_zero _).2.2]; rfl

/-- After a middle row-step each accumulator holds what the point before left plus the block's sum. -/
theorem acc_mid (c : Dev nD) (n : ℕ) (hn : n + 1 < cfg0.N) (h0 : ¬(n + 1) % 4 = 0) (h1 : ¬(n + 1) % 4 = 3) (b : Fin 8) :
    (outsAt0 m c (n + 1) hn).2.1 (ix2 b (0 : Fin 1)) = (outsAt0 m c n (Nat.lt_of_succ_lt hn)).2.1 (ix2 b 0) + blkNum m c ⟨n + 1, hn⟩ b
    ∧ (outsAt0 m c (n + 1) hn).2.2.1 (ix2 b (0 : Fin 1)) = (outsAt0 m c n (Nat.lt_of_succ_lt hn)).2.2.1 (ix2 b 0) + blkPos m c ⟨n + 1, hn⟩ b
    ∧ (outsAt0 m c (n + 1) hn).2.2.2 (ix2 b (0 : Fin 1)) = (outsAt0 m c n (Nat.lt_of_succ_lt hn)).2.2.2 (ix2 b 0) + blkNeg m c ⟨n + 1, hn⟩ b := by
  have e := outsAt0_B m c ⟨n + 1, hn⟩ h0 h1
  dsimp only at e
  rw [e]
  dsimp only
  rw [Pc.sB0, Pc.sB1, Pc.sB2]
  exact ⟨KPay.acc_num _ _ b, KPay.acc_pos _ _ _ b, KPay.acc_neg _ _ _ b⟩

/-- After a last row-step lanes 0, 1, 2 of the result block hold what the point before left in the accumulators plus the
    block's sums. -/
theorem out_last (c : Dev nD) (n : ℕ) (hn : n + 1 < cfg0.N) (h0 : ¬(n + 1) % 4 = 0) (h1 : (n + 1) % 4 = 3) (b : Fin 8) :
    (outsAt0 m c (n + 1) hn).1 (ix2 b (0 : Fin 128)) = (outsAt0 m c n (Nat.lt_of_succ_lt hn)).2.1 (ix2 b 0) + blkNum m c ⟨n + 1, hn⟩ b
    ∧ (outsAt0 m c (n + 1) hn).1 (ix2 b (1 : Fin 128)) = (outsAt0 m c n (Nat.lt_of_succ_lt hn)).2.2.1 (ix2 b 0) + blkPos m c ⟨n + 1, hn⟩ b
    ∧ (outsAt0 m c (n + 1) hn).1 (ix2 b (2 : Fin 128)) = (outsAt0 m c n (Nat.lt_of_succ_lt hn)).2.2.2 (ix2 b 0) + blkNeg m c ⟨n + 1, hn⟩ b := by
  have e := outsAt0_C m c ⟨n + 1, hn⟩ h0 h1
  dsimp only at e
  rw [e]
  dsimp only
  rw [Po.oC_lane0, Po.oC_lane1, Po.oC_lane2]
  exact ⟨KPay.acc_num _ _ b, KPay.acc_pos _ _ _ b, KPay.acc_neg _ _ _ b⟩

/-! ## The result array -/

/-- What a flushing point writes back is what its last row-step left in the result block's staging buffer. -/
theorem flushed2 (c : Dev nD) (t : Fin cfg0.N) :
    (dats m 0 c).flushed 2 t = (cfg0.win 2).cut (grid0.coords t) ((outsAt0 m c t.val t.isLt).1) := by
  show (cfg0.win 2).cut (grid0.coords t) ((dats m 0 c).after 2 t) = _
  rw [after0_2]

/-- The two flushing points (the last row-steps of the two image groups) write different blocks. -/
theorem idx_inj2 : ∀ t t' : Fin cfg0.N, (cfg0.win 2).flush t = true → (cfg0.win 2).flush t' = true → win0_2.index t = win0_2.index t' → t = t' :=
  (by decide +kernel : ∀ t t' : Fin grid0.N, win0_2.flush t = true → win0_2.flush t' = true → win0_2.index t = win0_2.index t' → t = t')
theorem disjoint2 : ∀ t t' : Fin cfg0.N, (cfg0.win 2).flush t = true → (cfg0.win 2).flush t' = true → t ≠ t' →
    Disjoint ((cfg0.win 2).blk t).view.set ((cfg0.win 2).blk t').view.set :=
  fun t t' hf hf' hne => (cfg0.win 2).disjoint_blk fun h => hne (idx_inj2 t t' hf hf' h)

/-- The result window's block index over the grid: (t / 4, 0). -/
theorem idx2 : ∀ t : Fin cfg0.N, win0_2.index t (0 : Fin 2) = t.val / 4 ∧ win0_2.index t (1 : Fin 2) = 0 :=
  (by decide +kernel : ∀ t : Fin grid0.N, win0_2.index t (0 : Fin 2) = t.val / 4 ∧ win0_2.index t (1 : Fin 2) = 0)

/-- Under the block of image group g's last row-step, the result array holds what that point's run left in the result
    block's staging buffer: row 8g + b of the array is row b of the block. -/
theorem arr_at (c : Dev nD) (g : ℕ) (hg : g < 2) (b : Fin 8) (l : Fin 128) (ht : 4 * g + 3 < cfg0.N)
    (hb : 8 * g + b.val < 16) :
    ((dats m 0 c).arrAt 2 cfg0.N : FVec Ideal S16x128 .f32) (ix2 (⟨8 * g + b.val, hb⟩ : Fin 16) l)
      = (outsAt0 m c (4 * g + 3) ht).1 (ix2 b l) := by
  obtain ⟨i0, i1⟩ := idx2 (⟨4 * g + 3, ht⟩ : Fin cfg0.N)
  have hemb : ((cfg0.win 2).blk (⟨4 * g + 3, ht⟩ : Fin cfg0.N)).view.emb (ix2 b l)
      = (ix2 (⟨8 * g + b.val, hb⟩ : Fin 16) l : S16x128.Idx) := by
    funext a
    apply Fin.ext
    match a with
    | ⟨0, _⟩ =>
      show win0_2.index (⟨4 * g + 3, ht⟩ : Fin cfg0.N) 0 * 8 + 1 * b.val = 8 * g + b.val
      rw [i0]; show (4 * g + 3) / 4 * 8 + 1 * b.val = 8 * g + b.val; omega
    | ⟨1, _⟩ =>
      show win0_2.index (⟨4 * g + 3, ht⟩ : Fin cfg0.N) 1 * 128 + 1 * l.val = l.val
      rw [i1]; omega
  rw [← hemb]
  refine ((dats m 0 c).arrAt_emb_eq_flushed 2 disjoint2 (⟨4 * g + 3, ht⟩ : Fin cfg0.N)
    ((flush0_2 _).mpr (by show (4 * g + 3) % 4 = 3; omega)) (ix2 b l)).trans ?_
  show (dats m 0 c).flushed 2 (⟨4 * g + 3, ht⟩ : Fin cfg0.N) (ix2 b l) = _
  rw [flushed2]
  rfl

/-! ## The four row-steps of an image group, in order -/

/-- After image group g's last row-step, lanes 0, 1, 2 of row b of the result block: zero plus the four blocks' sums,
    added in the order of the row-steps. -/
theorem acc_chain (c : Dev nD) (g : ℕ) (hg : g < 2) (b : Fin 8) (h0 : 4 * g < cfg0.N) (h1 : 4 * g + 1 < cfg0.N)
    (h2 : 4 * g + 2 < cfg0.N) (h3 : 4 * g + 3 < cfg0.N) :
    (outsAt0 m c (4 * g + 3) h3).1 (ix2 b (0 : Fin 128))
        = (((0 + blkNum m c ⟨4 * g, h0⟩ b) + blkNum m c ⟨4 * g + 1, h1⟩ b) + blkNum m c ⟨4 * g + 2, h2⟩ b)
          + blkNum m c ⟨4 * g + 3, h3⟩ b
    ∧ (outsAt0 m c (4 * g + 3) h3).1 (ix2 b (1 : Fin 128))
        = (((0 + blkPos m c ⟨4 * g, h0⟩ b) + blkPos m c ⟨4 * g + 1, h1⟩ b) + blkPos m c ⟨4 * g + 2, h2⟩ b)
          + blkPos m c ⟨4 * g + 3, h3⟩ b
    ∧ (outsAt0 m c (4 * g + 3) h3).1 (ix2 b (2 : Fin 128))
        = (((0 + blkNeg m c ⟨4 * g, h0⟩ b) + blkNeg m c ⟨4 * g + 1, h1⟩ b) + blkNeg m c ⟨4 * g + 2, h2⟩ b)
          + blkNeg m c ⟨4 * g + 3, h3⟩ b := by
  have e3 := out_last m c (4 * g + 2) h3 (by omega) (by omega) b
  have e2 := acc_mid m c (4 * g + 1) h2 (by omega) (by omega) b
  have e1 := acc_mid m c (4 * g) h1 (by omega) (by omega) b
  have e0 := acc_first m c ⟨4 * g, h0⟩ (by show (4 * g) % 4 = 0; omega) b
  refine ⟨?_, ?_, ?_⟩
  · exact e3.1.trans (congrArg (· + _) (e2.1.trans (congrArg (· + _) (e1.1.trans (congrArg (· + _) e0.1)))))
  · exact e3.2.1.trans (congrArg (· + _) (e2.2.1.trans (congrArg (· + _) (e1.2.1.trans (congrArg (· + _) e0.2.1)))))
  · exact e3.2.2.trans (congrArg (· + _) (e2.2.2.trans (congrArg (· + _) (e1.2.2.trans (congrArg (· + _) e0.2.2)))))

/-! ## The four blocks' sums are the image's sum -/

/-- One block's per-image sum of a per-pixel quantity φ of the heat and the target. -/
def blkGen (φ : EReal → EReal → EReal) (c : Dev nD) (t : Fin cfg0.N) (b : Fin 8) : EReal :=
  ∑ r : Fin 128, ∑ cc : Fin 512,
    φ ((iblk m c 0 t : Vec Ideal S8x128x512 .f32) (ix3 b r cc)) ((iblk m c 1 t : Vec Ideal S8x128x512 .f32) (ix3 b r cc))

/-- The block of image group g at row-step h, row b, is rows 128h … 128h + 127 of image 8g + b. -/
theorem blkGen_pt (φ : EReal → EReal → EReal) (c : Dev nD) (g : ℕ) (hg : g < 2) (h : Fin 4) (b : Fin 8)
    (ht : 4 * g + h.val < cfg0.N) (hb : 8 * g + b.val < 16) :
    blkGen m φ c ⟨4 * g + h.val, ht⟩ b
      = ∑ r : Fin 128, ∑ cc : Fin 512,
          φ (m ((c : Thread nD τ).loc main_arg0) (ix4 (⟨8 * g + b.val, hb⟩ : Fin 16) (0 : Fin 1) (⟨128 * h.val + r.val, by omega⟩ : Fin 512) cc))
            (m ((c : Thread nD τ).loc main_arg2) (ix4 (⟨8 * g + b.val, hb⟩ : Fin 16) (0 : Fin 1) (⟨128 * h.val + r.val, by omega⟩ : Fin 512) cc)) := by
  unfold blkGen
  refine Finset.sum_congr rfl fun r _ => Finset.sum_congr rfl fun cc _ => ?_
  refine (congrArg₂ φ (Blk.iblk0_elt m c ⟨4 * g + h.val, ht⟩ b r cc) (Blk.iblk1_elt m c ⟨4 * g + h.val, ht⟩ b r cc)).trans ?_
  have key : ∀ (A A' : Fin 16) (B B' : Fin 512), A = A' → B = B' →
      φ (m ((c : Thread nD τ).loc main_arg0) (ix4 A (0 : Fin 1) B cc)) (m ((c : Thread nD τ).loc main_arg2) (ix4 A (0 : Fin 1) B cc))
        = φ (m ((c : Thread nD τ).loc main_arg0) (ix4 A' (0 : Fin 1) B' cc)) (m ((c : Thread nD τ).loc main_arg2) (ix4 A' (0 : Fin 1) B' cc)) := by
    rintro _ _ _ _ rfl rfl; rfl
  refine key _ _ _ _ (Fin.ext ?_) (Fin.ext ?_)
  · show 8 * ((4 * g + h.val) / 4) + b.val = 8 * g + b.val
    omega
  · show 128 * ((4 * g + h.val) % 4) + r.val = 128 * h.val + r.val
    omega

/-- Zero plus the four blocks' sums in order is zero plus the sum over the whole image. -/
theorem sum_gen (φ : EReal → EReal → EReal) (c : Dev nD) (g : ℕ) (hg : g < 2) (b : Fin 8) (z : EReal)
    (h0 : 4 * g < cfg0.N) (h1 : 4 * g + 1 < cfg0.N) (h2 : 4 * g + 2 < cfg0.N) (h3 : 4 * g + 3 < cfg0.N)
    (hb : 8 * g + b.val < 16) :
    (((z + blkGen m φ c ⟨4 * g, h0⟩ b) + blkGen m φ c ⟨4 * g + 1, h1⟩ b) + blkGen m φ c ⟨4 * g + 2, h2⟩ b)
        + blkGen m φ c ⟨4 * g + 3, h3⟩ b
      = z + ∑ r : Fin 512, ∑ cc : Fin 512,
          φ (m ((c : Thread nD τ).loc main_arg0) (ix4 (⟨8 * g + b.val, hb⟩ : Fin 16) (0 : Fin 1) r cc))
            (m ((c : Thread nD τ).loc main_arg2) (ix4 (⟨8 * g + b.val, hb⟩ : Fin 16) (0 : Fin 1) r cc)) := by
  -- the image's rows, and its four runs of 128 rows
  let f : Fin 512 → EReal := fun r => ∑ cc : Fin 512,
    φ (m ((c : Thread nD τ).loc main_arg0) (ix4 (⟨8 * g + b.val, hb⟩ : Fin 16) (0 : Fin 1) r cc))
      (m ((c : Thread nD τ).loc main_arg2) (ix4 (⟨8 * g + b.val, hb⟩ : Fin 16) (0 : Fin 1) r cc))
  let S : Fin 4 → EReal := fun h => ∑ r : Fin 128, f ⟨128 * h.val + r.val, by omega⟩
  have p0 : blkGen m φ c ⟨4 * g, h0⟩ b = S 0 := blkGen_pt m φ c g hg 0 b h0 hb
  have p1 : blkGen m φ c ⟨4 * g + 1, h1⟩ b = S 1 := blkGen_pt m φ c g hg 1 b h1 hb
  have p2 : blkGen m φ c ⟨4 * g + 2, h2⟩ b = S 2 := blkGen_pt m φ c g hg 2 b h2 hb
  have p3 : blkGen m φ c ⟨4 * g + 3, h3⟩ b = S 3 := blkGen_pt m φ c g hg 3 b h3 hb
  rw [p0, p1, p2, p3]
  refine (Blk.chain4 z S).trans ?_
  exact congrArg (z + ·) (SumLaws.sum_rows_split f).symm

/-! ## The result array -/

/-- Lanes 0, 1, 2 of row 8g + b of the result array. -/
theorem out_g (c : Dev nD) (g : ℕ) (hg : g < 2) (b : Fin 8) (hb : 8 * g + b.val < 16) :
    ((dats m 0 c).arrAt 2 cfg0.N : FVec Ideal S16x128 .f32) (ix2 (⟨8 * g + b.val, hb⟩ : Fin 16) (0 : Fin 128))
        = Ideal.ofBits .f32 0x00000000#32 + ∑ r : Fin 512, ∑ cc : Fin 512,
            posK (m ((c : Thread nD τ).loc main_arg2) (ix4 (⟨8 * g + b.val, hb⟩ : Fin 16) (0 : Fin 1) r cc))
    ∧ ((dats m 0 c).arrAt 2 cfg0.N : FVec Ideal S16x128 .f32) (ix2 (⟨8 * g + b.val, hb⟩ : Fin 16) (1 : Fin 128))
        = Ideal.ofBits .f32 0x00000000#32 + ∑ r : Fin 512, ∑ cc : Fin 512,
            plK (m ((c : Thread nD τ).loc main_arg0) (ix4 (⟨8 * g + b.val, hb⟩ : Fin 16) (0 : Fin 1) r cc))
              (m ((c : Thread nD τ).loc main_arg2) (ix4 (⟨8 * g + b.val, hb⟩ : Fin 16) (0 : Fin 1) r cc))
    ∧ ((dats m 0 c).arrAt 2 cfg0.N : FVec Ideal S16x128 .f32) (ix2 (⟨8 * g + b.val, hb⟩ : Fin 16) (2 : Fin 128))
        = Ideal.ofBits .f32 0x00000000#32 + ∑ r : Fin 512, ∑ cc : Fin 512,
            nlK (m ((c : Thread nD τ).loc main_arg0) (ix4 (⟨8 * g + b.val, hb⟩ : Fin 16) (0 : Fin 1) r cc))
              (m ((c : Thread nD τ).loc main_arg2) (ix4 (⟨8 * g + b.val, hb⟩ : Fin 16) (0 : Fin 1) r cc)) := by
  have hN : cfg0.N = 8 := N_0
  have h0 : 4 * g < cfg0.N := by omega
  have h1 : 4 * g + 1 < cfg0.N := by omega
  have h2 : 4 * g + 2 < cfg0.N := by omega
  have h3 : 4 * g + 3 < cfg0.N := by omega
  obtain ⟨c0, c1, c2⟩ := acc_chain m c g hg b h0 h1 h2 h3
  rw [ofBits_zero]
  refine ⟨?_, ?_, ?_⟩
  · exact (arr_at m c g hg b 0 h3 hb).trans (c0.trans (sum_gen m (fun _ t => posK t) c g hg b 0 h0 h1 h2 h3 hb))
  · exact (arr_at m c g hg b 1 h3 hb).trans (c1.trans (sum_gen m plK c g hg b 0 h0 h1 h2 h3 hb))
  · exact (arr_at m c g hg b 2 h3 hb).trans (c2.trans (sum_gen m nlK c g hg b 0 h0 h1 h2 h3 hb))

/-- Every row of the [16,128] array is row b of image group g for b' = 8g + b. -/
theorem row_split (b' : Fin 16) : 8 * (b'.val / 8) + (⟨b'.val % 8, by omega⟩ : Fin 8).val < 16 := by
  show 8 * (b'.val / 8) + b'.val % 8 < 16; omega
theorem row_eq (b' : Fin 16) : (⟨8 * (b'.val / 8) + (⟨b'.val % 8, by omega⟩ : Fin 8).val, row_split b'⟩ : Fin 16) = b' :=
  Fin.ext (by show 8 * (b'.val / 8) + b'.val % 8 = b'.val; omega)

/-- Lane 0 of row b' of the result array: the zero word plus the count of image b''s positive pixels. -/
theorem out_num (c : Dev nD) (b' : Fin 16) :
    ((dats m 0 c).arrAt 2 cfg0.N : FVec Ideal S16x128 .f32) (ix2 b' (0 : Fin 128))
      = Ideal.ofBits .f32 0x00000000#32 + ∑ r : Fin 512, ∑ cc : Fin 512, posK (m ((c : Thread nD τ).loc main_arg2) (ix4 b' (0 : Fin 1) r cc)) := by
  have h := (out_g m c (b'.val / 8) (by omega) ⟨b'.val % 8, by omega⟩ (row_split b')).1
  rw [row_eq b'] at h
  exact h
/-- Lane 1: plus image b''s summed positive loss. -/
theorem out_pos (c : Dev nD) (b' : Fin 16) :
    ((dats m 0 c).arrAt 2 cfg0.N : FVec Ideal S16x128 .f32) (ix2 b' (1 : Fin 128))
      = Ideal.ofBits .f32 0x00000000#32 + ∑ r : Fin 512, ∑ cc : Fin 512, plK (m ((c : Thread nD τ).loc main_arg0) (ix4 b' (0 : Fin 1) r cc)) (m ((c : Thread nD τ).loc main_arg2) (ix4 b' (0 : Fin 1) r cc)) := by
  have h := (out_g m c (b'.val / 8) (by omega) ⟨b'.val % 8, by omega⟩ (row_split b')).2.1
  rw [row_eq b'] at h
  exact h
/-- Lane 2: plus image b''s summed negative loss. -/
theorem out_neg (c : Dev nD) (b' : Fin 16) :
    ((dats m 0 c).arrAt 2 cfg0.N : FVec Ideal S16x128 .f32) (ix2 b' (2 : Fin 128))
      = Ideal.ofBits .f32 0x00000000#32 + ∑ r : Fin 512, ∑ cc : Fin 512, nlK (m ((c : Thread nD τ).loc main_arg0) (ix4 b' (0 : Fin 1) r cc)) (m ((c : Thread nD τ).loc main_arg2) (ix4 b' (0 : Fin 1) r cc)) := by
  have h := (out_g m c (b'.val / 8) (by omega) ⟨b'.val % 8, by omega⟩ (row_split b')).2.2
  rw [row_eq b'] at h
  exact h

end Cert.KernelIdeal.Ov

end
-- ==== Proof.TailDefs.lean ====
import proofs.«400395_j77730318123291_3_alg».proof.Proof.Gen.KernelIdeal.Launch
import Idealize.ShloMosaic.Lib.StableHlo.Run
import Idealize.ShloMosaic.PureOps.Ideal

noncomputable section

namespace Cert.KernelIdeal.Tail

open Cert.KernelIdeal Cert.KernelIdeal.Gen Idealize.ShloMosaic

/-! The host operations that follow the region, as pure functions of the three buffers they read from
outside: the region's (16,128) result, the embedding map and the keypoint coordinates. -/

/-- The focal-loss tail: from the per-image counts `n` and the per-image positive and negative sums `p`, `q`,
    the mean over the 16 images of `p / norm` plus the mean of `q / norm`, `norm = max (90 + 0.1 * n) 1`. -/
def kpTail (n p q : FVec Ideal S16 .f32) : FVec Ideal S_ .f32 :=
  addf
    (Host.divf (F := Ideal)
      (Host.reduceAdd (F := Ideal)
        (Host.divf (F := Ideal) p
          (maximumf
            (addf (broadcastInDim S16 ![] bcast_S_S16 (constant (F := Ideal) S_ .f32 0x42B40000#32))
              (mulf (broadcastInDim S16 ![] bcast_S_S16 (constant (F := Ideal) S_ .f32 0x3DCCCCCD#32)) n))
            (broadcastInDim S16 ![] bcast_S_S16 (constant (F := Ideal) S_ .f32 0x3F800000#32))))
        (constant (F := Ideal) S_ .f32 0x00000000#32) reducesTo_S16_S_d0 h_S_)
      (constant (F := Ideal) S_ .f32 0x41800000#32))
    (Host.divf (F := Ideal)
      (Host.reduceAdd (F := Ideal)
        (Host.divf (F := Ideal) q
          (maximumf
            (addf (broadcastInDim S16 ![] bcast_S_S16 (constant (F := Ideal) S_ .f32 0x42B40000#32))
              (mulf (broadcastInDim S16 ![] bcast_S_S16 (constant (F := Ideal) S_ .f32 0x3DCCCCCD#32)) n))
            (broadcastInDim S16 ![] bcast_S_S16 (constant (F := Ideal) S_ .f32 0x3F800000#32))))
        (constant (F := Ideal) S_ .f32 0x00000000#32) reducesTo_S16_S_d0 h_S_)
      (constant (F := Ideal) S_ .f32 0x41800000#32))

/-- Lane 0 of the region's result, one entry per image: the counts. -/
def col0 (out : FVec Ideal S16x128 .f32) : FVec Ideal S16 .f32 :=
  shapeCast S16 (extractStridedSlice S16x1 ![0, 0] out slices_S16x128_S16x1_0_0) shapeCasts_S16x1_S16
/-- Lane 1: the positive sums. -/
def col1 (out : FVec Ideal S16x128 .f32) : FVec Ideal S16 .f32 :=
  shapeCast S16 (extractStridedSlice S16x1 ![0, 1] out slices_S16x128_S16x1_0_1) shapeCasts_S16x1_S16
/-- Lane 2: the negative sums. -/
def col2 (out : FVec Ideal S16x128 .f32) : FVec Ideal S16 .f32 :=
  shapeCast S16 (extractStridedSlice S16x1 ![0, 2] out slices_S16x128_S16x1_0_2) shapeCasts_S16x1_S16

/-- The focal-loss term from the region's result. -/
def kpK (out : FVec Ideal S16x128 .f32) : FVec Ideal S_ .f32 := kpTail (col0 out) (col1 out) (col2 out)

/-- The flat position `y * 512 + x` of every keypoint, one copy per embedding channel. -/
def flatIdx (x3 : IVec S16x32x128x2 32) : IVec S16x2x4096 32 :=
  broadcastInDim S16x2x4096 ![0, 1, 2] bcast_S16x1x4096_S16x2x4096_0_1_2
    (broadcastInDim S16x1x4096 ![0, 2] bcast_S16x4096_S16x1x4096_0_2
      (shapeCast S16x4096
        (addi
          (muli
            (shapeCast S16x32x128 (extractStridedSlice S16x32x128x1 ![0, 0, 0, 0] x3 slices_S16x32x128x2_S16x32x128x1_0_0_0_0) shapeCasts_S16x32x128x1_S16x32x128)
            (broadcastInDim S16x32x128 ![] bcast_S_S16x32x128 (constantI S_ 32 512#32)))
          (shapeCast S16x32x128 (extractStridedSlice S16x32x128x1 ![0, 0, 0, 1] x3 slices_S16x32x128x2_S16x32x128x1_0_0_0_1) shapeCasts_S16x32x128x1_S16x32x128))
        shapeCasts_S16x32x128_S16x4096))

/-- The flat position with a negative one wrapped by the row length, as a trailing-unit index tensor. -/
def wrapIdx (x3 : IVec S16x32x128x2 32) : IVec S16x2x4096x1 32 :=
  shapeCast S16x2x4096x1
    (select (cmpi .slt (flatIdx x3) (broadcastInDim S16x2x4096 ![] bcast_S_S16x2x4096 (constantI S_ 32 0#32)))
      (addi (flatIdx x3) (broadcastInDim S16x2x4096 ![] bcast_S_S16x2x4096 (constantI S_ 32 262144#32)))
      (flatIdx x3))
    shapeCasts_S16x2x4096_S16x2x4096x1

/-- The embedding read at every keypoint: the gather from the flattened map, NaN where the wrapped index is out of range. -/
def aeGatherK (x1 : FVec Ideal S16x2x512x512 .f32) (x3 : IVec S16x32x128x2 32) : FVec Ideal S16x2x4096 .f32 :=
  select
    (Host.reduce IntOp.andi
      (andi
        (cmpi .sge (wrapIdx x3) (broadcastInDim S16x2x4096x1 ![] bcast_S_S16x2x4096x1 (constantI S_ 32 0#32)))
        (cmpi .sle (wrapIdx x3)
          (broadcastInDim S16x2x4096x1 ![0, 1, 2, 3] bcast_S1x1x1x1_S16x2x4096x1_0_1_2_3
            (broadcastInDim S1x1x1x1 ![3] bcast_S1_S1x1x1x1_3 (constantI S1 32 262143#32)))))
      (constantI S_ 1 1#1) reducesTo_S16x2x4096x1_S16x2x4096_d3 h_S_)
    (Host.gather gather_S16x2x262144_S16x2x4096x1_S16x2x4096_n_2_01_01_2_3_111
      (shapeCast S16x2x262144 x1 shapeCasts_S16x2x512x512_S16x2x262144) (wrapIdx x3))
    (broadcastInDim S16x2x4096 ![] bcast_S_S16x2x4096 (constant (F := Ideal) S_ .f32 0x7FC00000#32))

/-- The squared distance of (embedding + coordinate) from the floor of the instance's mean coordinate, summed over the channel pair. -/
def aeSq (g : FVec Ideal S16x2x4096 .f32) (x3 : IVec S16x32x128x2 32) : FVec Ideal S16x32x128 .f32 :=
  Host.reduceAdd (F := Ideal)
    (mulf
      (subf
        (addf
          (transpose S16x32x128x2 [0, 2, 3, 1] (shapeCast S16x2x32x128 g shapeCasts_S16x2x4096_S16x2x32x128) transposes_S16x2x32x128_S16x32x128x2_0_2_3_1)
          (sitofp (F := Ideal) .f32 x3))
        (broadcastInDim S16x32x128x2 ![0, 1, 2, 3] bcast_S16x32x1x2_S16x32x128x2_0_1_2_3
          (broadcastInDim S16x32x1x2 ![0, 1, 3] bcast_S16x32x2_S16x32x1x2_0_1_3
            (Host.floor (F := Ideal)
              (Host.divf (F := Ideal)
                (Host.reduceAdd (F := Ideal) (sitofp (F := Ideal) .f32 x3) (constant (F := Ideal) S_ .f32 0x00000000#32) reducesTo_S16x32x128x2_S16x32x2_d2 h_S_)
                (broadcastInDim S16x32x2 ![] bcast_S_S16x32x2 (constant (F := Ideal) S_ .f32 0x43000000#32)))))))
      (subf
        (addf
          (transpose S16x32x128x2 [0, 2, 3, 1] (shapeCast S16x2x32x128 g shapeCasts_S16x2x4096_S16x2x32x128) transposes_S16x2x32x128_S16x32x128x2_0_2_3_1)
          (sitofp (F := Ideal) .f32 x3))
        (broadcastInDim S16x32x128x2 ![0, 1, 2, 3] bcast_S16x32x1x2_S16x32x128x2_0_1_2_3
          (broadcastInDim S16x32x1x2 ![0, 1, 3] bcast_S16x32x2_S16x32x1x2_0_1_3
            (Host.floor (F := Ideal)
              (Host.divf (F := Ideal)
                (Host.reduceAdd (F := Ideal) (sitofp (F := Ideal) .f32 x3) (constant (F := Ideal) S_ .f32 0x00000000#32) reducesTo_S16x32x128x2_S16x32x2_d2 h_S_)
                (broadcastInDim S16x32x2 ![] bcast_S_S16x32x2 (constant (F := Ideal) S_ .f32 0x43000000#32))))))))
    (constant (F := Ideal) S_ .f32 0x00000000#32) reducesTo_S16x32x128x2_S16x32x128_d3 h_S_

/-- The embedding term from the gathered embeddings: 0.1 times the mean over images of the mean over instances of the
    mean over keypoints of the distance. -/
def aeRest (g : FVec Ideal S16x2x4096 .f32) (x3 : IVec S16x32x128x2 32) : FVec Ideal S_ .f32 :=
  mulf (constant (F := Ideal) S_ .f32 0x3DCCCCCD#32)
    (Host.divf (F := Ideal)
      (Host.reduceAdd (F := Ideal)
        (Host.divf (F := Ideal)
          (Host.reduceAdd (F := Ideal)
            (Host.divf (F := Ideal)
              (Host.reduceAdd (F := Ideal) (Host.sqrt (F := Ideal) (aeSq g x3)) (constant (F := Ideal) S_ .f32 0x00000000#32) reducesTo_S16x32x128_S16x32_d2 h_S_)
              (broadcastInDim S16x32 ![] bcast_S_S16x32 (constant (F := Ideal) S_ .f32 0x43000000#32)))
            (constant (F := Ideal) S_ .f32 0x00000000#32) reducesTo_S16x32_S16_d1 h_S_)
          (broadcastInDim S16 ![] bcast_S_S16 (constant (F := Ideal) S_ .f32 0x42000000#32)))
        (constant (F := Ideal) S_ .f32 0x00000000#32) reducesTo_S16_S_d0 h_S_)
      (constant (F := Ideal) S_ .f32 0x41800000#32))

/-- The embedding term from the map and the coordinates. -/
def aeK (x1 : FVec Ideal S16x2x512x512 .f32) (x3 : IVec S16x32x128x2 32) : FVec Ideal S_ .f32 :=
  aeRest (aeGatherK x1 x3) x3

end Cert.KernelIdeal.Tail

end
-- ==== Proof.TailRead.lean ====
import proofs.«400395_j77730318123291_3_alg».proof.Proof.TailDefs

noncomputable section

namespace Cert.KernelIdeal.Tail

open Cert.KernelIdeal Cert.KernelIdeal.Gen Idealize.ShloMosaic

open Idealize.ShloMosaic.StableHlo

/-! The 94 host operations that follow the region, read back: the value they leave in the result buffer is the
focal-loss term of the region's result plus the embedding term of the map and the coordinates; no operation
writes an argument. -/

set_option maxRecDepth 8192 in
set_option maxHeartbeats 4000000 in
/-- The result buffer after the tail: the sum of the two terms, each a function of the buffers read from outside. -/
theorem tail_v57 (W : Valuation τ sig (Elt Ideal)) :
    StableHlo.after (List.flatten [hostOps1 (F := Ideal), hostOps1_1 (F := Ideal), hostOps1_2 (F := Ideal)]) W (Proc.devRef .tc main_v57)
      = addf (kpK (W (Proc.devRef .tc main_v2))) (aeK (W (Proc.devRef .tc main_arg1)) (W (Proc.devRef .tc main_arg3))) := by
  simp only [hostOps1, hostOps1_1, hostOps1_2, List.flatten_cons, List.flatten_nil, List.append_nil, List.cons_append, List.nil_append]
  after_results_simp
  simp only [TRef.ofBuf, TRef.toBuf, cast_eq]
  rfl

set_option maxRecDepth 8192 in
set_option maxHeartbeats 4000000 in
/-- The tail leaves the first argument as it found it. -/
theorem tail_arg0 (W : Valuation τ sig (Elt Ideal)) :
    StableHlo.after (List.flatten [hostOps1 (F := Ideal), hostOps1_1 (F := Ideal), hostOps1_2 (F := Ideal)]) W (Proc.devRef .tc main_arg0)
      = W (Proc.devRef .tc main_arg0) := by
  simp only [hostOps1, hostOps1_1, hostOps1_2, List.flatten_cons, List.flatten_nil, List.append_nil, List.cons_append, List.nil_append]
  after_results_simp <;> rfl

set_option maxRecDepth 8192 in
set_option maxHeartbeats 4000000 in
/-- The tail leaves the second argument as it found it. -/
theorem tail_arg1 (W : Valuation τ sig (Elt Ideal)) :
    StableHlo.after (List.flatten [hostOps1 (F := Ideal), hostOps1_1 (F := Ideal), hostOps1_2 (F := Ideal)]) W (Proc.devRef .tc main_arg1)
      = W (Proc.devRef .tc main_arg1) := by
  simp only [hostOps1, hostOps1_1, hostOps1_2, List.flatten_cons, List.flatten_nil, List.append_nil, List.cons_append, List.nil_append]
  after_results_simp <;> rfl

set_option maxRecDepth 8192 in
set_option maxHeartbeats 4000000 in
/-- The tail leaves the third argument as it found it. -/
theorem tail_arg2 (W : Valuation τ sig (Elt Ideal)) :
    StableHlo.after (List.flatten [hostOps1 (F := Ideal), hostOps1_1 (F := Ideal), hostOps1_2 (F := Ideal)]) W (Proc.devRef .tc main_arg2)
      = W (Proc.devRef .tc main_arg2) := by
  simp only [hostOps1, hostOps1_1, hostOps1_2, List.flatten_cons, List.flatten_nil, List.append_nil, List.cons_append, List.nil_append]
  after_results_simp <;> rfl

set_option maxRecDepth 8192 in
set_option maxHeartbeats 4000000 in
/-- The tail leaves the fourth argument as it found it. -/
theorem tail_arg3 (W : Valuation τ sig (Elt Ideal)) :
    StableHlo.after (List.flatten [hostOps1 (F := Ideal), hostOps1_1 (F := Ideal), hostOps1_2 (F := Ideal)]) W (Proc.devRef .tc main_arg3)
      = W (Proc.devRef .tc main_arg3) := by
  simp only [hostOps1, hostOps1_1, hostOps1_2, List.flatten_cons, List.flatten_nil, List.append_nil, List.cons_append, List.nil_append]
  after_results_simp <;> rfl

end Cert.KernelIdeal.Tail

end
-- ==== Proof.RefSide.lean ====
/-
  The reference's focal part read as plain sums. At one pixel its stages are the scalar functions of the heat and
  target values there; over one image its three reductions are the initial value plus the double sum over rows and
  columns of those scalar functions; the focal term is the mean-of-ratios tail of the three per-image sums; and the
  result is the focal term plus the embedding term.
-/
import proofs.«400395_j77730318123291_3_alg».proof.Proof.Gen.ReferenceIdeal.Read
import proofs.«400395_j77730318123291_3_alg».proof.Proof.FocalScalar
import proofs.«400395_j77730318123291_3_alg».proof.Proof.SumLaws
import proofs.«400395_j77730318123291_3_alg».proof.Proof.TailDefs

noncomputable section

open scoped BigOperators

namespace Cert.Ref

open Idealize.ShloMosaic Cert.ReferenceIdeal Cert.ReferenceIdeal.Read

/-! ## One pixel: the reference's stages are the scalar functions at that pixel -/

/-- The indicator stage at a pixel. -/
theorem pos_elt (x2 : FVec Ideal S16x1x512x512 .f32) (i : S16x1x512x512.Idx) :
    val_main_v2 (F := Ideal) x2 i = Cert.Focal.posR (x2 i) := by
  simp only [val_main_v2_apply, val_main_v1_apply, val_main_v0_apply, val_main_cst_apply]
  rfl

/-- The clipped probability stage at a pixel. -/
theorem pred_elt (x0 : FVec Ideal S16x1x512x512 .f32) (i : S16x1x512x512.Idx) :
    val_main_v9 (F := Ideal) x0 i = Cert.Focal.predR (x0 i) := by
  simp only [val_main_v9_apply, val_main_call0_v4_apply, val_main_call0_v3_apply, val_main_cst_3_apply,
    val_main_call0_v2_apply, val_main_call0_v1_apply, val_main_call0_v0_apply, val_main_cst_2_apply,
    val_main_v8_apply, val_main_v7_apply, val_main_cst_1_apply, val_main_v6_apply, val_main_v5_apply,
    val_main_cst_0_apply, val_main_v4_apply, val_main_v3_apply]
  rfl

/-- The stage pt at a pixel. -/
theorem pt_elt (x0 x2 : FVec Ideal S16x1x512x512 .f32) (i : S16x1x512x512.Idx) :
    val_main_v16 (F := Ideal) x0 x2 i = Cert.Focal.ptR (x0 i) (x2 i) := by
  simp only [val_main_v16_apply, val_main_v10_apply, val_main_v15_apply, val_main_v12_apply, val_main_v11_apply,
    val_main_cst_4_apply, val_main_v14_apply, val_main_v13_apply, val_main_cst_5_apply, pred_elt, pos_elt]
  rfl

/-- The loss stage at a pixel. -/
theorem loss_elt (x0 x2 : FVec Ideal S16x1x512x512 .f32) (i : S16x1x512x512.Idx) :
    val_main_v23 (F := Ideal) x0 x2 i = Cert.Focal.lossR (x0 i) (x2 i) := by
  simp only [val_main_v23_apply, val_main_v21_apply, val_main_v20_apply, val_main_v18_apply, val_main_v17_apply,
    val_main_cst_6_apply, val_main_v19_apply, val_main_cst_7_apply, val_main_v22_apply, pt_elt]
  rfl

/-- The weighted loss stage at a pixel. -/
theorem lm_elt (x0 x2 : FVec Ideal S16x1x512x512 .f32) (i : S16x1x512x512.Idx) :
    val_main_v32 (F := Ideal) x0 x2 i = Cert.Focal.lmR (x0 i) (x2 i) := by
  simp only [val_main_v32_apply, val_main_v26_apply, val_main_v25_apply, val_main_v24_apply, val_main_cst_8_apply,
    val_main_v31_apply, val_main_v30_apply, val_main_v29_apply, val_main_cst_10_apply, val_main_v28_apply,
    val_main_v27_apply, val_main_cst_9_apply, loss_elt, pos_elt]
  rfl

/-- The positive summand at a pixel. -/
theorem pl_elt (x0 x2 : FVec Ideal S16x1x512x512 .f32) (i : S16x1x512x512.Idx) :
    val_main_v33 (F := Ideal) x0 x2 i = Cert.Focal.plR (x0 i) (x2 i) := by
  simp only [val_main_v33_apply, lm_elt, pos_elt]
  rfl

/-- The negative summand at a pixel. -/
theorem nl_elt (x0 x2 : FVec Ideal S16x1x512x512 .f32) (i : S16x1x512x512.Idx) :
    val_main_v41 (F := Ideal) x0 x2 i = Cert.Focal.nlR (x0 i) (x2 i) := by
  simp only [val_main_v41_apply, val_main_v38_apply, val_main_v37_apply, val_main_v35_apply, val_main_v34_apply,
    val_main_cst_11_apply, val_main_v36_apply, val_main_cst_12_apply, val_main_v40_apply, val_main_v39_apply,
    val_main_cst_13_apply, lm_elt, pos_elt]
  rfl

/-! ## One image: the three sums over an image's pixels -/

/-- The count of positives of image `b`. -/
theorem num_ref (x2 : FVec Ideal S16x1x512x512 .f32) (b : Fin 16) :
    val_main_v42 (F := Ideal) x2 (ValueIdx.ix1 b)
      = Ideal.ofBits .f32 0x00000000#32
        + ∑ r : Fin 512, ∑ c : Fin 512, Cert.Focal.posR (x2 (ValueIdx.ix4 b (0 : Fin 1) r c)) := by
  refine (Cert.SumLaws.hostReduceAdd_img_ix Gen.reducesTo_S16x1x512x512_S16_d1_2_3 (val_main_v2 (F := Ideal) x2)
    (Ideal.ofBits .f32 0x00000000#32) b).trans ?_
  exact congrArg (Ideal.ofBits .f32 0x00000000#32 + ·)
    (Finset.sum_congr rfl fun r _ => Finset.sum_congr rfl fun c _ => pos_elt x2 _)

/-- The positive sum of image `b`. -/
theorem pos_ref (x0 x2 : FVec Ideal S16x1x512x512 .f32) (b : Fin 16) :
    val_main_v49 (F := Ideal) x0 x2 (ValueIdx.ix1 b)
      = Ideal.ofBits .f32 0x00000000#32
        + ∑ r : Fin 512, ∑ c : Fin 512,
            Cert.Focal.plR (x0 (ValueIdx.ix4 b (0 : Fin 1) r c)) (x2 (ValueIdx.ix4 b (0 : Fin 1) r c)) := by
  refine (Cert.SumLaws.hostReduceAdd_img_ix Gen.reducesTo_S16x1x512x512_S16_d1_2_3 (val_main_v33 (F := Ideal) x0 x2)
    (Ideal.ofBits .f32 0x00000000#32) b).trans ?_
  exact congrArg (Ideal.ofBits .f32 0x00000000#32 + ·)
    (Finset.sum_congr rfl fun r _ => Finset.sum_congr rfl fun c _ => pl_elt x0 x2 _)

/-- The negative sum of image `b`. -/
theorem neg_ref (x0 x2 : FVec Ideal S16x1x512x512 .f32) (b : Fin 16) :
    val_main_v53 (F := Ideal) x0 x2 (ValueIdx.ix1 b)
      = Ideal.ofBits .f32 0x00000000#32
        + ∑ r : Fin 512, ∑ c : Fin 512,
            Cert.Focal.nlR (x0 (ValueIdx.ix4 b (0 : Fin 1) r c)) (x2 (ValueIdx.ix4 b (0 : Fin 1) r c)) := by
  refine (Cert.SumLaws.hostReduceAdd_img_ix Gen.reducesTo_S16x1x512x512_S16_d1_2_3 (val_main_v41 (F := Ideal) x0 x2)
    (Ideal.ofBits .f32 0x00000000#32) b).trans ?_
  exact congrArg (Ideal.ofBits .f32 0x00000000#32 + ·)
    (Finset.sum_congr rfl fun r _ => Finset.sum_congr rfl fun c _ => nl_elt x0 x2 _)

/-! ## The tail: from the three per-image sums to the focal term, and the total -/

/-- The focal term is the mean-of-ratios tail of the three per-image sums. -/
theorem kp_ref (x0 x2 : FVec Ideal S16x1x512x512 .f32) :
    val_main_v57 (F := Ideal) x0 x2
      = Cert.KernelIdeal.Tail.kpTail (val_main_v42 (F := Ideal) x2) (val_main_v49 (F := Ideal) x0 x2)
          (val_main_v53 (F := Ideal) x0 x2) := by
  unfold val_main_v57 val_main_v52 val_main_v56 val_main_v51 val_main_v55 val_main_v50 val_main_v54 val_main_v48
    val_main_v46 val_main_v47 val_main_v45 val_main_v44 val_main_v43 val_main_cst_15 val_main_cst_16 val_main_cst_17
    val_main_cst_19 val_main_cst_20 val_main_cst_22 val_main_cst_23 Cert.KernelIdeal.Tail.kpTail
  rfl

/-- The reference's result is the focal term plus the embedding term. -/
theorem total_ref (x0 : FVec Ideal S16x1x512x512 .f32) (x1 : FVec Ideal S16x2x512x512 .f32)
    (x2 : FVec Ideal S16x1x512x512 .f32) (x3 : IVec S16x32x128x2 32) :
    val_main_v98 (F := Ideal) x0 x1 x2 x3
      = (addf (val_main_v57 (F := Ideal) x0 x2 : FVec Ideal S_ .f32) (val_main_v97 (F := Ideal) x1 x3) :
          FVec Ideal S_ .f32) := rfl

end Cert.Ref

end
-- ==== Proof.KpBridge.lean ====
import proofs.«400395_j77730318123291_3_alg».proof.Proof.TailDefs
import proofs.«400395_j77730318123291_3_alg».proof.Proof.FocalScalar
import proofs.«400395_j77730318123291_3_alg».proof.Proof.RefSide
import Idealize.ShloMosaic.Lib.ValueIdx
import Idealize.ShloMosaic.Lib.ValueLayout
import Idealize.ShloMosaic.Lib.Pipeline.Value

noncomputable section

namespace Cert.Bridge

open Idealize.ShloMosaic Idealize.ShloMosaic.ValueIdx Cert.KernelIdeal Cert.KernelIdeal.Gen Cert.KernelIdeal.Tail Cert.ReferenceIdeal.Read

/-! The focal part of the kernel's result equals the reference's, once the first three lanes of the region's
result hold, per image, the count of positives and the positive and negative loss sums. -/

/-- Lane 0 of the result block, read at image `b`. -/
theorem col0_apply (out : FVec Ideal S16x128 .f32) (b : Fin 16) :
    Cert.KernelIdeal.Tail.col0 out (ValueIdx.ix1 b) = out (ValueIdx.ix2 b (0 : Fin 128)) := by
  unfold Cert.KernelIdeal.Tail.col0
  refine (shapeCast_apply _ shapeCasts_S16x1_S16 (ValueIdx.ix1 b) (ValueIdx.ix2 b (0 : Fin 1)) ?_).trans ?_
  · rw [Shape.rowMajor_val_two, Shape.rowMajor_val_one]; show b.val * 1 + 0 = b.val; omega
  · exact slice2_axis1_apply 0 out slices_S16x128_S16x1_0_0 b (0 : Fin 1) (0 : Fin 128) rfl

/-- Lane 1 of the result block, read at image `b`. -/
theorem col1_apply (out : FVec Ideal S16x128 .f32) (b : Fin 16) :
    Cert.KernelIdeal.Tail.col1 out (ValueIdx.ix1 b) = out (ValueIdx.ix2 b (1 : Fin 128)) := by
  unfold Cert.KernelIdeal.Tail.col1
  refine (shapeCast_apply _ shapeCasts_S16x1_S16 (ValueIdx.ix1 b) (ValueIdx.ix2 b (0 : Fin 1)) ?_).trans ?_
  · rw [Shape.rowMajor_val_two, Shape.rowMajor_val_one]; show b.val * 1 + 0 = b.val; omega
  · exact slice2_axis1_apply 1 out slices_S16x128_S16x1_0_1 b (0 : Fin 1) (1 : Fin 128) rfl

/-- Lane 2 of the result block, read at image `b`. -/
theorem col2_apply (out : FVec Ideal S16x128 .f32) (b : Fin 16) :
    Cert.KernelIdeal.Tail.col2 out (ValueIdx.ix1 b) = out (ValueIdx.ix2 b (2 : Fin 128)) := by
  unfold Cert.KernelIdeal.Tail.col2
  refine (shapeCast_apply _ shapeCasts_S16x1_S16 (ValueIdx.ix1 b) (ValueIdx.ix2 b (0 : Fin 1)) ?_).trans ?_
  · rw [Shape.rowMajor_val_two, Shape.rowMajor_val_one]; show b.val * 1 + 0 = b.val; omega
  · exact slice2_axis1_apply 2 out slices_S16x128_S16x1_0_2 b (0 : Fin 1) (2 : Fin 128) rfl

/-- The focal term: the kernel's tail applied to the three lanes is the reference's focal value. -/
theorem kp_bridge (out : FVec Ideal S16x128 .f32) (x0 x2 : FVec Ideal S16x1x512x512 .f32)
    (ht : ∀ i, ∃ r : ℝ, x2 i = (r : EReal))
    (hn : ∀ b : Fin 16, out (ValueIdx.ix2 b (0 : Fin 128)) = Ideal.ofBits .f32 0x00000000#32 + ∑ r : Fin 512, ∑ c : Fin 512, Cert.Focal.posK (x2 (ValueIdx.ix4 b (0 : Fin 1) r c)))
    (hp : ∀ b : Fin 16, out (ValueIdx.ix2 b (1 : Fin 128)) = Ideal.ofBits .f32 0x00000000#32 + ∑ r : Fin 512, ∑ c : Fin 512, Cert.Focal.plK (x0 (ValueIdx.ix4 b (0 : Fin 1) r c)) (x2 (ValueIdx.ix4 b (0 : Fin 1) r c)))
    (hq : ∀ b : Fin 16, out (ValueIdx.ix2 b (2 : Fin 128)) = Ideal.ofBits .f32 0x00000000#32 + ∑ r : Fin 512, ∑ c : Fin 512, Cert.Focal.nlK (x0 (ValueIdx.ix4 b (0 : Fin 1) r c)) (x2 (ValueIdx.ix4 b (0 : Fin 1) r c))) :
    Cert.KernelIdeal.Tail.kpK out = Cert.ReferenceIdeal.Read.val_main_v57 (F := Ideal) x0 x2 := by
  have h0 : Cert.KernelIdeal.Tail.col0 out = val_main_v42 (F := Ideal) x2 := by
    funext j
    obtain ⟨b, rfl⟩ : ∃ b : Fin 16, j = ValueIdx.ix1 b := ⟨j 0, ValueIdx.eq_ix1 j⟩
    rw [col0_apply, hn, Cert.Ref.num_ref]
    exact congrArg (fun s => Ideal.ofBits .f32 0x00000000#32 + s)
      (Finset.sum_congr rfl fun r _ => Finset.sum_congr rfl fun c _ => Cert.Focal.posK_eq _)
  have h1 : Cert.KernelIdeal.Tail.col1 out = val_main_v49 (F := Ideal) x0 x2 := by
    funext j
    obtain ⟨b, rfl⟩ : ∃ b : Fin 16, j = ValueIdx.ix1 b := ⟨j 0, ValueIdx.eq_ix1 j⟩
    rw [col1_apply, hp, Cert.Ref.pos_ref]
    exact congrArg (fun s => Ideal.ofBits .f32 0x00000000#32 + s)
      (Finset.sum_congr rfl fun r _ => Finset.sum_congr rfl fun c _ => Cert.Focal.plK_eq _ _)
  have h2 : Cert.KernelIdeal.Tail.col2 out = val_main_v53 (F := Ideal) x0 x2 := by
    funext j
    obtain ⟨b, rfl⟩ : ∃ b : Fin 16, j = ValueIdx.ix1 b := ⟨j 0, ValueIdx.eq_ix1 j⟩
    rw [col2_apply, hq, Cert.Ref.neg_ref]
    exact congrArg (fun s => Ideal.ofBits .f32 0x00000000#32 + s)
      (Finset.sum_congr rfl fun r _ => Finset.sum_congr rfl fun c _ => Cert.Focal.nlK_eq _ _ (ht _))
  rw [Cert.Ref.kp_ref]
  unfold Cert.KernelIdeal.Tail.kpK
  rw [h0, h1, h2]

/-- The whole result: the kernel's two terms summed are the reference's value. -/
theorem total_bridge (out : FVec Ideal S16x128 .f32) (x0 : FVec Ideal S16x1x512x512 .f32) (x1 : FVec Ideal S16x2x512x512 .f32)
    (x2 : FVec Ideal S16x1x512x512 .f32) (x3 : IVec S16x32x128x2 32)
    (ht : ∀ i, ∃ r : ℝ, x2 i = (r : EReal))
    (hr : ∀ i, 0 ≤ (x3 i).toInt ∧ (x3 i).toInt < 512)
    (hae : Cert.KernelIdeal.Tail.aeK x1 x3 = Cert.ReferenceIdeal.Read.val_main_v97 (F := Ideal) x1 x3)
    (hn : ∀ b : Fin 16, out (ValueIdx.ix2 b (0 : Fin 128)) = Ideal.ofBits .f32 0x00000000#32 + ∑ r : Fin 512, ∑ c : Fin 512, Cert.Focal.posK (x2 (ValueIdx.ix4 b (0 : Fin 1) r c)))
    (hp : ∀ b : Fin 16, out (ValueIdx.ix2 b (1 : Fin 128)) = Ideal.ofBits .f32 0x00000000#32 + ∑ r : Fin 512, ∑ c : Fin 512, Cert.Focal.plK (x0 (ValueIdx.ix4 b (0 : Fin 1) r c)) (x2 (ValueIdx.ix4 b (0 : Fin 1) r c)))
    (hq : ∀ b : Fin 16, out (ValueIdx.ix2 b (2 : Fin 128)) = Ideal.ofBits .f32 0x00000000#32 + ∑ r : Fin 512, ∑ c : Fin 512, Cert.Focal.nlK (x0 (ValueIdx.ix4 b (0 : Fin 1) r c)) (x2 (ValueIdx.ix4 b (0 : Fin 1) r c))) :
    addf (Cert.KernelIdeal.Tail.kpK out) (Cert.KernelIdeal.Tail.aeK x1 x3)
      = Cert.ReferenceIdeal.Read.val_main_v98 (F := Ideal) x0 x1 x2 x3 := by
  rw [Cert.Ref.total_ref, kp_bridge out x0 x2 ht hn hp hq, hae]

end Cert.Bridge

end
-- ==== Proof.AEBridge.lean ====
import proofs.«400395_j77730318123291_3_alg».proof.Proof.TailDefs
import proofs.«400395_j77730318123291_3_alg».proof.Proof.Gen.ReferenceIdeal.Read
import Idealize.ShloMosaic.Lib.ValueIdx
import Idealize.ShloMosaic.Lib.Pipeline.Value
import Idealize.ShloMosaic.PureOps.Ideal

noncomputable section

namespace Cert.AE

open Idealize.ShloMosaic Idealize.ShloMosaic.ValueIdx

/-- For 0 ≤ y, x < 512 the 32-bit word y * 512 + x does not wrap. -/
theorem toInt_flat (y x : BitVec 32) (hy0 : 0 ≤ y.toInt) (hy1 : y.toInt < 512) (hx0 : 0 ≤ x.toInt) (hx1 : x.toInt < 512) :
    (IntOp.addi (IntOp.muli y 512#32) x).toInt = y.toInt * 512 + x.toInt := by
  have e512 : (512#32 : BitVec 32).toInt = 512 := by decide
  have hm : (IntOp.muli y 512#32).toInt = y.toInt * 512 := by
    rw [IntOp.muli, BitVec.toInt_mul, e512]
    exact Int.bmod_eq_of_le (by omega) (by omega)
  rw [IntOp.addi, BitVec.toInt_add, hm]
  exact Int.bmod_eq_of_le (by omega) (by omega)

/-- A nonnegative word passes a negative-index wrap (add the extent when negative) unchanged. -/
theorem wrap_of_nonneg (v c : BitVec 32) (h0 : 0 ≤ v.toInt) :
    Scalar.select (IntOp.cmpi .slt v 0#32) (IntOp.addi v c) v = v := by
  have hc : ¬ IntOp.cmpi .slt v 0#32 = 1#1 := by
    rw [IntOp.cmpi_slt]
    have e0 : (0#32 : BitVec 32).toInt = 0 := by decide
    rw [e0]; omega
  unfold Scalar.select
  exact if_neg hc

/-- A word in [0, 262143] passes both range tests. -/
theorem mask_of_range (v : BitVec 32) (h0 : 0 ≤ v.toInt) (h1 : v.toInt ≤ 262143) :
    IntOp.andi (IntOp.cmpi .sge v 0#32) (IntOp.cmpi .sle v 262143#32) = 1#1 := by
  rw [IntOp.andi_eq_one, IntOp.cmpi_sge, IntOp.cmpi_sle]
  have e0 : (0#32 : BitVec 32).toInt = 0 := by decide
  have e1 : (262143#32 : BitVec 32).toInt = 262143 := by decide
  rw [e0, e1]; exact ⟨h0, h1⟩

/-- A left fold by and over words that are all 1, started at 1, is 1. -/
theorem foldl_andi_one {ι : Type} (f : ι → BitVec 1) (l : List ι) (hf : ∀ n, f n = 1#1) :
    l.foldl (fun r n => IntOp.andi r (f n)) 1#1 = 1#1 := by
  induction l with
  | nil => rfl
  | cons a l ih =>
    rw [List.foldl_cons, hf a]
    exact ih

/-- A select on the true word takes its first branch. -/
theorem select_one {α : Type} (a b : α) : Scalar.select (1#1) a b = a := by
  unfold Scalar.select
  exact if_pos rfl

/-- Column c of a [16, 32, 128, 2] array, as a [16, 32, 128] array: the unit slice at offset c of the last axis, then
    that axis dropped, read at (b, n, p). -/
theorem slice_col {α : Type} (x3 : (⟨4, ![16, 32, 128, 2]⟩ : Shape).Idx → α) (o : Nat) (c : Fin 2) (hoc : c.val = o)
    (hs : (⟨4, ![16, 32, 128, 2]⟩ : Shape).Slices ![0, 0, 0, o] ⟨4, ![16, 32, 128, 1]⟩)
    (hc : (⟨4, ![16, 32, 128, 1]⟩ : Shape).ShapeCasts ⟨3, ![16, 32, 128]⟩) (b : Fin 16) (n : Fin 32) (p : Fin 128) :
    shapeCast ⟨3, ![16, 32, 128]⟩ (extractStridedSlice ⟨4, ![16, 32, 128, 1]⟩ ![0, 0, 0, o] x3 hs) hc (ix3 b n p)
      = x3 (ix4 b n p c) := by
  refine (shapeCast_apply _ hc (ix3 b n p) (ix4 b n p (0 : Fin 1)) ?_).trans ?_
  · rw [Shape.rowMajor_val_four, Shape.rowMajor_val_three]
    show ((b.val * 32 + n.val) * 128 + p.val) * 1 + 0 = (b.val * 32 + n.val) * 128 + p.val
    omega
  · refine extractStridedSlice_apply _ x3 hs (ix4 b n p (0 : Fin 1)) (ix4 b n p c) (fun a => ?_)
    match a with
    | ⟨0, _⟩ => show b.val = 0 + b.val; omega
    | ⟨1, _⟩ => show n.val = 0 + n.val; omega
    | ⟨2, _⟩ => show p.val = 0 + p.val; omega
    | ⟨3, _⟩ => show c.val = o + 0; omega

/-- The flat position word of keypoint (b, n, p), in either channel's copy: y * 512 + x as 32-bit arithmetic. -/
theorem flatIdx_apply (x3 : IVec Cert.KernelIdeal.S16x32x128x2 32) (b : Fin 16) (ch : Fin 2) (n : Fin 32) (p : Fin 128) :
    Cert.KernelIdeal.Tail.flatIdx x3 (ix3 b ch ⟨n.val * 128 + p.val, by omega⟩)
      = IntOp.addi (IntOp.muli (x3 (ix4 b n p (0 : Fin 2))) 512#32) (x3 (ix4 b n p (1 : Fin 2))) := by
  unfold Cert.KernelIdeal.Tail.flatIdx
  refine (broadcastInDim_apply _ _ _ (ix3 b ch ⟨n.val * 128 + p.val, by omega⟩) (ix3 b (0 : Fin 1) ⟨n.val * 128 + p.val, by omega⟩) (fun a => ?_)).trans ?_
  · match a with
    | ⟨0, _⟩ => show b.val = if (16 : Nat) = 1 then 0 else b.val; rw [if_neg (by decide)]
    | ⟨1, _⟩ => show 0 = if (1 : Nat) = 1 then 0 else ch.val; rw [if_pos rfl]
    | ⟨2, _⟩ => show n.val * 128 + p.val = if (4096 : Nat) = 1 then 0 else n.val * 128 + p.val; rw [if_neg (by decide)]
  refine (broadcastInDim_apply _ _ _ (ix3 b (0 : Fin 1) ⟨n.val * 128 + p.val, by omega⟩) (ix2 b ⟨n.val * 128 + p.val, by omega⟩) (fun a => ?_)).trans ?_
  · match a with
    | ⟨0, _⟩ => show b.val = if (16 : Nat) = 1 then 0 else b.val; rw [if_neg (by decide)]
    | ⟨1, _⟩ => show n.val * 128 + p.val = if (4096 : Nat) = 1 then 0 else n.val * 128 + p.val; rw [if_neg (by decide)]
  refine (shapeCast_apply _ _ (ix2 b ⟨n.val * 128 + p.val, by omega⟩) (ix3 b n p) ?_).trans ?_
  · rw [Shape.rowMajor_val_three, Shape.rowMajor_val_two]
    show (b.val * 32 + n.val) * 128 + p.val = b.val * 4096 + (n.val * 128 + p.val)
    omega
  exact congrArg₂ (fun u v => IntOp.addi (IntOp.muli u 512#32) v)
    (slice_col x3 0 (0 : Fin 2) rfl _ _ b n p) (slice_col x3 1 (1 : Fin 2) rfl _ _ b n p)

/-- Every flat position word lies in [0, 262144) when every coordinate is in [0, 512). -/
theorem flatIdx_range (x3 : IVec Cert.KernelIdeal.S16x32x128x2 32) (hr : ∀ i, 0 ≤ (x3 i).toInt ∧ (x3 i).toInt < 512)
    (j : Cert.KernelIdeal.S16x2x4096.Idx) : 0 ≤ (Cert.KernelIdeal.Tail.flatIdx x3 j).toInt ∧ (Cert.KernelIdeal.Tail.flatIdx x3 j).toInt < 262144 := by
  obtain ⟨b, ch, k, rfl⟩ : ∃ (b : Fin 16) (ch : Fin 2) (k : Fin 4096), j = ix3 b ch k := ⟨j 0, j 1, j 2, eq_ix3 j⟩
  have hk : k = ⟨(⟨k.val / 128, by omega⟩ : Fin 32).val * 128 + (⟨k.val % 128, by omega⟩ : Fin 128).val, by omega⟩ :=
    Fin.ext (by show k.val = k.val / 128 * 128 + k.val % 128; omega)
  rw [hk, flatIdx_apply, toInt_flat _ _ (hr _).1 (hr _).2 (hr _).1 (hr _).2]
  have h0 := hr (ix4 b (⟨k.val / 128, by omega⟩ : Fin 32) (⟨k.val % 128, by omega⟩ : Fin 128) (0 : Fin 2))
  have h1 := hr (ix4 b (⟨k.val / 128, by omega⟩ : Fin 32) (⟨k.val % 128, by omega⟩ : Fin 128) (1 : Fin 2))
  constructor <;> omega

/-- The wrapped position at any index of the trailing-unit index tensor is the flat position itself. -/
theorem wrapIdx_apply (x3 : IVec Cert.KernelIdeal.S16x32x128x2 32) (hr : ∀ i, 0 ≤ (x3 i).toInt ∧ (x3 i).toInt < 512)
    (i : Cert.KernelIdeal.S16x2x4096x1.Idx) : Cert.KernelIdeal.Tail.wrapIdx x3 i = Cert.KernelIdeal.Tail.flatIdx x3 (ix3 (i 0) (i 1) (i 2)) := by
  unfold Cert.KernelIdeal.Tail.wrapIdx
  refine (shapeCast_apply _ _ i (ix3 (i 0) (i 1) (i 2)) ?_).trans ?_
  · rw [Shape.rowMajor_val_four, Shape.rowMajor_val_three]
    have h3 : (i 3).val < 1 := (i 3).isLt
    show ((i 0).val * 2 + (i 1).val) * 4096 + (i 2).val = (((i 0).val * 2 + (i 1).val) * 4096 + (i 2).val) * 1 + (i 3).val
    omega
  show Scalar.select (IntOp.cmpi .slt (Cert.KernelIdeal.Tail.flatIdx x3 (ix3 (i 0) (i 1) (i 2))) 0#32)
    (IntOp.addi (Cert.KernelIdeal.Tail.flatIdx x3 (ix3 (i 0) (i 1) (i 2))) 262144#32) (Cert.KernelIdeal.Tail.flatIdx x3 (ix3 (i 0) (i 1) (i 2))) = _
  exact wrap_of_nonneg _ _ (flatIdx_range x3 hr _).1

/-- The gather's range mask is true everywhere. -/
theorem mask_one (x3 : IVec Cert.KernelIdeal.S16x32x128x2 32) (hr : ∀ i, 0 ≤ (x3 i).toInt ∧ (x3 i).toInt < 512)
    (j : Cert.KernelIdeal.S16x2x4096.Idx) :
    Host.reduce IntOp.andi
      (andi
        (cmpi .sge (Cert.KernelIdeal.Tail.wrapIdx x3) (broadcastInDim Cert.KernelIdeal.S16x2x4096x1 ![] Cert.KernelIdeal.Facts₀.bcast_S_S16x2x4096x1 (constantI Cert.KernelIdeal.S_ 32 0#32)))
        (cmpi .sle (Cert.KernelIdeal.Tail.wrapIdx x3)
          (broadcastInDim Cert.KernelIdeal.S16x2x4096x1 ![0, 1, 2, 3] Cert.KernelIdeal.Facts₀.bcast_S1x1x1x1_S16x2x4096x1_0_1_2_3
            (broadcastInDim Cert.KernelIdeal.S1x1x1x1 ![3] Cert.KernelIdeal.Facts₀.bcast_S1_S1x1x1x1_3 (constantI Cert.KernelIdeal.S1 32 262143#32)))))
      (constantI Cert.KernelIdeal.S_ 1 1#1) Cert.KernelIdeal.Facts₀.reducesTo_S16x2x4096x1_S16x2x4096_d3 Cert.KernelIdeal.Facts₀.h_S_ j = 1#1 := by
  have hx : (andi
        (cmpi .sge (Cert.KernelIdeal.Tail.wrapIdx x3) (broadcastInDim Cert.KernelIdeal.S16x2x4096x1 ![] Cert.KernelIdeal.Facts₀.bcast_S_S16x2x4096x1 (constantI Cert.KernelIdeal.S_ 32 0#32)))
        (cmpi .sle (Cert.KernelIdeal.Tail.wrapIdx x3)
          (broadcastInDim Cert.KernelIdeal.S16x2x4096x1 ![0, 1, 2, 3] Cert.KernelIdeal.Facts₀.bcast_S1x1x1x1_S16x2x4096x1_0_1_2_3
            (broadcastInDim Cert.KernelIdeal.S1x1x1x1 ![3] Cert.KernelIdeal.Facts₀.bcast_S1_S1x1x1x1_3 (constantI Cert.KernelIdeal.S1 32 262143#32)))))
      = fun _ => 1#1 := by
    funext i
    show IntOp.andi (IntOp.cmpi .sge (Cert.KernelIdeal.Tail.wrapIdx x3 i) 0#32) (IntOp.cmpi .sle (Cert.KernelIdeal.Tail.wrapIdx x3 i) 262143#32) = 1#1
    rw [wrapIdx_apply x3 hr i]
    have h := flatIdx_range x3 hr (ix3 (i 0) (i 1) (i 2))
    exact mask_of_range _ h.1 (by omega)
  rw [hx]
  unfold Host.reduce
  exact foldl_andi_one (fun _ => 1#1) _ (fun _ => rfl)

/-- The flattened-map gather at (b, ch, k): image b, channel ch, at the k-th start index read signed and clamped. -/
theorem gatherK_apply {α : Type} (x : Cert.KernelIdeal.S16x2x262144.Idx → α) (idx : IVec Cert.KernelIdeal.S16x2x4096x1 32)
    (b : Fin 16) (ch : Fin 2) (k : Fin 4096) :
    Host.gather Cert.KernelIdeal.gather_S16x2x262144_S16x2x4096x1_S16x2x4096_n_2_01_01_2_3_111 x idx (ix3 b ch k)
      = x (ix3 b ch ⟨min (idx (ix4 b ch k (0 : Fin 1))).toInt.toNat 262143, by omega⟩) := by
  unfold Host.gather
  congr 1
  funext a
  apply Fin.ext
  match a with
  | ⟨0, _⟩ =>
    show GatherDims.start _ (ix3 b ch k) idx 0 + GatherDims.batchCoord _ (ix3 b ch k) 0 + GatherDims.offCoord _ (ix3 b ch k) 0 = b.val
    have h1 : GatherDims.start Cert.KernelIdeal.gather_S16x2x262144_S16x2x4096x1_S16x2x4096_n_2_01_01_2_3_111 (ix3 b ch k) idx 0 = 0 := rfl
    have h2 : GatherDims.batchCoord Cert.KernelIdeal.gather_S16x2x262144_S16x2x4096x1_S16x2x4096_n_2_01_01_2_3_111 (ix3 b ch k) 0 = b.val := rfl
    have h3 : GatherDims.offCoord Cert.KernelIdeal.gather_S16x2x262144_S16x2x4096x1_S16x2x4096_n_2_01_01_2_3_111 (ix3 b ch k) 0 = 0 := rfl
    rw [h1, h2, h3]; omega
  | ⟨1, _⟩ =>
    show GatherDims.start _ (ix3 b ch k) idx 1 + GatherDims.batchCoord _ (ix3 b ch k) 1 + GatherDims.offCoord _ (ix3 b ch k) 1 = ch.val
    have h1 : GatherDims.start Cert.KernelIdeal.gather_S16x2x262144_S16x2x4096x1_S16x2x4096_n_2_01_01_2_3_111 (ix3 b ch k) idx 1 = 0 := rfl
    have h2 : GatherDims.batchCoord Cert.KernelIdeal.gather_S16x2x262144_S16x2x4096x1_S16x2x4096_n_2_01_01_2_3_111 (ix3 b ch k) 1 = ch.val := rfl
    have h3 : GatherDims.offCoord Cert.KernelIdeal.gather_S16x2x262144_S16x2x4096x1_S16x2x4096_n_2_01_01_2_3_111 (ix3 b ch k) 1 = 0 := rfl
    rw [h1, h2, h3]; omega
  | ⟨2, _⟩ =>
    show GatherDims.start _ (ix3 b ch k) idx 2 + GatherDims.batchCoord _ (ix3 b ch k) 2 + GatherDims.offCoord _ (ix3 b ch k) 2 = min (idx (ix4 b ch k (0 : Fin 1))).toInt.toNat 262143
    have hs : GatherDims.siIdx Cert.KernelIdeal.gather_S16x2x262144_S16x2x4096x1_S16x2x4096_n_2_01_01_2_3_111 (ix3 b ch k) ⟨0, by decide⟩ = ix4 b ch k (0 : Fin 1) := by
      funext b'
      apply Fin.ext
      match b' with
      | ⟨0, _⟩ => rfl
      | ⟨1, _⟩ => rfl
      | ⟨2, _⟩ => rfl
      | ⟨3, _⟩ => rfl
    have h1 : GatherDims.start Cert.KernelIdeal.gather_S16x2x262144_S16x2x4096x1_S16x2x4096_n_2_01_01_2_3_111 (ix3 b ch k) idx 2
        = min (idx (GatherDims.siIdx Cert.KernelIdeal.gather_S16x2x262144_S16x2x4096x1_S16x2x4096_n_2_01_01_2_3_111 (ix3 b ch k) ⟨0, by decide⟩)).toInt.toNat 262143 := rfl
    have h2 : GatherDims.batchCoord Cert.KernelIdeal.gather_S16x2x262144_S16x2x4096x1_S16x2x4096_n_2_01_01_2_3_111 (ix3 b ch k) 2 = 0 := rfl
    have h3 : GatherDims.offCoord Cert.KernelIdeal.gather_S16x2x262144_S16x2x4096x1_S16x2x4096_n_2_01_01_2_3_111 (ix3 b ch k) 2 = 0 := rfl
    rw [h1, h2, h3, hs]; omega

/-- The flattened map at (b, ch, y * 512 + x) is the map at (b, ch, y, x). -/
theorem flatMap_apply {α : Type} (x1 : Cert.KernelIdeal.S16x2x512x512.Idx → α) (h : Cert.KernelIdeal.S16x2x512x512.ShapeCasts Cert.KernelIdeal.S16x2x262144)
    (b : Fin 16) (ch : Fin 2) (y x : Fin 512) (m : Fin 262144) (hm : m.val = y.val * 512 + x.val) :
    shapeCast Cert.KernelIdeal.S16x2x262144 x1 h (ix3 b ch m) = x1 (ix4 b ch y x) := by
  refine shapeCast_apply x1 h (ix3 b ch m) (ix4 b ch y x) ?_
  rw [Shape.rowMajor_val_four, Shape.rowMajor_val_three]
  show ((b.val * 2 + ch.val) * 512 + y.val) * 512 + x.val = (b.val * 2 + ch.val) * 262144 + m.val
  omega

/-- The kernel's gathered embedding of keypoint (b, n, p), channel ch: the map at the keypoint's row and column. -/
theorem aeGatherK_apply (x1 : FVec Ideal Cert.KernelIdeal.S16x2x512x512 .f32) (x3 : IVec Cert.KernelIdeal.S16x32x128x2 32)
    (hr : ∀ i, 0 ≤ (x3 i).toInt ∧ (x3 i).toInt < 512) (b : Fin 16) (ch : Fin 2) (n : Fin 32) (p : Fin 128) :
    Cert.KernelIdeal.Tail.aeGatherK x1 x3 (ix3 b ch ⟨n.val * 128 + p.val, by omega⟩)
      = x1 (ix4 b ch ⟨min (x3 (ix4 b n p (0 : Fin 2))).toInt.toNat 511, by omega⟩
            ⟨min (x3 (ix4 b n p (1 : Fin 2))).toInt.toNat 511, by omega⟩) := by
  unfold Cert.KernelIdeal.Tail.aeGatherK
  rw [select_apply, mask_one x3 hr, select_one]
  rw [gatherK_apply]
  refine flatMap_apply x1 _ b ch _ _ _ ?_
  have hw : Cert.KernelIdeal.Tail.wrapIdx x3 (ix4 b ch (⟨n.val * 128 + p.val, by omega⟩ : Fin 4096) (0 : Fin 1))
      = IntOp.addi (IntOp.muli (x3 (ix4 b n p (0 : Fin 2))) 512#32) (x3 (ix4 b n p (1 : Fin 2))) :=
    (wrapIdx_apply x3 hr _).trans (flatIdx_apply x3 b ch n p)
  have h0 := hr (ix4 b n p (0 : Fin 2))
  have h1 := hr (ix4 b n p (1 : Fin 2))
  show min (Cert.KernelIdeal.Tail.wrapIdx x3 (ix4 b ch (⟨n.val * 128 + p.val, by omega⟩ : Fin 4096) (0 : Fin 1))).toInt.toNat 262143
    = min (x3 (ix4 b n p (0 : Fin 2))).toInt.toNat 511 * 512 + min (x3 (ix4 b n p (1 : Fin 2))).toInt.toNat 511
  rw [hw, toInt_flat _ _ h0.1 h0.2 h1.1 h1.2]
  omega

/-- The gathered embeddings regrouped by instance: entry (b, ch, n, p) is entry (b, ch, n * 128 + p). -/
theorem regroup_apply {α : Type} (g : Cert.KernelIdeal.S16x2x4096.Idx → α) (h : Cert.KernelIdeal.S16x2x4096.ShapeCasts Cert.KernelIdeal.S16x2x32x128)
    (b : Fin 16) (ch : Fin 2) (n : Fin 32) (p : Fin 128) :
    shapeCast Cert.KernelIdeal.S16x2x32x128 g h (ix4 b ch n p) = g (ix3 b ch ⟨n.val * 128 + p.val, by omega⟩) := by
  refine shapeCast_apply g h (ix4 b ch n p) (ix3 b ch ⟨n.val * 128 + p.val, by omega⟩) ?_
  rw [Shape.rowMajor_val_four, Shape.rowMajor_val_three]
  show (b.val * 2 + ch.val) * 4096 + (n.val * 128 + p.val) = ((b.val * 2 + ch.val) * 32 + n.val) * 128 + p.val
  omega

/-- The map gather at (b, ch, n, p): image b, channel ch, row and column the two start-index components of keypoint
    (b, n, p), each read signed and clamped. -/
theorem gatherR_apply {α : Type} (x : Cert.ReferenceIdeal.S16x2x512x512.Idx → α) (idx : IVec Cert.ReferenceIdeal.S16x32x128x2 32)
    (b : Fin 16) (ch : Fin 2) (n : Fin 32) (p : Fin 128) :
    Host.gather Cert.ReferenceIdeal.gather_S16x2x512x512_S16x32x128x2_S16x2x32x128_1_23_0_0_23_3_1211 x idx (ix4 b ch n p)
      = x (ix4 b ch ⟨min (idx (ix4 b n p (0 : Fin 2))).toInt.toNat 511, by omega⟩
            ⟨min (idx (ix4 b n p (1 : Fin 2))).toInt.toNat 511, by omega⟩) := by
  unfold Host.gather
  congr 1
  funext a
  apply Fin.ext
  match a with
  | ⟨0, _⟩ =>
    show GatherDims.start _ (ix4 b ch n p) idx 0 + GatherDims.batchCoord _ (ix4 b ch n p) 0 + GatherDims.offCoord _ (ix4 b ch n p) 0 = b.val
    have h1 : GatherDims.start Cert.ReferenceIdeal.gather_S16x2x512x512_S16x32x128x2_S16x2x32x128_1_23_0_0_23_3_1211 (ix4 b ch n p) idx 0 = 0 := rfl
    have h2 : GatherDims.batchCoord Cert.ReferenceIdeal.gather_S16x2x512x512_S16x32x128x2_S16x2x32x128_1_23_0_0_23_3_1211 (ix4 b ch n p) 0 = b.val := rfl
    have h3 : GatherDims.offCoord Cert.ReferenceIdeal.gather_S16x2x512x512_S16x32x128x2_S16x2x32x128_1_23_0_0_23_3_1211 (ix4 b ch n p) 0 = 0 := rfl
    rw [h1, h2, h3]; omega
  | ⟨1, _⟩ =>
    show GatherDims.start _ (ix4 b ch n p) idx 1 + GatherDims.batchCoord _ (ix4 b ch n p) 1 + GatherDims.offCoord _ (ix4 b ch n p) 1 = ch.val
    have h1 : GatherDims.start Cert.ReferenceIdeal.gather_S16x2x512x512_S16x32x128x2_S16x2x32x128_1_23_0_0_23_3_1211 (ix4 b ch n p) idx 1 = 0 := rfl
    have h2 : GatherDims.batchCoord Cert.ReferenceIdeal.gather_S16x2x512x512_S16x32x128x2_S16x2x32x128_1_23_0_0_23_3_1211 (ix4 b ch n p) 1 = 0 := rfl
    have h3 : GatherDims.offCoord Cert.ReferenceIdeal.gather_S16x2x512x512_S16x32x128x2_S16x2x32x128_1_23_0_0_23_3_1211 (ix4 b ch n p) 1 = ch.val := rfl
    rw [h1, h2, h3]; omega
  | ⟨2, _⟩ =>
    show GatherDims.start _ (ix4 b ch n p) idx 2 + GatherDims.batchCoord _ (ix4 b ch n p) 2 + GatherDims.offCoord _ (ix4 b ch n p) 2 = min (idx (ix4 b n p (0 : Fin 2))).toInt.toNat 511
    have hs : GatherDims.siIdx Cert.ReferenceIdeal.gather_S16x2x512x512_S16x32x128x2_S16x2x32x128_1_23_0_0_23_3_1211 (ix4 b ch n p) ⟨0, by decide⟩ = ix4 b n p (0 : Fin 2) := by
      funext b'
      apply Fin.ext
      match b' with
      | ⟨0, _⟩ => rfl
      | ⟨1, _⟩ => rfl
      | ⟨2, _⟩ => rfl
      | ⟨3, _⟩ => rfl
    have h1 : GatherDims.start Cert.ReferenceIdeal.gather_S16x2x512x512_S16x32x128x2_S16x2x32x128_1_23_0_0_23_3_1211 (ix4 b ch n p) idx 2
        = min (idx (GatherDims.siIdx Cert.ReferenceIdeal.gather_S16x2x512x512_S16x32x128x2_S16x2x32x128_1_23_0_0_23_3_1211 (ix4 b ch n p) ⟨0, by decide⟩)).toInt.toNat 511 := rfl
    have h2 : GatherDims.batchCoord Cert.ReferenceIdeal.gather_S16x2x512x512_S16x32x128x2_S16x2x32x128_1_23_0_0_23_3_1211 (ix4 b ch n p) 2 = 0 := rfl
    have h3 : GatherDims.offCoord Cert.ReferenceIdeal.gather_S16x2x512x512_S16x32x128x2_S16x2x32x128_1_23_0_0_23_3_1211 (ix4 b ch n p) 2 = 0 := rfl
    rw [h1, h2, h3, hs]; omega
  | ⟨3, _⟩ =>
    show GatherDims.start _ (ix4 b ch n p) idx 3 + GatherDims.batchCoord _ (ix4 b ch n p) 3 + GatherDims.offCoord _ (ix4 b ch n p) 3 = min (idx (ix4 b n p (1 : Fin 2))).toInt.toNat 511
    have hs : GatherDims.siIdx Cert.ReferenceIdeal.gather_S16x2x512x512_S16x32x128x2_S16x2x32x128_1_23_0_0_23_3_1211 (ix4 b ch n p) ⟨1, by decide⟩ = ix4 b n p (1 : Fin 2) := by
      funext b'
      apply Fin.ext
      match b' with
      | ⟨0, _⟩ => rfl
      | ⟨1, _⟩ => rfl
      | ⟨2, _⟩ => rfl
      | ⟨3, _⟩ => rfl
    have h1 : GatherDims.start Cert.ReferenceIdeal.gather_S16x2x512x512_S16x32x128x2_S16x2x32x128_1_23_0_0_23_3_1211 (ix4 b ch n p) idx 3
        = min (idx (GatherDims.siIdx Cert.ReferenceIdeal.gather_S16x2x512x512_S16x32x128x2_S16x2x32x128_1_23_0_0_23_3_1211 (ix4 b ch n p) ⟨1, by decide⟩)).toInt.toNat 511 := rfl
    have h2 : GatherDims.batchCoord Cert.ReferenceIdeal.gather_S16x2x512x512_S16x32x128x2_S16x2x32x128_1_23_0_0_23_3_1211 (ix4 b ch n p) 3 = 0 := rfl
    have h3 : GatherDims.offCoord Cert.ReferenceIdeal.gather_S16x2x512x512_S16x32x128x2_S16x2x32x128_1_23_0_0_23_3_1211 (ix4 b ch n p) 3 = 0 := rfl
    rw [h1, h2, h3, hs]; omega

/-- The reference's row coordinate of keypoint (b, n, p): the coordinate word, wrapped by 512 when negative. -/
theorem v66_apply (x3 : IVec Cert.ReferenceIdeal.S16x32x128x2 32) (b : Fin 16) (n : Fin 32) (p : Fin 128) :
    Cert.ReferenceIdeal.Read.val_main_v66 (F := Ideal) x3 (ix3 b n p)
      = Scalar.select (IntOp.cmpi .slt (x3 (ix4 b n p (0 : Fin 2))) 0#32) (IntOp.addi (x3 (ix4 b n p (0 : Fin 2))) 512#32)
          (x3 (ix4 b n p (0 : Fin 2))) := by
  have e : Cert.ReferenceIdeal.Read.val_main_v59 (F := Ideal) x3 (ix3 b n p) = x3 (ix4 b n p (0 : Fin 2)) :=
    slice_col x3 0 (0 : Fin 2) rfl _ _ b n p
  show Scalar.select (IntOp.cmpi .slt (Cert.ReferenceIdeal.Read.val_main_v59 (F := Ideal) x3 (ix3 b n p)) 0#32)
    (IntOp.addi (Cert.ReferenceIdeal.Read.val_main_v59 (F := Ideal) x3 (ix3 b n p)) 512#32) (Cert.ReferenceIdeal.Read.val_main_v59 (F := Ideal) x3 (ix3 b n p)) = _
  rw [e]

/-- The reference's column coordinate of keypoint (b, n, p). -/
theorem v71_apply (x3 : IVec Cert.ReferenceIdeal.S16x32x128x2 32) (b : Fin 16) (n : Fin 32) (p : Fin 128) :
    Cert.ReferenceIdeal.Read.val_main_v71 (F := Ideal) x3 (ix3 b n p)
      = Scalar.select (IntOp.cmpi .slt (x3 (ix4 b n p (1 : Fin 2))) 0#32) (IntOp.addi (x3 (ix4 b n p (1 : Fin 2))) 512#32)
          (x3 (ix4 b n p (1 : Fin 2))) := by
  have e : Cert.ReferenceIdeal.Read.val_main_v61 (F := Ideal) x3 (ix3 b n p) = x3 (ix4 b n p (1 : Fin 2)) :=
    slice_col x3 1 (1 : Fin 2) rfl _ _ b n p
  show Scalar.select (IntOp.cmpi .slt (Cert.ReferenceIdeal.Read.val_main_v61 (F := Ideal) x3 (ix3 b n p)) 0#32)
    (IntOp.addi (Cert.ReferenceIdeal.Read.val_main_v61 (F := Ideal) x3 (ix3 b n p)) 512#32) (Cert.ReferenceIdeal.Read.val_main_v61 (F := Ideal) x3 (ix3 b n p)) = _
  rw [e]

/-- The start-index array of the reference's gather is the coordinate array itself when every coordinate is in [0, 512). -/
theorem v74_eq (x3 : IVec Cert.ReferenceIdeal.S16x32x128x2 32) (hr : ∀ i, 0 ≤ (x3 i).toInt ∧ (x3 i).toInt < 512) :
    Cert.ReferenceIdeal.Read.val_main_v74 (F := Ideal) x3 = x3 := by
  funext j
  obtain ⟨b, n, p, c, rfl⟩ : ∃ (b : Fin 16) (n : Fin 32) (p : Fin 128) (c : Fin 2), j = ix4 b n p c :=
    ⟨j 0, j 1, j 2, j 3, eq_ix4 j⟩
  unfold Cert.ReferenceIdeal.Read.val_main_v74
  match c with
  | ⟨0, _⟩ =>
    refine (concatenate_pair_apply_left (s₁ := Cert.ReferenceIdeal.S16x32x128x1) (s₂ := Cert.ReferenceIdeal.S16x32x128x1) _ _ _ _ (ix4 b n p (0 : Fin 2)) rfl (ix4 b n p (0 : Fin 1)) (fun a => ?_)).trans ?_
    · match a with
      | ⟨0, _⟩ => rfl
      | ⟨1, _⟩ => rfl
      | ⟨2, _⟩ => rfl
      | ⟨3, _⟩ => rfl
    refine (broadcastInDim_apply _ _ _ (ix4 b n p (0 : Fin 1)) (ix3 b n p) (fun a => ?_)).trans ?_
    · match a with
      | ⟨0, _⟩ => show b.val = if (16 : Nat) = 1 then 0 else b.val; rw [if_neg (by decide)]
      | ⟨1, _⟩ => show n.val = if (32 : Nat) = 1 then 0 else n.val; rw [if_neg (by decide)]
      | ⟨2, _⟩ => show p.val = if (128 : Nat) = 1 then 0 else p.val; rw [if_neg (by decide)]
    rw [v66_apply]
    exact wrap_of_nonneg _ _ (hr _).1
  | ⟨1, _⟩ =>
    refine (concatenate_pair_apply_right (s₁ := Cert.ReferenceIdeal.S16x32x128x1) (s₂ := Cert.ReferenceIdeal.S16x32x128x1) _ _ _ _ (ix4 b n p (1 : Fin 2)) rfl rfl (ix4 b n p (0 : Fin 1)) (fun a ha => ?_) ?_).trans ?_
    · match a with
      | ⟨0, _⟩ => rfl
      | ⟨1, _⟩ => rfl
      | ⟨2, _⟩ => rfl
      | ⟨3, _⟩ => exact absurd rfl ha
    · rfl
    refine (broadcastInDim_apply _ _ _ (ix4 b n p (0 : Fin 1)) (ix3 b n p) (fun a => ?_)).trans ?_
    · match a with
      | ⟨0, _⟩ => show b.val = if (16 : Nat) = 1 then 0 else b.val; rw [if_neg (by decide)]
      | ⟨1, _⟩ => show n.val = if (32 : Nat) = 1 then 0 else n.val; rw [if_neg (by decide)]
      | ⟨2, _⟩ => show p.val = if (128 : Nat) = 1 then 0 else p.val; rw [if_neg (by decide)]
    rw [v71_apply]
    exact wrap_of_nonneg _ _ (hr _).1

/-- The two gathers read the same embeddings: the kernel's, regrouped by instance, is the reference's. -/
theorem gathered_eq (x1 : FVec Ideal Cert.KernelIdeal.S16x2x512x512 .f32) (x3 : IVec Cert.KernelIdeal.S16x32x128x2 32)
    (hr : ∀ i, 0 ≤ (x3 i).toInt ∧ (x3 i).toInt < 512) :
    shapeCast Cert.KernelIdeal.S16x2x32x128 (Cert.KernelIdeal.Tail.aeGatherK x1 x3) Cert.KernelIdeal.Facts₀.shapeCasts_S16x2x4096_S16x2x32x128
      = Cert.ReferenceIdeal.Read.val_main_v75 (F := Ideal) x1 x3 := by
  funext j
  obtain ⟨b, ch, n, p, rfl⟩ : ∃ (b : Fin 16) (ch : Fin 2) (n : Fin 32) (p : Fin 128), j = ix4 b ch n p :=
    ⟨j 0, j 1, j 2, j 3, eq_ix4 j⟩
  rw [regroup_apply, aeGatherK_apply x1 x3 hr]
  unfold Cert.ReferenceIdeal.Read.val_main_v75
  rw [v74_eq x3 hr]
  exact (gatherR_apply x1 x3 b ch n p).symm

/-- From the gathered embeddings on, the two programs run the same operations. -/
theorem rest_eq (g : FVec Ideal Cert.KernelIdeal.S16x2x4096 .f32) (x1 : FVec Ideal Cert.KernelIdeal.S16x2x512x512 .f32) (x3 : IVec Cert.KernelIdeal.S16x32x128x2 32)
    (hg : shapeCast Cert.KernelIdeal.S16x2x32x128 g Cert.KernelIdeal.Facts₀.shapeCasts_S16x2x4096_S16x2x32x128 = Cert.ReferenceIdeal.Read.val_main_v75 (F := Ideal) x1 x3) :
    Cert.KernelIdeal.Tail.aeRest g x3 = Cert.ReferenceIdeal.Read.val_main_v97 (F := Ideal) x1 x3 := by
  unfold Cert.KernelIdeal.Tail.aeRest Cert.KernelIdeal.Tail.aeSq
  rw [hg]
  rfl

/-- The embedding term of the loss is the same function of the embedding map and the keypoint coordinates in both
    programs, when every coordinate lies in [0, 512). -/
theorem ae_eq (x1 : FVec Ideal Cert.KernelIdeal.S16x2x512x512 .f32) (x3 : IVec Cert.KernelIdeal.S16x32x128x2 32)
    (hr : ∀ i, 0 ≤ (x3 i).toInt ∧ (x3 i).toInt < 512) :
    Cert.KernelIdeal.Tail.aeK x1 x3 = Cert.ReferenceIdeal.Read.val_main_v97 (F := Ideal) x1 x3 :=
  rest_eq _ x1 x3 (gathered_eq x1 x3 hr)

end Cert.AE

end
-- ==== Proof.KI.RunValue.lean ====
/-
  The idealized kernel's run with its result named: every weakly fair execution of @main terminates, leaves the four
  arguments as launched, and leaves in the result buffer the reference's value of the four arguments. The lines
  after the region read the region's result block, the embedding map and the keypoint coordinates; the first three
  lanes of the result block hold the per-image count and the two per-image loss sums, which is what the reference's
  three per-image reductions compute, and the embedding term is the same function in both programs.
-/
import proofs.«400395_j77730318123291_3_alg».proof.Proof.KI.Frame
import proofs.«400395_j77730318123291_3_alg».proof.Proof.KI.OutValue
import proofs.«400395_j77730318123291_3_alg».proof.Proof.TailRead
import proofs.«400395_j77730318123291_3_alg».proof.Proof.KpBridge
import proofs.«400395_j77730318123291_3_alg».proof.Proof.AEBridge

set_option maxRecDepth 16384

noncomputable section

open scoped BigOperators

namespace Cert.KernelIdeal.Rv

open Cert.KernelIdeal Cert.KernelIdeal.Gen Cert.KernelIdeal.Fr
open Idealize.ShloMosaic Idealize.ShloMosaic.TcCoe Idealize.SL.Sem
open Idealize.ShloMosaic.Pipeline (Dat)
open Idealize.ShloMosaic.ValueIdx
open Cert.Focal

variable (m : (ℓ : Loc nD τ sig) → Buf (Elt Ideal) ℓ) (ρ : Dev nD → PrngReg)

/-- The result buffer as the later lines leave it, given the three lanes of the region's result block: the
    reference's value of the four arguments. -/
theorem tail_value (c : Dev nD)
    (ht : ∀ i, ∃ r : ℝ, m ((c.tc : Thread nD τ).loc main_arg2) i = (r : EReal))
    (hr : ∀ i, 0 ≤ (m ((c.tc : Thread nD τ).loc main_arg3) i).toInt ∧ (m ((c.tc : Thread nD τ).loc main_arg3) i).toInt < 512)
    (hn : ∀ b' : Fin 16, ((dats m 0 c).arrAt 2 cfg0.N : FVec Ideal S16x128 .f32) (ix2 b' (0 : Fin 128))
      = Ideal.ofBits .f32 0x00000000#32 + ∑ r : Fin 512, ∑ cc : Fin 512, posK (m ((c : Thread nD τ).loc main_arg2) (ix4 b' (0 : Fin 1) r cc)))
    (hp : ∀ b' : Fin 16, ((dats m 0 c).arrAt 2 cfg0.N : FVec Ideal S16x128 .f32) (ix2 b' (1 : Fin 128))
      = Ideal.ofBits .f32 0x00000000#32 + ∑ r : Fin 512, ∑ cc : Fin 512, plK (m ((c : Thread nD τ).loc main_arg0) (ix4 b' (0 : Fin 1) r cc)) (m ((c : Thread nD τ).loc main_arg2) (ix4 b' (0 : Fin 1) r cc)))
    (hq : ∀ b' : Fin 16, ((dats m 0 c).arrAt 2 cfg0.N : FVec Ideal S16x128 .f32) (ix2 b' (2 : Fin 128))
      = Ideal.ofBits .f32 0x00000000#32 + ∑ r : Fin 512, ∑ cc : Fin 512, nlK (m ((c : Thread nD τ).loc main_arg0) (ix4 b' (0 : Fin 1) r cc)) (m ((c : Thread nD τ).loc main_arg2) (ix4 b' (0 : Fin 1) r cc))) :
    Pipeline.afterTail₀ cfgs (dats m) 0 (V0 m) tailOps c main_v57
      = Cert.ReferenceIdeal.Read.val_main_v98 (F := Ideal) (m ((c.tc : Thread nD τ).loc main_arg0))
          (m ((c.tc : Thread nD τ).loc main_arg1)) (m ((c.tc : Thread nD τ).loc main_arg2))
          (m ((c.tc : Thread nD τ).loc main_arg3)) := by
  unfold Pipeline.afterTail₀
  refine (Cert.KernelIdeal.Tail.tail_v57 _).trans ?_
  have hW2 := Pipeline.withArrays_arr spec0 launch0.win.arr_inj c (V0 m c)
    (fun w => (dats m 0 c).arrAt w (cfgs 0).N) 2
  have hW1 := (Pipeline.withArrays_of_ne spec0 c (V0 m c) (fun w => (dats m 0 c).arrAt w (cfgs 0).N) main_arg1
    (by exact (by decide : ∀ w, Pipeline.arrRef spec0 w ≠ main_arg1))).trans (V_main_arg1 m c)
  have hW3 := (Pipeline.withArrays_of_ne spec0 c (V0 m c) (fun w => (dats m 0 c).arrAt w (cfgs 0).N) main_arg3
    (by exact (by decide : ∀ w, Pipeline.arrRef spec0 w ≠ main_arg3))).trans (V_main_arg3 m c)
  rw [hW2, hW1, hW3]
  exact Cert.Bridge.total_bridge _ (m ((c.tc : Thread nD τ).loc main_arg0)) (m ((c.tc : Thread nD τ).loc main_arg1))
    (m ((c.tc : Thread nD τ).loc main_arg2)) (m ((c.tc : Thread nD τ).loc main_arg3)) ht hr
    (Cert.AE.ae_eq _ _ hr) hn hp hq

/-- The run with its result named, given the three lanes of the region's result block on every core. -/
theorem run_value_of
    (ht : ∀ (c : Dev nD) i, ∃ r : ℝ, m ((c.tc : Thread nD τ).loc main_arg2) i = (r : EReal))
    (hr : ∀ (c : Dev nD) i, 0 ≤ (m ((c.tc : Thread nD τ).loc main_arg3) i).toInt ∧ (m ((c.tc : Thread nD τ).loc main_arg3) i).toInt < 512)
    (hn : ∀ (c : Dev nD) (b' : Fin 16), ((dats m 0 c).arrAt 2 cfg0.N : FVec Ideal S16x128 .f32) (ix2 b' (0 : Fin 128))
      = Ideal.ofBits .f32 0x00000000#32 + ∑ r : Fin 512, ∑ cc : Fin 512, posK (m ((c : Thread nD τ).loc main_arg2) (ix4 b' (0 : Fin 1) r cc)))
    (hp : ∀ (c : Dev nD) (b' : Fin 16), ((dats m 0 c).arrAt 2 cfg0.N : FVec Ideal S16x128 .f32) (ix2 b' (1 : Fin 128))
      = Ideal.ofBits .f32 0x00000000#32 + ∑ r : Fin 512, ∑ cc : Fin 512, plK (m ((c : Thread nD τ).loc main_arg0) (ix4 b' (0 : Fin 1) r cc)) (m ((c : Thread nD τ).loc main_arg2) (ix4 b' (0 : Fin 1) r cc)))
    (hq : ∀ (c : Dev nD) (b' : Fin 16), ((dats m 0 c).arrAt 2 cfg0.N : FVec Ideal S16x128 .f32) (ix2 b' (2 : Fin 128))
      = Ideal.ofBits .f32 0x00000000#32 + ∑ r : Fin 512, ∑ cc : Fin 512, nlK (m ((c : Thread nD τ).loc main_arg0) (ix4 b' (0 : Fin 1) r cc)) (m ((c : Thread nD τ).loc main_arg2) (ix4 b' (0 : Fin 1) r cc))) :
    θ_run (defs (F := Ideal)) (onTc (τ := τ) (main (F := Ideal))) ⟨m, fun _ => 0, ρ⟩ (fun r => ∀ c : Dev nD,
      r.2.mem ((c.tc : Thread nD τ).loc main_v57)
        = Cert.ReferenceIdeal.Read.val_main_v98 (F := Ideal) (m ((c.tc : Thread nD τ).loc main_arg0))
            (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨((h c).2 main_v57 (Pipeline.mem_restRefs_of main_v57 (by decide) (by decide))).trans
        (tail_value m c (ht c) (hr c) (hn c) (hp c) (hq c)),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c),
     ((h c).2 main_arg3 (Pipeline.mem_restRefs_of main_arg3 (by decide) (by decide))).trans (W_main_arg3 m (dats m) c)⟩)
    (run_main m ρ)

/-- The run with its result named: the result buffer ends at the reference's value of the four arguments, and the
    arguments end as launched. -/
theorem run_value
    (ht : ∀ (c : Dev nD) i, ∃ r : ℝ, m ((c.tc : Thread nD τ).loc main_arg2) i = (r : EReal))
    (hr : ∀ (c : Dev nD) i, 0 ≤ (m ((c.tc : Thread nD τ).loc main_arg3) i).toInt ∧ (m ((c.tc : Thread nD τ).loc main_arg3) i).toInt < 512) :
    θ_run (defs (F := Ideal)) (onTc (τ := τ) (main (F := Ideal))) ⟨m, fun _ => 0, ρ⟩ (fun r => ∀ c : Dev nD,
      r.2.mem ((c.tc : Thread nD τ).loc main_v57)
        = Cert.ReferenceIdeal.Read.val_main_v98 (F := Ideal) (m ((c.tc : Thread nD τ).loc main_arg0))
            (m ((c.tc : Thread nD τ).loc main_arg1)) (m ((c.tc : Thread nD τ).loc main_arg2))
            (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  run_value_of m ρ ht hr (fun c => Cert.KernelIdeal.Ov.out_num m c) (fun c => Cert.KernelIdeal.Ov.out_pos m c)
    (fun c => Cert.KernelIdeal.Ov.out_neg m c)

end Cert.KernelIdeal.Rv

end
-- ==== Proof.PreDecode.lean ====
import proofs.«400395_j77730318123291_3_alg».proof.Pre_finite_inputs
import proofs.«400395_j77730318123291_3_alg».proof.Proof.Gen.Pre_finite_inputs
import Idealize.ShloMosaic.Lib.ReduceAll
import Idealize.ShloMosaic.Lib.StableHlo.Predicate
import Idealize.ShloMosaic.PureOps.Ideal

noncomputable section

namespace Cert.PreDec

open Idealize.ShloMosaic
open Cert.Pre_finite_inputs

attribute [local instance] Cert.Pre_finite_inputs.Gen.facts

/-- The rank-0 shape has exactly one index. -/
instance subsingleton_scalar_idx : Subsingleton S_.Idx := ⟨fun a b => funext fun d => d.elim0⟩

/-- The one index of the rank-0 shape. -/
def i0 : S_.Idx := fun a => a.elim0

/-- The f32 pattern 0x7F800000 denotes +∞. -/
theorem ofBits_inf : Ideal.ofBits .f32 0x7F800000#32 = (⊤ : EReal) := by
  simp [Ideal.ofBits, Ideal.ieee]

/-- An extended real whose absolute value max x (-x) is strictly below +∞ is a real number. -/
theorem real_of_abs_lt_top (x : EReal)
    (h : Ideal.cmp .olt (max x (-x)) (Ideal.ofBits .f32 0x7F800000#32) = 1#1) : ∃ r : ℝ, x = (r : EReal) := by
  rw [ofBits_inf] at h
  induction x using EReal.rec with
  | bot => exact absurd h (by simp [Ideal.cmp])
  | coe r => exact ⟨r, rfl⟩
  | top => exact absurd h (by simp [Ideal.cmp])

/-- A 32-bit word that tests signed ≥ 0 and signed < 512 reads as an integer in [0, 512). -/
theorem range_of_cmp (w : BitVec 32) (h0 : IntOp.cmpi .sge w 0#32 = 1#1) (h1 : IntOp.cmpi .slt w 512#32 = 1#1) :
    0 ≤ w.toInt ∧ w.toInt < 512 := by
  rw [IntOp.cmpi_sge] at h0
  rw [IntOp.cmpi_slt] at h1
  have e0 : (0#32 : BitVec 32).toInt = 0 := by decide
  have e1 : (512#32 : BitVec 32).toInt = 512 := by decide
  rw [e0] at h0
  rw [e1] at h1
  exact ⟨h0, h1⟩

/-- The printed precondition, decoded: the three float inputs are real-valued everywhere and every
    integer input word lies in [0, 512). -/
theorem decode (a0 : FVec Ideal S16x1x512x512 .f32) (a1 : FVec Ideal S16x2x512x512 .f32)
    (a2 : FVec Ideal S16x1x512x512 .f32) (a3 : IVec S16x32x128x2 32)
    (h : Cert.Pre_finite_inputs.fn (F := Ideal) a0 a1 a2 a3 = fun _ => 1#1) :
    (∀ i, ∃ r : ℝ, a0 i = (r : EReal)) ∧ (∀ i, ∃ r : ℝ, a1 i = (r : EReal)) ∧
    (∀ i, ∃ r : ℝ, a2 i = (r : EReal)) ∧ (∀ i, 0 ≤ (a3 i).toInt ∧ (a3 i).toInt < 512) := by
  have e := congrFun h i0
  dsimp only [Cert.Pre_finite_inputs.fn, Cert.Pre_finite_inputs.fn_part1] at e
  simp only [andi, IntOp.andi_eq_one] at e
  obtain ⟨⟨⟨⟨h0, h1⟩, h2⟩, h3⟩, h4⟩ := e
  refine ⟨fun i => ?_, fun i => ?_, fun i => ?_, fun i => ?_⟩
  · exact real_of_abs_lt_top _ (Host.reduce_andi_all _ _ _ _ i0 h0 i)
  · exact real_of_abs_lt_top _ (Host.reduce_andi_all _ _ _ _ i0 h1 i)
  · exact real_of_abs_lt_top _ (Host.reduce_andi_all _ _ _ _ i0 h2 i)
  · exact range_of_cmp _ (Host.reduce_andi_all _ _ _ _ i0 h3 i) (Host.reduce_andi_all _ _ _ _ i0 h4 i)

end Cert.PreDec

end
-- ==== Proof.lean ====
/-
  A keypoint focal loss and an associative-embedding loss, added.

  The focal loss reduces, per image, three sums over the 512 × 512 pixels — the count of positive pixels
  (target = 1), the summed loss of the positive pixels and the summed, down-weighted loss of the others — and then takes
  mean_b(pos_b / norm_b) + mean_b(neg_b / norm_b) with norm_b = max(90 + 0.1·count_b, 1). The kernel computes the three
  sums in a pipelined region over a 2 × 4 grid (8 images × 128 rows × 512 columns per step), accumulating over the four
  row-steps of an image group in three [8,1] accumulators that the first row-step resets and the last one writes into
  lanes 0, 1, 2 of a [16,128] block; the host lines after the region read those lanes. The reference sums each image in
  one reduction. Over the extended reals the four block sums added in order are the one sum; per pixel the two programs
  differ only in spelling: the kernel takes the fourth root as a square root of a square root and squares 1 − target by a
  product, the reference raises to the powers 1/4 and 2, equal because the clipped prediction keeps 1 − p_t strictly
  between 0 and 1 and because the target is finite (the precondition); the logistic function is the reference's
  1/(1 + e^(−x)) by definition.

  The embedding loss gathers two channels of a [16,2,512,512] map at 32 × 128 integer points per image. The kernel
  gathers from the map flattened to 262144 entries at y·512 + x, the reference indexes (y, x) directly; for
  0 ≤ y, x < 512 (the precondition's range conjunct) both read the same entry, the kernel's out-of-range fill never
  applies, and everything after the gather is the same chain of operations in both programs.

  The three frames: the reference's is its run with the result dropped; the kernel's (word level and idealized, one text
  read at two instances) is the region's launch between the host lines before and after it, the body run once per
  control case (first, middle, last row-step).
-/
import proofs.«400395_j77730318123291_3_alg».proof.Defs
import proofs.«400395_j77730318123291_3_alg».proof.Proof.Gen.Kernel
import proofs.«400395_j77730318123291_3_alg».proof.Proof.Gen.Kernel.Skeleton
import proofs.«400395_j77730318123291_3_alg».proof.Proof.Gen.Kernel.Launch
import proofs.«400395_j77730318123291_3_alg».proof.Proof.Gen.Kernel.Points
import proofs.«400395_j77730318123291_3_alg».proof.Proof.Gen.KernelIdeal
import proofs.«400395_j77730318123291_3_alg».proof.Proof.Gen.KernelIdeal.Skeleton
import proofs.«400395_j77730318123291_3_alg».proof.Proof.Gen.KernelIdeal.Launch
import proofs.«400395_j77730318123291_3_alg».proof.Proof.Gen.KernelIdeal.Points
import proofs.«400395_j77730318123291_3_alg».proof.Proof.Gen.ReferenceIdeal
import proofs.«400395_j77730318123291_3_alg».proof.Proof.Gen.ReferenceIdeal.Run
import proofs.«400395_j77730318123291_3_alg».proof.Proof.Gen.ReferenceIdeal.Read
import proofs.«400395_j77730318123291_3_alg».proof.Proof.Gen.Pre_finite_inputs
import proofs.«400395_j77730318123291_3_alg».proof.Proof.K.Frame
import proofs.«400395_j77730318123291_3_alg».proof.Proof.KI.Frame
import proofs.«400395_j77730318123291_3_alg».proof.Proof.KI.RunValue
import proofs.«400395_j77730318123291_3_alg».proof.Proof.PreDecode
import Idealize.ShloMosaic.Adequacy
import Idealize.ShloMosaic.Init

noncomputable section

namespace Cert.Proof

open Idealize.ShloMosaic Idealize.SL.Sem

attribute [local instance] Cert.Pre_finite_inputs.Gen.facts Cert.Kernel.Gen.facts Cert.KernelIdeal.Gen.facts Cert.ReferenceIdeal.Gen.facts

/-- The word-level kernel runs to the end and leaves its four arguments unchanged. -/
theorem frame_k : Cert.frame_Kernel := fun m ρ _ => Cert.Kernel.Fr.frame (F := Bits) m ρ

/-- So does its idealization: the same text read at the extended reals. -/
theorem frame_ki : Cert.frame_KernelIdeal := fun m ρ _ => Cert.KernelIdeal.Fr.frame (F := Ideal) m ρ

/-- The reference is host operations only: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- From arguments that agree, finite targets and polygon coordinates in [0, 512): both programs end with the same
    scalar — the reference's composed term of the arguments. -/
theorem algebraic : Cert.algebraic_KernelIdeal_ReferenceIdeal := by
  intro m ρ m' ρ' hpre hagree
  have hdec := fun c => Cert.PreDec.decode _ _ _ _ (hpre c)
  refine ⟨fun c => Cert.ReferenceIdeal.Read.val_main_v98 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Rv.run_value m ρ (fun c => (hdec c).2.2.1) (fun c => (hdec c).2.2.2), ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v98_eq, (hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
